-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v115)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x800000 : Shape := ⟨2, ![64, 800000]⟩
abbrev S800000 : Shape := ⟨1, ![800000]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x32 : Shape := ⟨2, ![128, 32]⟩
abbrev S32 : Shape := ⟨1, ![32]⟩
abbrev S_ : Shape := ⟨0, ![]⟩

class Facts : Prop where
  bcast_S_S64x800000 : S_.BroadcastsInDim S64x800000 (![] : Fin 0 → Fin S64x800000.rank)
  reducesTo_S64x800000_S_d0_1 : S64x800000.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg14 : FVec F S32 .f32) (main_arg15 : IVec S800000 32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_c_28 : IVec S_ 32 := constantI S_ 32 0#32
  let main_v74 : IVec S800000 32 := broadcastInDim S800000 ![] bcast_S_S800000 main_c_28
  let main_v75 : IVec S800000 1 := cmpi .sge main_arg15 main_v74
  let main_c_29 : IVec S_ 1 := constantI S_ 1 1#1
  let main_v76 : IVec S_ 1 := (fun x v => Host.reduce IntOp.andi x v reducesTo_S800000_S_d0 h_S_) main_v75 main_c_29
  let main_v77 : IVec S_ 1 := andi main_v73 main_v76
  main_v77

def fn_part3 {F : FTy → Type} [FloatOps F] (main_arg11 : FVec F S128 .f32) (main_arg12 : FVec F S128 .f32) (main_arg13 : FVec F S128x32 .f32) (main_arg14 : FVec F S32 .f32) (main_arg15 : IVec S800000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x32 .f32 := Host.absf main_arg13
  let main_cst_24 : FVec F S_ .f32 := constant S_ .f32 0x7F800000#32
  let main_v65 : FVec F S128x32 .f32 := broadcastInDim S128x32 ![] bcast_S_S128x32 main_cst_24
  let main_v66 : IVec S128x32 1 := cmpf .olt main_v64 main_v65
  let main_c_25 : IVec S_ 1 := constantI S_ 1 1#1
  let main_v67 : IVec S_ 1 := (fun x v => Host.reduce IntOp.andi x v reducesTo_S128x32_S_d0_1 h_S_) main_v66 main_c_25
  fn_part4 (F := F) main_arg14 main_arg15 main_v63 main_v67

def fn_part2 {F : FTy → Type} [FloatOps F] (main_arg7 : FVec F S256 .f32) (main_arg8 : FVec F S256 .f32) (main_arg9 : FVec F S256x128 .f32) (main_arg10 : FVec F S128 .f32) (main_arg11 : FVec F S128 .f32) (main_arg12 : FVec F S128 .f32) (main_arg13 : FVec F S128x32 .f32) (main_arg14 : FVec F S32 .f32) (main_arg15 : IVec S800000 32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_v48 main_v49 main_v50

def fn_part1 {F : FTy → Type} [FloatOps F] (main_arg4 : FVec F S128 .f32) (main_arg5 : FVec F S128x256 .f32) (main_arg6 : FVec F S256 .f32) (main_arg7 : FVec F S256 .f32) (main_arg8 : FVec F S256 .f32) (main_arg9 : FVec F S256x128 .f32) (main_arg10 : FVec F S128 .f32) (main_arg11 : FVec F S128 .f32) (main_arg12 : FVec F S128 .f32) (main_arg13 : FVec F S128x32 .f32) (main_arg14 : FVec F S32 .f32) (main_arg15 : IVec S800000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S64x800000 .f32) (main_arg1 : FVec F S800000 .f32) (main_arg2 : FVec F S128 .f32) (main_arg3 : FVec F S128 .f32) (main_arg4 : FVec F S128 .f32) (main_arg5 : FVec F S128x256 .f32) (main_arg6 : FVec F S256 .f32) (main_arg7 : FVec F S256 .f32) (main_arg8 : FVec F S256 .f32) (main_arg9 : FVec F S256x128 .f32) (main_arg10 : FVec F S128 .f32) (main_arg11 : FVec F S128 .f32) (main_arg12 : FVec F S128 .f32) (main_arg13 : FVec F S128x32 .f32) (main_arg14 : FVec F S32 .f32) (main_arg15 : IVec S800000 32) : IVec S_ 1 :=
  let main_v0 : FVec F S64x800000 .f32 := Host.absf main_arg0
  let main_cst : FVec F S_ .f32 := constant S_ .f32 0x7F800000#32
  let main_v1 : FVec F S64x800000 .f32 := broadcastInDim S64x800000 ![] bcast_S_S64x800000 main_cst
  let main_v2 : IVec S64x800000 1 := cmpf .olt main_v0 main_v1
  let main_c : IVec S_ 1 := constantI S_ 1 1#1
  let main_v3 : IVec S_ 1 := (fun x v => Host.reduce IntOp.andi x v reducesTo_S64x800000_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S64x800000 : Shape := ⟨2, ![64, 800000]⟩
abbrev S800000 : Shape := ⟨1, ![800000]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x32 : Shape := ⟨2, ![128, 32]⟩
abbrev S32 : Shape := ⟨1, ![32]⟩
abbrev S_ : Shape := ⟨0, ![]⟩
abbrev S64x802816 : Shape := ⟨2, ![64, 802816]⟩
abbrev S802816 : Shape := ⟨1, ![802816]⟩
abbrev S1x802816 : Shape := ⟨2, ![1, 802816]⟩
abbrev S802816x1 : Shape := ⟨2, ![802816, 1]⟩
abbrev S64x128 : Shape := ⟨2, ![64, 128]⟩
abbrev S32x16384 : Shape := ⟨2, ![32, 16384]⟩
abbrev S1x16384 : Shape := ⟨2, ![1, 16384]⟩
abbrev S16384x1 : Shape := ⟨2, ![16384, 1]⟩
abbrev S32x128 : Shape := ⟨2, ![32, 128]⟩
abbrev S16384x128 : Shape := ⟨2, ![16384, 128]⟩
abbrev S1x128 : Shape := ⟨2, ![1, 128]⟩
abbrev S64x256 : Shape := ⟨2, ![64, 256]⟩
abbrev S1x256 : Shape := ⟨2, ![1, 256]⟩
abbrev S64x32 : Shape := ⟨2, ![64, 32]⟩
abbrev S1x32 : Shape := ⟨2, ![1, 32]⟩
abbrev S64 : Shape := ⟨1, ![64]⟩
abbrev S64x1 : Shape := ⟨2, ![64, 1]⟩

abbrev nBuf : Space → Nat
  | .hbm => 164
  | .vmem => 8
  | .smem => 0
  | _ => 0

abbrev hbmTy0_0 (i : Nat) : BufTy := match i % 128 with
  | 0 => ⟨S64x800000, .f32⟩
  | 1 => ⟨S800000, .f32⟩
  | 2 => ⟨S128, .f32⟩
  | 3 => ⟨S128, .f32⟩
  | 4 => ⟨S128, .f32⟩
  | 5 => ⟨S128x256, .f32⟩
  | 6 => ⟨S256, .f32⟩
  | 7 => ⟨S256, .f32⟩
  | 8 => ⟨S256, .f32⟩
  | 9 => ⟨S256x128, .f32⟩
  | 10 => ⟨S128, .f32⟩
  | 11 => ⟨S128, .f32⟩
  | 12 => ⟨S128, .f32⟩
  | 13 => ⟨S128x32, .f32⟩
  | 14 => ⟨S32, .f32⟩
  | 15 => ⟨S800000, .i32⟩
  | 16 => ⟨S_, .i32⟩
  | 17 => ⟨S_, .f32⟩
  | 18 => ⟨S64x802816, .f32⟩
  | 19 => ⟨S_, .i32⟩
  | 20 => ⟨S_, .f32⟩
  | 21 => ⟨S802816, .f32⟩
  | 22 => ⟨S_, .i32⟩
  | 23 => ⟨S_, .i32⟩
  | 24 => ⟨S802816, .i32⟩
  | 25 => ⟨S1x802816, .f32⟩
  | 26 => ⟨S802816x1, .i32⟩
  | 27 => ⟨S64x128, .f32⟩
  | 28 => ⟨S_, .f32⟩
  | 29 => ⟨S64x128, .f32⟩
  | 30 => ⟨S64x128, .f32⟩
  | 31 => ⟨S_, .f32⟩
  | 32 => ⟨S128, .f32⟩
  | 33 => ⟨S_, .f32⟩
  | 34 => ⟨S128, .f32⟩
  | 35 => ⟨S128, .f32⟩
  | 36 => ⟨S1x128, .f32⟩
  | 37 => ⟨S64x128, .f32⟩
  | 38 => ⟨S64x128, .f32⟩
  | 39 => ⟨S64x128, .f32⟩
  | 40 => ⟨S_, .f32⟩
  | 41 => ⟨S128, .f32⟩
  | 42 => ⟨S_, .f32⟩
  | 43 => ⟨S128, .f32⟩
  | 44 => ⟨S128, .f32⟩
  | 45 => ⟨S1x128, .f32⟩
  | 46 => ⟨S64x128, .f32⟩
  | 47 => ⟨S64x128, .f32⟩
  | 48 => ⟨S_, .f32⟩
  | 49 => ⟨S128, .f32⟩
  | 50 => ⟨S128, .f32⟩
  | 51 => ⟨S128, .f32⟩
  | 52 => ⟨S1x128, .f32⟩
  | 53 => ⟨S64x128, .f32⟩
  | 54 => ⟨S64x128, .f32⟩
  | 55 => ⟨S1x128, .f32⟩
  | 56 => ⟨S64x128, .f32⟩
  | 57 => ⟨S64x128, .f32⟩
  | 58 => ⟨S1x128, .f32⟩
  | 59 => ⟨S64x128, .f32⟩
  | 60 => ⟨S64x128, .f32⟩
  | 61 => ⟨S128, .f32⟩
  | 62 => ⟨S128, .f32⟩
  | 63 => ⟨S_, .f32⟩
  | 64 => ⟨S128, .f32⟩
  | 65 => ⟨S128, .f32⟩
  | 66 => ⟨S_, .f32⟩
  | 67 => ⟨S128, .f32⟩
  | 68 => ⟨S128, .f32⟩
  | 69 => ⟨S1x128, .f32⟩
  | 70 => ⟨S64x128, .f32⟩
  | 71 => ⟨S64x128, .f32⟩
  | 72 => ⟨S64x256, .f32⟩
  | 73 => ⟨S1x256, .f32⟩
  | 74 => ⟨S64x256, .f32⟩
  | 75 => ⟨S64x256, .f32⟩
  | 76 => ⟨S_, .f32⟩
  | 77 => ⟨S64x256, .f32⟩
  | 78 => ⟨S64x256, .f32⟩
  | 79 => ⟨S_, .f32⟩
  | 80 => ⟨S256, .f32⟩
  | 81 => ⟨S_, .f32⟩
  | 82 => ⟨S256, .f32⟩
  | 83 => ⟨S256, .f32⟩
  | 84 => ⟨S1x256, .f32⟩
  | 85 => ⟨S64x256, .f32⟩
  | 86 => ⟨S64x256, .f32⟩
  | 87 => ⟨S64x256, .f32⟩
  | 88 => ⟨S_, .f32⟩
  | 89 => ⟨S256, .f32⟩
  | 90 => ⟨S_, .f32⟩
  | 91 => ⟨S256, .f32⟩
  | 92 => ⟨S256, .f32⟩
  | 93 => ⟨S1x256, .f32⟩
  | 94 => ⟨S64x256, .f32⟩
  | 95 => ⟨S64x256, .f32⟩
  | 96 => ⟨S_, .f32⟩
  | 97 => ⟨S256, .f32⟩
  | 98 => ⟨S256, .f32⟩
  | 99 => ⟨S256, .f32⟩
  | 100 => ⟨S1x256, .f32⟩
  | 101 => ⟨S64x256, .f32⟩
  | 102 => ⟨S64x256, .f32⟩
  | 103 => ⟨S1x256, .f32⟩
  | 104 => ⟨S64x256, .f32⟩
  | 105 => ⟨S64x256, .f32⟩
  | 106 => ⟨S1x256, .f32⟩
  | 107 => ⟨S64x256, .f32⟩
  | 108 => ⟨S64x256, .f32⟩
  | 109 => ⟨S64x128, .f32⟩
  | 110 => ⟨S1x128, .f32⟩
  | 111 => ⟨S64x128, .f32⟩
  | 112 => ⟨S64x128, .f32⟩
  | 113 => ⟨S_, .f32⟩
  | 114 => ⟨S64x128, .f32⟩
  | 115 => ⟨S64x128, .f32⟩
  | 116 => ⟨S_, .f32⟩
  | 117 => ⟨S128, .f32⟩
  | 118 => ⟨S_, .f32⟩
  | 119 => ⟨S128, .f32⟩
  | 120 => ⟨S128, .f32⟩
  | 121 => ⟨S1x128, .f32⟩
  | 122 => ⟨S64x128, .f32⟩
  | 123 => ⟨S64x128, .f32⟩
  | 124 => ⟨S64x128, .f32⟩
  | 125 => ⟨S_, .f32⟩
  | 126 => ⟨S128, .f32⟩
  | 127 => ⟨S_, .f32⟩
  | _ => ⟨S64x800000, .f32⟩

abbrev hbmTy0_1 (i : Nat) : BufTy := match i % 128 with
  | 0 => ⟨S128, .f32⟩
  | 1 => ⟨S128, .f32⟩
  | 2 => ⟨S1x128, .f32⟩
  | 3 => ⟨S64x128, .f32⟩
  | 4 => ⟨S64x128, .f32⟩
  | 5 => ⟨S_, .f32⟩
  | 6 => ⟨S128, .f32⟩
  | 7 => ⟨S128, .f32⟩
  | 8 => ⟨S128, .f32⟩
  | 9 => ⟨S1x128, .f32⟩
  | 10 => ⟨S64x128, .f32⟩
  | 11 => ⟨S64x128, .f32⟩
  | 12 => ⟨S1x128, .f32⟩
  | 13 => ⟨S64x128, .f32⟩
  | 14 => ⟨S64x128, .f32⟩
  | 15 => ⟨S1x128, .f32⟩
  | 16 => ⟨S64x128, .f32⟩
  | 17 => ⟨S64x128, .f32⟩
  | 18 => ⟨S64x32, .f32⟩
  | 19 => ⟨S1x32, .f32⟩
  | 20 => ⟨S64x32, .f32⟩
  | 21 => ⟨S64x32, .f32⟩
  | 22 => ⟨S_, .f32⟩
  | 23 => ⟨S64, .f32⟩
  | 24 => ⟨S_, .f32⟩
  | 25 => ⟨S64, .f32⟩
  | 26 => ⟨S64, .f32⟩
  | 27 => ⟨S64x1, .f32⟩
  | 28 => ⟨S64x32, .f32⟩
  | 29 => ⟨S64x32, .f32⟩
  | 30 => ⟨S64x32, .f32⟩
  | 31 => ⟨S_, .f32⟩
  | 32 => ⟨S64, .f32⟩
  | 33 => ⟨S64x1, .f32⟩
  | 34 => ⟨S64x32, .f32⟩
  | 35 => ⟨S64x32, .f32⟩
  | _ => ⟨S64x800000, .f32⟩

abbrev hbmTy (i : Nat) : BufTy := match i / 128 with
  | 0 => hbmTy0_0 i
  | 1 => hbmTy0_1 i
  | _ => ⟨S64x800000, .f32⟩

abbrev bufTy : (tb : Table) → Fin (tcTables nBuf tb) → BufTy
  | .hbm, ⟨i, _⟩ => hbmTy i
  | .local _ .vmem, ⟨0, _⟩ => ⟨S32x16384, .f32⟩
  | .local _ .vmem, ⟨1, _⟩ => ⟨S32x16384, .f32⟩
  | .local _ .vmem, ⟨2, _⟩ => ⟨S1x16384, .f32⟩
  | .local _ .vmem, ⟨3, _⟩ => ⟨S1x16384, .f32⟩
  | .local _ .vmem, ⟨4, _⟩ => ⟨S16384x1, .i32⟩
  | .local _ .vmem, ⟨5, _⟩ => ⟨S16384x1, .i32⟩
  | .local _ .vmem, ⟨6, _⟩ => ⟨S32x128, .f32⟩
  | .local _ .vmem, ⟨7, _⟩ => ⟨S32x128, .f32⟩
  | _, _ => ⟨S64x800000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_call0_v0 : Ref sig .tc := ⟨.hbm, 17, rfl⟩
abbrev main_v0 : Ref sig .tc := ⟨.hbm, 18, rfl⟩
abbrev main_c_0 : Ref sig .tc := ⟨.hbm, 19, rfl⟩
abbrev main_call1_v0 : Ref sig .tc := ⟨.hbm, 20, rfl⟩
abbrev main_v1 : Ref sig .tc := ⟨.hbm, 21, rfl⟩
abbrev main_c_1 : Ref sig .tc := ⟨.hbm, 22, rfl⟩
abbrev main_call2_v0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_call3_cst : Ref sig .tc := ⟨.hbm, 28, rfl⟩
abbrev main_call3_v0 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_cst_2 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_3 : Ref sig .tc := ⟨.hbm, 40, rfl⟩
abbrev main_v14 : Ref sig .tc := ⟨.hbm, 41, rfl⟩
abbrev main_cst_4 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_5 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call4_cst : Ref sig .tc := ⟨.hbm, 76, rfl⟩
abbrev main_call4_v0 : Ref sig .tc := ⟨.hbm, 77, rfl⟩
abbrev main_v45 : Ref sig .tc := ⟨.hbm, 78, rfl⟩
abbrev main_cst_8 : Ref sig .tc := ⟨.hbm, 79, rfl⟩
abbrev main_v46 : Ref sig .tc := ⟨.hbm, 80, rfl⟩
abbrev main_cst_9 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_10 : Ref sig .tc := ⟨.hbm, 88, rfl⟩
abbrev main_v53 : Ref sig .tc := ⟨.hbm, 89, rfl⟩
abbrev main_cst_11 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_12 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_call5_cst : Ref sig .tc := ⟨.hbm, 113, rfl⟩
abbrev main_call5_v0 : Ref sig .tc := ⟨.hbm, 114, rfl⟩
abbrev main_v75 : Ref sig .tc := ⟨.hbm, 115, rfl⟩
abbrev main_cst_13 : Ref sig .tc := ⟨.hbm, 116, rfl⟩
abbrev main_v76 : Ref sig .tc := ⟨.hbm, 117, rfl⟩
abbrev main_cst_14 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_15 : Ref sig .tc := ⟨.hbm, 125, rfl⟩
abbrev main_v83 : Ref sig .tc := ⟨.hbm, 126, rfl⟩
abbrev main_cst_16 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_17 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_18 : Ref sig .tc := ⟨.hbm, 150, rfl⟩
abbrev main_v105 : Ref sig .tc := ⟨.hbm, 151, rfl⟩
abbrev main_cst_19 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_20 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 49], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16384x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S64x800000_S64x802816_000_028160 : S64x800000.Pads (![0, 0] : Fin 2 → Nat) ![0, 2816] ![0, 0] S64x802816
  h_S_ : 0 < S_.numel
  pads_S800000_S802816_028160 : S800000.Pads (![0] : Fin 1 → Nat) ![2816] ![0] S802816
  shapeCasts_S802816_S1x802816 : S802816.ShapeCasts S1x802816
  shapeCasts_S802816_S802816x1 : S802816.ShapeCasts S802816x1
  inb_S32x128_S32x128_0_0 : ∀ a, (![0, 0] : Fin 2 → Nat) a + S32x128.size a ≤ S32x128.size a
  h_S32x128 : 0 < S32x128.numel
  inb_S32x16384_S32x16384_0_0 : ∀ a, (![0, 0] : Fin 2 → Nat) a + S32x16384.size a ≤ S32x16384.size a
  h_S32x16384 : 0 < S32x16384.numel
  shapeCasts_S32x16384_S32x16384 : S32x16384.ShapeCasts S32x16384
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  broadcasts_S1x16384_S32x16384 : S1x16384.Broadcasts S32x16384
  inb_S16384x1_S16384x1_0_0 : ∀ a, (![0, 0] : Fin 2 → Nat) a + S16384x1.size a ≤ S16384x1.size a
  h_S16384x1 : 0 < S16384x1.numel
  shapeCasts_S16384x1_S16384x1 : S16384x1.ShapeCasts S16384x1
  iota_S16384x128_d1_w32 : S16384x128.Iotas .tc 32 [1]
  broadcasts_S16384x1_S16384x128 : S16384x1.Broadcasts S16384x128
  natLt_1_32 : 1 < 32
  bitsLt_bf16_f32 : FTy.bits .bf16 < FTy.bits .f32
  shapeCasts_S32x128_S32x128 : S32x128.ShapeCasts S32x128
  bcast_S_S64x128 : S_.BroadcastsInDim S64x128 (![] : Fin 0 → Fin S64x128.rank)
  reducesTo_S64x128_S128_d0 : S64x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  reducesTo_S64x256_S256_d0 : S64x256.ReducesTo [0] S256
  bcast_S_S256 : S_.BroadcastsInDim S256 (![] : Fin 0 → Fin S256.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  reducesTo_S64x32_S64_d1 : S64x32.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  dot_S32x16384_S16384x128_S32x128_1_0_0_1_n_n_wf : DotDims.WF S32x16384 S16384x128 S32x128 [1] [0] [0] [1] [] []
  dot_S64x128_S128x256_S64x256_1_0_0_1_n_n_wf : DotDims.WF S64x128 S128x256 S64x256 [1] [0] [0] [1] [] []
  dot_S64x256_S256x128_S64x128_1_0_0_1_n_n_wf : DotDims.WF S64x256 S256x128 S64x128 [1] [0] [0] [1] [] []
  dot_S64x128_S128x32_S64x32_1_0_0_1_n_n_wf : DotDims.WF S64x128 S128x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16384.size a ≤ S64x802816.size a
  hwx0_0 : ∀ i : grid0.Coords, EltTy.bits .f32 = 32 ∨ (Rect.block (s := S64x802816) S32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x802816.size a
  hwx0_1 : ∀ i : grid0.Coords, EltTy.bits .f32 = 32 ∨ (Rect.block (s := S1x802816) S1x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x1.size a ≤ S802816x1.size a
  hwx0_2 : ∀ i : grid0.Coords, EltTy.bits .i32 = 32 ∨ (Rect.block (s := S802816x1) S16384x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S64x128.size a
  hwx0_3 : ∀ i : grid0.Coords, EltTy.bits .f32 = 32 ∨ (Rect.block (s := S64x128) S32x128.size (cc0_transform_3 i) (hinb0_3 i)).WholeWords (EltTy.packing .f32)

variable [Facts₀]

def dot_S32x16384_S16384x128_S32x128_1_0_0_1_n_n : DotDims S32x16384 S16384x128 S32x128 where
  lhsContracting := [1]
  rhsContracting := [0]
  lhsNonContracting := [0]
  rhsNonContracting := [1]
  lhsBatch := []
  rhsBatch := []
  wf := dot_S32x16384_S16384x128_S32x128_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

abbrev win0_0 : Pipeline.Window sig grid0 :=
  Pipeline.Window.ofSpec (Memref.whole main_v0) S32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S16384x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x800000 : Shape := ⟨2, ![64, 800000]⟩
abbrev S800000 : Shape := ⟨1, ![800000]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x32 : Shape := ⟨2, ![128, 32]⟩
abbrev S32 : Shape := ⟨1, ![32]⟩
abbrev S_ : Shape := ⟨0, ![]⟩
abbrev S64x128 : Shape := ⟨2, ![64, 128]⟩
abbrev S1x800000 : Shape := ⟨2, ![1, 800000]⟩
abbrev S800000x1 : Shape := ⟨2, ![800000, 1]⟩
abbrev S1x128 : Shape := ⟨2, ![1, 128]⟩
abbrev S64x256 : Shape := ⟨2, ![64, 256]⟩
abbrev S1x256 : Shape := ⟨2, ![1, 256]⟩
abbrev S64x32 : Shape := ⟨2, ![64, 32]⟩
abbrev S1x32 : Shape := ⟨2, ![1, 32]⟩
abbrev S64 : Shape := ⟨1, ![64]⟩
abbrev S64x1 : Shape := ⟨2, ![64, 1]⟩

abbrev nBuf : Space → Nat
  | .hbm => 166
  | .vmem => 0
  | .smem => 0
  | _ => 0

abbrev hbmTy0_0 (i : Nat) : BufTy := match i % 128 with
  | 0 => ⟨S64x800000, .f32⟩
  | 1 => ⟨S800000, .f32⟩
  | 2 => ⟨S128, .f32⟩
  | 3 => ⟨S128, .f32⟩
  | 4 => ⟨S128, .f32⟩
  | 5 => ⟨S128x256, .f32⟩
  | 6 => ⟨S256, .f32⟩
  | 7 => ⟨S256, .f32⟩
  | 8 => ⟨S256, .f32⟩
  | 9 => ⟨S256x128, .f32⟩
  | 10 => ⟨S128, .f32⟩
  | 11 => ⟨S128, .f32⟩
  | 12 => ⟨S128, .f32⟩
  | 13 => ⟨S128x32, .f32⟩
  | 14 => ⟨S32, .f32⟩
  | 15 => ⟨S800000, .i32⟩
  | 16 => ⟨S_, .f32⟩
  | 17 => ⟨S64x128, .f32⟩
  | 18 => ⟨S1x800000, .f32⟩
  | 19 => ⟨S64x800000, .f32⟩
  | 20 => ⟨S64x800000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S64x128, .f32⟩
  | 30 => ⟨S_, .f32⟩
  | 31 => ⟨S64x128, .f32⟩
  | 32 => ⟨S64x128, .f32⟩
  | 33 => ⟨S_, .f32⟩
  | 34 => ⟨S128, .f32⟩
  | 35 => ⟨S_, .f32⟩
  | 36 => ⟨S128, .f32⟩
  | 37 => ⟨S128, .f32⟩
  | 38 => ⟨S1x128, .f32⟩
  | 39 => ⟨S64x128, .f32⟩
  | 40 => ⟨S64x128, .f32⟩
  | 41 => ⟨S64x128, .f32⟩
  | 42 => ⟨S_, .f32⟩
  | 43 => ⟨S128, .f32⟩
  | 44 => ⟨S_, .f32⟩
  | 45 => ⟨S128, .f32⟩
  | 46 => ⟨S128, .f32⟩
  | 47 => ⟨S1x128, .f32⟩
  | 48 => ⟨S64x128, .f32⟩
  | 49 => ⟨S64x128, .f32⟩
  | 50 => ⟨S_, .f32⟩
  | 51 => ⟨S128, .f32⟩
  | 52 => ⟨S128, .f32⟩
  | 53 => ⟨S128, .f32⟩
  | 54 => ⟨S1x128, .f32⟩
  | 55 => ⟨S64x128, .f32⟩
  | 56 => ⟨S64x128, .f32⟩
  | 57 => ⟨S1x128, .f32⟩
  | 58 => ⟨S64x128, .f32⟩
  | 59 => ⟨S64x128, .f32⟩
  | 60 => ⟨S1x128, .f32⟩
  | 61 => ⟨S64x128, .f32⟩
  | 62 => ⟨S64x128, .f32⟩
  | 63 => ⟨S128, .f32⟩
  | 64 => ⟨S128, .f32⟩
  | 65 => ⟨S_, .f32⟩
  | 66 => ⟨S128, .f32⟩
  | 67 => ⟨S128, .f32⟩
  | 68 => ⟨S_, .f32⟩
  | 69 => ⟨S128, .f32⟩
  | 70 => ⟨S128, .f32⟩
  | 71 => ⟨S1x128, .f32⟩
  | 72 => ⟨S64x128, .f32⟩
  | 73 => ⟨S64x128, .f32⟩
  | 74 => ⟨S64x256, .f32⟩
  | 75 => ⟨S1x256, .f32⟩
  | 76 => ⟨S64x256, .f32⟩
  | 77 => ⟨S64x256, .f32⟩
  | 78 => ⟨S_, .f32⟩
  | 79 => ⟨S64x256, .f32⟩
  | 80 => ⟨S64x256, .f32⟩
  | 81 => ⟨S_, .f32⟩
  | 82 => ⟨S256, .f32⟩
  | 83 => ⟨S_, .f32⟩
  | 84 => ⟨S256, .f32⟩
  | 85 => ⟨S256, .f32⟩
  | 86 => ⟨S1x256, .f32⟩
  | 87 => ⟨S64x256, .f32⟩
  | 88 => ⟨S64x256, .f32⟩
  | 89 => ⟨S64x256, .f32⟩
  | 90 => ⟨S_, .f32⟩
  | 91 => ⟨S256, .f32⟩
  | 92 => ⟨S_, .f32⟩
  | 93 => ⟨S256, .f32⟩
  | 94 => ⟨S256, .f32⟩
  | 95 => ⟨S1x256, .f32⟩
  | 96 => ⟨S64x256, .f32⟩
  | 97 => ⟨S64x256, .f32⟩
  | 98 => ⟨S_, .f32⟩
  | 99 => ⟨S256, .f32⟩
  | 100 => ⟨S256, .f32⟩
  | 101 => ⟨S256, .f32⟩
  | 102 => ⟨S1x256, .f32⟩
  | 103 => ⟨S64x256, .f32⟩
  | 104 => ⟨S64x256, .f32⟩
  | 105 => ⟨S1x256, .f32⟩
  | 106 => ⟨S64x256, .f32⟩
  | 107 => ⟨S64x256, .f32⟩
  | 108 => ⟨S1x256, .f32⟩
  | 109 => ⟨S64x256, .f32⟩
  | 110 => ⟨S64x256, .f32⟩
  | 111 => ⟨S64x128, .f32⟩
  | 112 => ⟨S1x128, .f32⟩
  | 113 => ⟨S64x128, .f32⟩
  | 114 => ⟨S64x128, .f32⟩
  | 115 => ⟨S_, .f32⟩
  | 116 => ⟨S64x128, .f32⟩
  | 117 => ⟨S64x128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S64x128, .f32⟩
  | 125 => ⟨S64x128, .f32⟩
  | 126 => ⟨S64x128, .f32⟩
  | 127 => ⟨S_, .f32⟩
  | _ => ⟨S64x800000, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S1x128, .f32⟩
  | 5 => ⟨S64x128, .f32⟩
  | 6 => ⟨S64x128, .f32⟩
  | 7 => ⟨S_, .f32⟩
  | 8 => ⟨S128, .f32⟩
  | 9 => ⟨S128, .f32⟩
  | 10 => ⟨S128, .f32⟩
  | 11 => ⟨S1x128, .f32⟩
  | 12 => ⟨S64x128, .f32⟩
  | 13 => ⟨S64x128, .f32⟩
  | 14 => ⟨S1x128, .f32⟩
  | 15 => ⟨S64x128, .f32⟩
  | 16 => ⟨S64x128, .f32⟩
  | 17 => ⟨S1x128, .f32⟩
  | 18 => ⟨S64x128, .f32⟩
  | 19 => ⟨S64x128, .f32⟩
  | 20 => ⟨S64x32, .f32⟩
  | 21 => ⟨S1x32, .f32⟩
  | 22 => ⟨S64x32, .f32⟩
  | 23 => ⟨S64x32, .f32⟩
  | 24 => ⟨S_, .f32⟩
  | 25 => ⟨S64, .f32⟩
  | 26 => ⟨S_, .f32⟩
  | 27 => ⟨S64, .f32⟩
  | 28 => ⟨S64, .f32⟩
  | 29 => ⟨S64x1, .f32⟩
  | 30 => ⟨S64x32, .f32⟩
  | 31 => ⟨S64x32, .f32⟩
  | 32 => ⟨S64x32, .f32⟩
  | 33 => ⟨S_, .f32⟩
  | 34 => ⟨S64, .f32⟩
  | 35 => ⟨S64x1, .f32⟩
  | 36 => ⟨S64x32, .f32⟩
  | 37 => ⟨S64x32, .f32⟩
  | _ => ⟨S64x800000, .f32⟩

abbrev hbmTy (i : Nat) : BufTy := match i / 128 with
  | 0 => hbmTy0_0 i
  | 1 => hbmTy0_1 i
  | _ => ⟨S64x800000, .f32⟩

abbrev bufTy : (tb : Table) → Fin (tcTables nBuf tb) → BufTy
  | .hbm, ⟨i, _⟩ => hbmTy i
  | _, _ => ⟨S64x800000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call0_cst : Ref sig .tc := ⟨.hbm, 30, rfl⟩
abbrev main_call0_v0 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_call1_cst : Ref sig .tc := ⟨.hbm, 78, rfl⟩
abbrev main_call1_v0 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_call2_cst : Ref sig .tc := ⟨.hbm, 115, rfl⟩
abbrev main_call2_v0 : Ref sig .tc := ⟨.hbm, 116, rfl⟩
abbrev main_v80 : Ref sig .tc := ⟨.hbm, 117, rfl⟩
abbrev main_cst_13 : Ref sig .tc := ⟨.hbm, 118, rfl⟩
abbrev main_v81 : Ref sig .tc := ⟨.hbm, 119, rfl⟩
abbrev main_cst_14 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_15 : Ref sig .tc := ⟨.hbm, 127, rfl⟩
abbrev main_v88 : Ref sig .tc := ⟨.hbm, 128, rfl⟩
abbrev main_cst_16 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_17 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_18 : Ref sig .tc := ⟨.hbm, 152, rfl⟩
abbrev main_v110 : Ref sig .tc := ⟨.hbm, 153, rfl⟩
abbrev main_cst_19 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_20 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩

abbrev nD : Nat := 1
abbrev τ : Topo := Topo.v7x

variable {F : FTy → Type} [FloatOps F]

class Facts₀ : Prop where
  bcast_S_S64x128 : S_.BroadcastsInDim S64x128 (![] : Fin 0 → Fin S64x128.rank)
  bcast_S800000_S1x800000_1 : S800000.BroadcastsInDim S1x800000 (![1] : Fin 1 → Fin S1x800000.rank)
  bcast_S1x800000_S64x800000_0_1 : S1x800000.BroadcastsInDim S64x800000 (![0, 1] : Fin 2 → Fin S64x800000.rank)
  bcast_S_S800000 : S_.BroadcastsInDim S800000 (![] : Fin 0 → Fin S800000.rank)
  bcast_S800000_S800000x1_0 : S800000.BroadcastsInDim S800000x1 (![0] : Fin 1 → Fin S800000x1.rank)
  reducesTo_S64x128_S128_d0 : S64x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  reducesTo_S64x256_S256_d0 : S64x256.ReducesTo [0] S256
  bcast_S_S256 : S_.BroadcastsInDim S256 (![] : Fin 0 → Fin S256.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  reducesTo_S64x32_S64_d1 : S64x32.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  scatter_S64x128_S800000x1_S64x800000_0_1_1_1_wf : ScatterDims.WF S64x128 S800000x1 S64x800000 [0] [1] [1] 1
  dot_S64x128_S128x256_S64x256_1_0_0_1_n_n_wf : DotDims.WF S64x128 S128x256 S64x256 [1] [0] [0] [1] [] []
  dot_S64x256_S256x128_S64x128_1_0_0_1_n_n_wf : DotDims.WF S64x256 S256x128 S64x128 [1] [0] [0] [1] [] []
  dot_S64x128_S128x32_S64x32_1_0_0_1_n_n_wf : DotDims.WF S64x128 S128x32 S64x32 [1] [0] [0] [1] [] []

variable [Facts₀]

def scatter_S64x128_S800000x1_S64x800000_0_1_1_1 : ScatterDims S64x128 S800000x1 S64x800000 where
  updateWindowDims := [0]
  insertedWindowDims := [1]
  scatterDimsToOperandDims := [1]
  indexVectorDim := 1
  wf := scatter_S64x128_S800000x1_S64x800000_0_1_1_1_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

class Facts : Prop extends Facts₀ where

variable [Facts]
-- ==== Proof.K.Kit.lean ====
/-
  What the frame proof of this program's one pallas_call shares: the contents of the TensorCore's buffers when the
  region is entered (the seven stretches of host lines before it: three zero-paddings and two reshapes), @main as those
  lines, the region, and the six stretches of host lines after it; that the later lines stay within the unscoped
  buffers, allocate nothing and write none of the region's four arrays; that no host line writes an argument array;
  each window's block at a grid point; the body's one branch condition (the first tile along the feature axis) in
  closed form; and the frame claim's post read off a frame run's post.
-/
import proofs.«136356_j52656299049592_1_alg».proof.Proof.Gen.Kernel.Launch
import proofs.«136356_j52656299049592_1_alg».proof.Proof.Gen.Kernel.Skeleton
import proofs.«136356_j52656299049592_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch, and the host lines after it. -/
abbrev preOps : List (List (HloOp τ sig (Elt F))) := [hostOps0, hostOps0_1, hostOps0_2, hostOps0_3, hostOps0_4, hostOps0_5, hostOps0_6]
abbrev sfxOps : List (List (HloOp τ sig (Elt F))) := [hostOps1, hostOps1_1, hostOps1_2, hostOps1_3, hostOps1_4, hostOps1_5]

/-- Core `c`'s TensorCore buffer contents when the region is entered: after the host lines before it. -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-- @main is the earlier lines, the region, the later lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5]) :=
  Pipeline.hmain_around cfgs 0 defs₀ 𝒱₀ m main [hostOps0, hostOps0_1, hostOps0_2, hostOps0_3, hostOps0_4, hostOps0_5, hostOps0_6] [hostOps1, hostOps1_1, hostOps1_2, hostOps1_3, hostOps1_4, hostOps1_5]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The later lines touch unscoped TensorCore buffers only. -/
theorem sfx_sub : ∀ ops ∈ ([hostOps1, hostOps1_1, hostOps1_2, hostOps1_3, hostOps1_4, hostOps1_5] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

/-- They allocate nothing. -/
theorem sfx_fresh : ∀ ops ∈ ([hostOps1, hostOps1_1, hostOps1_2, hostOps1_3, hostOps1_4, hostOps1_5] : List (List (HloOp τ sig (Elt F)))), ∀ op ∈ ops, op.fresh = ∅ := by
  intro ops hops op hop
  simp only [List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

/-- No line of this stretch writes one of the region's arrays: each writes its own result buffer. -/
theorem hostOps1_keeps : (hostOps1 : List (HloOp τ sig (Elt F))).Forall fun op => ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes one of the region's arrays: each writes its own result buffer. -/
theorem hostOps1_1_keeps : (hostOps1_1 : List (HloOp τ sig (Elt F))).Forall fun op => ∀ w, Proc.devRef .tc (Pipeline.arrRef spec0 w) ∉ op.writes := by
  simp only [hostOps1_1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes one of the region's arrays: each writes its own result buffer. -/
theorem hostOps1_2_keeps : (hostOps1_2 : List (HloOp τ sig (Elt F))).Forall fun op => ∀ w, Proc.devRef .tc (Pipeline.arrRef spec0 w) ∉ op.writes := by
  simp only [hostOps1_2, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes one of the region's arrays: each writes its own result buffer. -/
theorem hostOps1_3_keeps : (hostOps1_3 : List (HloOp τ sig (Elt F))).Forall fun op => ∀ w, Proc.devRef .tc (Pipeline.arrRef spec0 w) ∉ op.writes := by
  simp only [hostOps1_3, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes one of the region's arrays: each writes its own result buffer. -/
theorem hostOps1_4_keeps : (hostOps1_4 : List (HloOp τ sig (Elt F))).Forall fun op => ∀ w, Proc.devRef .tc (Pipeline.arrRef spec0 w) ∉ op.writes := by
  simp only [hostOps1_4, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes one of the region's arrays: each writes its own result buffer. -/
theorem hostOps1_5_keeps : (hostOps1_5 : List (HloOp τ sig (Elt F))).Forall fun op => ∀ w, Proc.devRef .tc (Pipeline.arrRef spec0 w) ∉ op.writes := by
  simp only [hostOps1_5, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The later lines write none of the region's arrays. -/
theorem sfx_keeps : ∀ ops ∈ ([hostOps1, hostOps1_1, hostOps1_2, hostOps1_3, hostOps1_4, hostOps1_5] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop

/-! ## The argument arrays are written by no host line -/

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes `main_arg0`, and it is none of the region's arrays: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line after the region writes `main_arg1`, and it is none of the region's arrays: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host line after the region writes `main_arg2`, and it is none of the region's arrays: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host line after the region writes `main_arg3`, and it is none of the region's arrays: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host line after the region writes `main_arg4`, and it is none of the region's arrays: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host line after the region writes `main_arg5`, and it is none of the region's arrays: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host line after the region writes `main_arg6`, and it is none of the region's arrays: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host line after the region writes `main_arg7`, and it is none of the region's arrays: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host line after the region writes `main_arg8`, and it is none of the region's arrays: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host line after the region writes `main_arg9`, and it is none of the region's arrays: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host line after the region writes `main_arg10`, and it is none of the region's arrays: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- No host line after the region writes `main_arg11`, and it is none of the region's arrays: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
/-- No host line after the region writes `main_arg12`, and it is none of the region's arrays: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
/-- No host line after the region writes `main_arg13`, and it is none of the region's arrays: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
/-- No host line after the region writes `main_arg14`, and it is none of the region's arrays: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
/-- No host line after the region writes `main_arg15`, and it is none of the region's arrays: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

set_option maxHeartbeats 1000000 in
/-- From a frame run (each array of the region at what the proof data computes, every other unscoped buffer as the
    later lines leave it) to the frame claim: every argument array is a buffer no window stages and no host line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c)),
      (((h c).2 main_arg11 (Pipeline.mem_restRefs_of main_arg11 (by decide) (by decide))).trans (W_main_arg11 m dats c)),
      (((h c).2 main_arg12 (Pipeline.mem_restRefs_of main_arg12 (by decide) (by decide))).trans (W_main_arg12 m dats c)),
      (((h c).2 main_arg13 (Pipeline.mem_restRefs_of main_arg13 (by decide) (by decide))).trans (W_main_arg13 m dats c)),
      (((h c).2 main_arg14 (Pipeline.mem_restRefs_of main_arg14 (by decide) (by decide))).trans (W_main_arg14 m dats c)),
      (((h c).2 main_arg15 (Pipeline.mem_restRefs_of main_arg15 (by decide) (by decide))).trans (W_main_arg15 m dats c))⟩) h

/-! ## The body's branch condition -/

/-- The condition of the body's one `scf.if`: the grid's second coordinate (the tile along the feature axis) is zero. -/
abbrev cond0_0 (i : grid0.Coords) : Prop := (Scalar.cmpi .ne (Scalar.extui (Scalar.cmpi .eq (BitVec.ofNat 32 (i 1).val) 0#32)) 0#32) = 1#1
/-- It holds at the points ≡ 0 (mod 49) — decided over the grid. -/
theorem hcond0_0 : ∀ t : Fin cfg0.N, cond0_0 (grid0.coords t) ↔ t.val % 49 = 0 :=
  (by decide +kernel : ∀ t : Fin grid0.N, cond0_0 (grid0.coords t) ↔ t.val % 49 = 0)

/-- No window is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The staging memrefs the body is called with -/

/-- One staging buffer of the output window, through which its contents are stated. -/
abbrev VO0_3 : View sig .tc .vmem S32x128 .f32 := (Memref.whole cc0_stg3_0 : Memref sig .tc .vmem S32x128 .f32).view
abbrev ms0_0 (t : Fin cfg0.N) : Memref sig .tc .vmem S32x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16384x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x128 .f32 := win0_3.stage (cfg0.slots t 3)
abbrev hs0_3 (t : Fin cfg0.N) : (ms0_3 t).IsWhole := hstage0_3 ((cfg0.slots t 3).cast nbuf0_3)

/-- The region's invariant: the kernel has no scratch, so only the generator register at some state. -/
theorem PhiA0_eq (c : Dev nD) :
    (Pipeline.ΦA spec0 c : sProp 𝕄) = iprop(BI.emp ∗ (∃ r, prngReg c r)) := by
  unfold Pipeline.ΦA; rw [scopedRest0_eq]

end Cert.Kernel.Hand

end
-- ==== Proof.K.RunA.lean ====
/-
  The kernel body run at a grid point that is the FIRST tile along the feature axis: it zeroes the output block, then
  adds this tile's contribution to it. The run leaves the three input blocks as they were and the output block's
  staging buffer with the stores' pieces written (the later store first); the pieces are found by the run itself.
-/
import proofs.«136356_j52656299049592_1_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a first tile, on whole staging memrefs: the inputs at their contents, the output at anything. -/
noncomputable def kernelRun0_A (c : Dev nD) (i : grid0.Coords) (arg2 : Memref sig .tc .vmem S32x16384 .f32) (harg2 : arg2.IsWhole) (arg3 : Memref sig .tc .vmem S1x16384 .f32) (harg3 : arg3.IsWhole) (arg4 : Memref sig .tc .vmem S16384x1 .i32) (harg4 : arg4.IsWhole) (arg5 : Memref sig .tc .vmem S32x128 .f32) (harg5 : arg5.IsWhole) (hc0 : cond0_0 i)
    (x0 : Vec F S32x16384 .f32) (x1 : Vec F S1x16384 .f32) (x2 : Vec F S16384x1 .i32) :
    { L3 : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0_scatter_kernel i arg2 harg2 arg3 harg3 arg4 harg4 arg5 harg5) K } := by
  refine ⟨?_, fun E K => ?run⟩
  case run =>
    simp only [cc0_scatter_kernel_eq_skeleton]; unfold cc0_scatter_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.RunB.lean ====
/-
  The kernel body run at a grid point that is NOT the first tile along the feature axis: it reads the running output
  block and adds this tile's contribution to it. The run leaves the three input blocks as they were and the output
  block's staging buffer with the one store's piece written.
-/
import proofs.«136356_j52656299049592_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later tile, on whole staging memrefs: the inputs at their contents, the output at its running contents. -/
noncomputable def kernelRun0_B (c : Dev nD) (i : grid0.Coords) (arg2 : Memref sig .tc .vmem S32x16384 .f32) (harg2 : arg2.IsWhole) (arg3 : Memref sig .tc .vmem S1x16384 .f32) (harg3 : arg3.IsWhole) (arg4 : Memref sig .tc .vmem S16384x1 .i32) (harg4 : arg4.IsWhole) (arg5 : Memref sig .tc .vmem S32x128 .f32) (harg5 : arg5.IsWhole) (hc0 : ¬cond0_0 i)
    (x0 : Vec F S32x16384 .f32) (x1 : Vec F S1x16384 .f32) (x2 : Vec F S16384x1 .i32) (xo3 : Vec F S32x128 .f32) :
    { L3 : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0_scatter_kernel i arg2 harg2 arg3 harg3 arg4 harg4 arg5 harg5) K } := by
  refine ⟨?_, fun E K => ?run⟩
  case run =>
    simp only [cc0_scatter_kernel_eq_skeleton]; unfold cc0_scatter_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.Frame.lean ====
/-
  The frame of the program's one pallas_call: what the output block's staging buffer holds after the body at each grid
  point (at a first tile along the feature axis, the run from a zeroed block; at a later tile, the run over what the
  tile before left, the buffer not having been written back in between), the pipeline's proof data over that, the
  body obligation at every point, the run of @main (the host lines, the region, the host lines), and the frame claim.
-/
import proofs.«136356_j52656299049592_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the body's stores leave at a first tile cover the output block. -/
theorem cover0_A_3 (c : Dev nD) (i : grid0.Coords) (arg2 : Memref sig .tc .vmem S32x16384 .f32) (harg2 : arg2.IsWhole) (arg3 : Memref sig .tc .vmem S1x16384 .f32) (harg3 : arg3.IsWhole) (arg4 : Memref sig .tc .vmem S16384x1 .i32) (harg4 : arg4.IsWhole) (arg5 : Memref sig .tc .vmem S32x128 .f32) (harg5 : arg5.IsWhole) (hc0 : cond0_0 i)
    (x0 : Vec F S32x16384 .f32) (x1 : Vec F S1x16384 .f32) (x2 : Vec F S16384x1 .i32) (y : S32x128.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S32x128.size (by sl_kernel_rfl) y

/-- What the body leaves in the output block's staging buffer at a first tile: its pieces read back. -/
def out0_A_3 (c : Dev nD) (i : grid0.Coords) (arg2 : Memref sig .tc .vmem S32x16384 .f32) (harg2 : arg2.IsWhole) (arg3 : Memref sig .tc .vmem S1x16384 .f32) (harg3 : arg3.IsWhole) (arg4 : Memref sig .tc .vmem S16384x1 .i32) (harg4 : arg4.IsWhole) (arg5 : Memref sig .tc .vmem S32x128 .f32) (harg5 : arg5.IsWhole) (hc0 : cond0_0 i)
    (x0 : Vec F S32x16384 .f32) (x1 : Vec F S1x16384 .f32) (x2 : Vec F S16384x1 .i32) : Vec F S32x128 .f32 :=
  VO0_3.read (Elt F) (VO0_3.writes (Elt F) VO0_3.junk (kernelRun0_A c i arg2 harg2 arg3 harg3 arg4 harg4 arg5 harg5 hc0 x0 x1 x2).1)

/-- The piece the body's store leaves at a later tile covers the output block. -/
theorem cover0_B_3 (c : Dev nD) (i : grid0.Coords) (arg2 : Memref sig .tc .vmem S32x16384 .f32) (harg2 : arg2.IsWhole) (arg3 : Memref sig .tc .vmem S1x16384 .f32) (harg3 : arg3.IsWhole) (arg4 : Memref sig .tc .vmem S16384x1 .i32) (harg4 : arg4.IsWhole) (arg5 : Memref sig .tc .vmem S32x128 .f32) (harg5 : arg5.IsWhole) (hc0 : ¬cond0_0 i)
    (x0 : Vec F S32x16384 .f32) (x1 : Vec F S1x16384 .f32) (x2 : Vec F S16384x1 .i32) (xo3 : Vec F S32x128 .f32) (y : S32x128.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S32x128.size (by sl_kernel_rfl) y

/-- What the body leaves in the output block's staging buffer at a later tile, over the running contents `xo3`. -/
def out0_B_3 (c : Dev nD) (i : grid0.Coords) (arg2 : Memref sig .tc .vmem S32x16384 .f32) (harg2 : arg2.IsWhole) (arg3 : Memref sig .tc .vmem S1x16384 .f32) (harg3 : arg3.IsWhole) (arg4 : Memref sig .tc .vmem S16384x1 .i32) (harg4 : arg4.IsWhole) (arg5 : Memref sig .tc .vmem S32x128 .f32) (harg5 : arg5.IsWhole) (hc0 : ¬cond0_0 i)
    (x0 : Vec F S32x16384 .f32) (x1 : Vec F S1x16384 .f32) (x2 : Vec F S16384x1 .i32) (xo3 : Vec F S32x128 .f32) : Vec F S32x128 .f32 :=
  VO0_3.read (Elt F) (VO0_3.writes (Elt F) VO0_3.junk (kernelRun0_B c i arg2 harg2 arg3 harg3 arg4 harg4 arg5 harg5 hc0 x0 x1 x2 xo3).1)

/-! ## What the output block's buffer holds after each point -/

/-- The accumulation: after the body at position `n`, the first-tile run's result at a first tile, otherwise the
    later-tile run's result over what position `n - 1` left. -/
def outsAt0 (c : Dev nD) : (n : ℕ) → n < cfg0.N → Vec F S32x128 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 49 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- At a first tile. -/
theorem outsAt0_A (c : Dev nD) (t : Fin cfg0.N) (h0 : t.val % 49 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- At a later tile: over what the point before left. -/
theorem outsAt0_B (c : Dev nD) (t : Fin cfg0.N) (h0 : ¬t.val % 49 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at
    `outsAt0`; the invariant the generator register only; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later tile the output block's buffer holds what the body left at the point before: the buffer is written
    back only after the last tile along the feature axis. -/
theorem before0_3_B (c : Dev nD) (t : Fin cfg0.N) (h0 : ¬t.val % 49 = 0) (d) :
    (dats m 0 c).before 3 t d = (outsAt0 m c (t.val - 1) (Nat.lt_of_le_of_lt (Nat.sub_le _ _) t.isLt)) := by
  have hN : t.val < 98 := lt_of_lt_of_eq t.isLt (show cfg0.N = 98 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks; the closed form of the branch condition says which
    run applies; at a later tile the output's buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 98 := lt_of_lt_of_eq t.isLt (show cfg0.N = 98 from N_0)
  by_cases h0 : t.val % 49 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, each of the region's arrays ending at what the proof data
    computes and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5]) (hsub := sfx_sub) (hfresh := sfx_fresh) (hkeep := sfx_keeps)
    (hmain := hmain m Variants.none) (hA := A_eq m) (hΦ := fun _ _ => rfl)

/-- The frame claim at any float instance: @main runs to the end and leaves its sixteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

end Cert.Kernel.Hand

end
-- ==== Proof.KI.Kit.lean ====
/-
  What the frame proof of this program's one pallas_call shares: the contents of the TensorCore's buffers when the
  region is entered (the seven stretches of host lines before it: three zero-paddings and two reshapes), @main as those
  lines, the region, and the six stretches of host lines after it; that the later lines stay within the unscoped
  buffers, allocate nothing and write none of the region's four arrays; that no host line writes an argument array;
  each window's block at a grid point; the body's one branch condition (the first tile along the feature axis) in
  closed form; and the frame claim's post read off a frame run's post.
-/
import proofs.«136356_j52656299049592_1_alg».proof.Proof.Gen.KernelIdeal.Launch
import proofs.«136356_j52656299049592_1_alg».proof.Proof.Gen.KernelIdeal.Skeleton
import proofs.«136356_j52656299049592_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch, and the host lines after it. -/
abbrev preOps : List (List (HloOp τ sig (Elt F))) := [hostOps0, hostOps0_1, hostOps0_2, hostOps0_3, hostOps0_4, hostOps0_5, hostOps0_6]
abbrev sfxOps : List (List (HloOp τ sig (Elt F))) := [hostOps1, hostOps1_1, hostOps1_2, hostOps1_3, hostOps1_4, hostOps1_5]

/-- Core `c`'s TensorCore buffer contents when the region is entered: after the host lines before it. -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-- @main is the earlier lines, the region, the later lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5]) :=
  Pipeline.hmain_around cfgs 0 defs₀ 𝒱₀ m main [hostOps0, hostOps0_1, hostOps0_2, hostOps0_3, hostOps0_4, hostOps0_5, hostOps0_6] [hostOps1, hostOps1_1, hostOps1_2, hostOps1_3, hostOps1_4, hostOps1_5]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The later lines touch unscoped TensorCore buffers only. -/
theorem sfx_sub : ∀ ops ∈ ([hostOps1, hostOps1_1, hostOps1_2, hostOps1_3, hostOps1_4, hostOps1_5] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

/-- They allocate nothing. -/
theorem sfx_fresh : ∀ ops ∈ ([hostOps1, hostOps1_1, hostOps1_2, hostOps1_3, hostOps1_4, hostOps1_5] : List (List (HloOp τ sig (Elt F)))), ∀ op ∈ ops, op.fresh = ∅ := by
  intro ops hops op hop
  simp only [List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

/-- No line of this stretch writes one of the region's arrays: each writes its own result buffer. -/
theorem hostOps1_keeps : (hostOps1 : List (HloOp τ sig (Elt F))).Forall fun op => ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes one of the region's arrays: each writes its own result buffer. -/
theorem hostOps1_1_keeps : (hostOps1_1 : List (HloOp τ sig (Elt F))).Forall fun op => ∀ w, Proc.devRef .tc (Pipeline.arrRef spec0 w) ∉ op.writes := by
  simp only [hostOps1_1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes one of the region's arrays: each writes its own result buffer. -/
theorem hostOps1_2_keeps : (hostOps1_2 : List (HloOp τ sig (Elt F))).Forall fun op => ∀ w, Proc.devRef .tc (Pipeline.arrRef spec0 w) ∉ op.writes := by
  simp only [hostOps1_2, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes one of the region's arrays: each writes its own result buffer. -/
theorem hostOps1_3_keeps : (hostOps1_3 : List (HloOp τ sig (Elt F))).Forall fun op => ∀ w, Proc.devRef .tc (Pipeline.arrRef spec0 w) ∉ op.writes := by
  simp only [hostOps1_3, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes one of the region's arrays: each writes its own result buffer. -/
theorem hostOps1_4_keeps : (hostOps1_4 : List (HloOp τ sig (Elt F))).Forall fun op => ∀ w, Proc.devRef .tc (Pipeline.arrRef spec0 w) ∉ op.writes := by
  simp only [hostOps1_4, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes one of the region's arrays: each writes its own result buffer. -/
theorem hostOps1_5_keeps : (hostOps1_5 : List (HloOp τ sig (Elt F))).Forall fun op => ∀ w, Proc.devRef .tc (Pipeline.arrRef spec0 w) ∉ op.writes := by
  simp only [hostOps1_5, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The later lines write none of the region's arrays. -/
theorem sfx_keeps : ∀ ops ∈ ([hostOps1, hostOps1_1, hostOps1_2, hostOps1_3, hostOps1_4, hostOps1_5] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop

/-! ## The argument arrays are written by no host line -/

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes `main_arg0`, and it is none of the region's arrays: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line after the region writes `main_arg1`, and it is none of the region's arrays: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host line after the region writes `main_arg2`, and it is none of the region's arrays: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host line after the region writes `main_arg3`, and it is none of the region's arrays: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host line after the region writes `main_arg4`, and it is none of the region's arrays: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host line after the region writes `main_arg5`, and it is none of the region's arrays: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host line after the region writes `main_arg6`, and it is none of the region's arrays: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host line after the region writes `main_arg7`, and it is none of the region's arrays: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host line after the region writes `main_arg8`, and it is none of the region's arrays: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host line after the region writes `main_arg9`, and it is none of the region's arrays: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host line after the region writes `main_arg10`, and it is none of the region's arrays: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- No host line after the region writes `main_arg11`, and it is none of the region's arrays: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
/-- No host line after the region writes `main_arg12`, and it is none of the region's arrays: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
/-- No host line after the region writes `main_arg13`, and it is none of the region's arrays: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
/-- No host line after the region writes `main_arg14`, and it is none of the region's arrays: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
/-- No host line after the region writes `main_arg15`, and it is none of the region's arrays: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

set_option maxHeartbeats 1000000 in
/-- From a frame run (each array of the region at what the proof data computes, every other unscoped buffer as the
    later lines leave it) to the frame claim: every argument array is a buffer no window stages and no host line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c)),
      (((h c).2 main_arg11 (Pipeline.mem_restRefs_of main_arg11 (by decide) (by decide))).trans (W_main_arg11 m dats c)),
      (((h c).2 main_arg12 (Pipeline.mem_restRefs_of main_arg12 (by decide) (by decide))).trans (W_main_arg12 m dats c)),
      (((h c).2 main_arg13 (Pipeline.mem_restRefs_of main_arg13 (by decide) (by decide))).trans (W_main_arg13 m dats c)),
      (((h c).2 main_arg14 (Pipeline.mem_restRefs_of main_arg14 (by decide) (by decide))).trans (W_main_arg14 m dats c)),
      (((h c).2 main_arg15 (Pipeline.mem_restRefs_of main_arg15 (by decide) (by decide))).trans (W_main_arg15 m dats c))⟩) h

/-! ## The body's branch condition -/

/-- The condition of the body's one `scf.if`: the grid's second coordinate (the tile along the feature axis) is zero. -/
abbrev cond0_0 (i : grid0.Coords) : Prop := (Scalar.cmpi .ne (Scalar.extui (Scalar.cmpi .eq (BitVec.ofNat 32 (i 1).val) 0#32)) 0#32) = 1#1
/-- It holds at the points ≡ 0 (mod 49) — decided over the grid. -/
theorem hcond0_0 : ∀ t : Fin cfg0.N, cond0_0 (grid0.coords t) ↔ t.val % 49 = 0 :=
  (by decide +kernel : ∀ t : Fin grid0.N, cond0_0 (grid0.coords t) ↔ t.val % 49 = 0)

/-- No window is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The staging memrefs the body is called with -/

/-- One staging buffer of the output window, through which its contents are stated. -/
abbrev VO0_3 : View sig .tc .vmem S32x128 .f32 := (Memref.whole cc0_stg3_0 : Memref sig .tc .vmem S32x128 .f32).view
abbrev ms0_0 (t : Fin cfg0.N) : Memref sig .tc .vmem S32x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16384x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x128 .f32 := win0_3.stage (cfg0.slots t 3)
abbrev hs0_3 (t : Fin cfg0.N) : (ms0_3 t).IsWhole := hstage0_3 ((cfg0.slots t 3).cast nbuf0_3)

/-- The region's invariant: the kernel has no scratch, so only the generator register at some state. -/
theorem PhiA0_eq (c : Dev nD) :
    (Pipeline.ΦA spec0 c : sProp 𝕄) = iprop(BI.emp ∗ (∃ r, prngReg c r)) := by
  unfold Pipeline.ΦA; rw [scopedRest0_eq]

end Cert.KernelIdeal.Hand

end
-- ==== Proof.KI.RunA.lean ====
/-
  The kernel body run at a grid point that is the FIRST tile along the feature axis: it zeroes the output block, then
  adds this tile's contribution to it. The run leaves the three input blocks as they were and the output block's
  staging buffer with the stores' pieces written (the later store first); the pieces are found by the run itself.
-/
import proofs.«136356_j52656299049592_1_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a first tile, on whole staging memrefs: the inputs at their contents, the output at anything. -/
noncomputable def kernelRun0_A (c : Dev nD) (i : grid0.Coords) (arg2 : Memref sig .tc .vmem S32x16384 .f32) (harg2 : arg2.IsWhole) (arg3 : Memref sig .tc .vmem S1x16384 .f32) (harg3 : arg3.IsWhole) (arg4 : Memref sig .tc .vmem S16384x1 .i32) (harg4 : arg4.IsWhole) (arg5 : Memref sig .tc .vmem S32x128 .f32) (harg5 : arg5.IsWhole) (hc0 : cond0_0 i)
    (x0 : Vec F S32x16384 .f32) (x1 : Vec F S1x16384 .f32) (x2 : Vec F S16384x1 .i32) :
    { L3 : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0_scatter_kernel i arg2 harg2 arg3 harg3 arg4 harg4 arg5 harg5) K } := by
  refine ⟨?_, fun E K => ?run⟩
  case run =>
    simp only [cc0_scatter_kernel_eq_skeleton]; unfold cc0_scatter_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.RunB.lean ====
/-
  The kernel body run at a grid point that is NOT the first tile along the feature axis: it reads the running output
  block and adds this tile's contribution to it. The run leaves the three input blocks as they were and the output
  block's staging buffer with the one store's piece written.
-/
import proofs.«136356_j52656299049592_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later tile, on whole staging memrefs: the inputs at their contents, the output at its running contents. -/
noncomputable def kernelRun0_B (c : Dev nD) (i : grid0.Coords) (arg2 : Memref sig .tc .vmem S32x16384 .f32) (harg2 : arg2.IsWhole) (arg3 : Memref sig .tc .vmem S1x16384 .f32) (harg3 : arg3.IsWhole) (arg4 : Memref sig .tc .vmem S16384x1 .i32) (harg4 : arg4.IsWhole) (arg5 : Memref sig .tc .vmem S32x128 .f32) (harg5 : arg5.IsWhole) (hc0 : ¬cond0_0 i)
    (x0 : Vec F S32x16384 .f32) (x1 : Vec F S1x16384 .f32) (x2 : Vec F S16384x1 .i32) (xo3 : Vec F S32x128 .f32) :
    { L3 : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0_scatter_kernel i arg2 harg2 arg3 harg3 arg4 harg4 arg5 harg5) K } := by
  refine ⟨?_, fun E K => ?run⟩
  case run =>
    simp only [cc0_scatter_kernel_eq_skeleton]; unfold cc0_scatter_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.Frame.lean ====
/-
  The frame of the program's one pallas_call: what the output block's staging buffer holds after the body at each grid
  point (at a first tile along the feature axis, the run from a zeroed block; at a later tile, the run over what the
  tile before left, the buffer not having been written back in between), the pipeline's proof data over that, the
  body obligation at every point, the run of @main (the host lines, the region, the host lines), and the frame claim.
-/
import proofs.«136356_j52656299049592_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the body's stores leave at a first tile cover the output block. -/
theorem cover0_A_3 (c : Dev nD) (i : grid0.Coords) (arg2 : Memref sig .tc .vmem S32x16384 .f32) (harg2 : arg2.IsWhole) (arg3 : Memref sig .tc .vmem S1x16384 .f32) (harg3 : arg3.IsWhole) (arg4 : Memref sig .tc .vmem S16384x1 .i32) (harg4 : arg4.IsWhole) (arg5 : Memref sig .tc .vmem S32x128 .f32) (harg5 : arg5.IsWhole) (hc0 : cond0_0 i)
    (x0 : Vec F S32x16384 .f32) (x1 : Vec F S1x16384 .f32) (x2 : Vec F S16384x1 .i32) (y : S32x128.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S32x128.size (by sl_kernel_rfl) y

/-- What the body leaves in the output block's staging buffer at a first tile: its pieces read back. -/
def out0_A_3 (c : Dev nD) (i : grid0.Coords) (arg2 : Memref sig .tc .vmem S32x16384 .f32) (harg2 : arg2.IsWhole) (arg3 : Memref sig .tc .vmem S1x16384 .f32) (harg3 : arg3.IsWhole) (arg4 : Memref sig .tc .vmem S16384x1 .i32) (harg4 : arg4.IsWhole) (arg5 : Memref sig .tc .vmem S32x128 .f32) (harg5 : arg5.IsWhole) (hc0 : cond0_0 i)
    (x0 : Vec F S32x16384 .f32) (x1 : Vec F S1x16384 .f32) (x2 : Vec F S16384x1 .i32) : Vec F S32x128 .f32 :=
  VO0_3.read (Elt F) (VO0_3.writes (Elt F) VO0_3.junk (kernelRun0_A c i arg2 harg2 arg3 harg3 arg4 harg4 arg5 harg5 hc0 x0 x1 x2).1)

/-- The piece the body's store leaves at a later tile covers the output block. -/
theorem cover0_B_3 (c : Dev nD) (i : grid0.Coords) (arg2 : Memref sig .tc .vmem S32x16384 .f32) (harg2 : arg2.IsWhole) (arg3 : Memref sig .tc .vmem S1x16384 .f32) (harg3 : arg3.IsWhole) (arg4 : Memref sig .tc .vmem S16384x1 .i32) (harg4 : arg4.IsWhole) (arg5 : Memref sig .tc .vmem S32x128 .f32) (harg5 : arg5.IsWhole) (hc0 : ¬cond0_0 i)
    (x0 : Vec F S32x16384 .f32) (x1 : Vec F S1x16384 .f32) (x2 : Vec F S16384x1 .i32) (xo3 : Vec F S32x128 .f32) (y : S32x128.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S32x128.size (by sl_kernel_rfl) y

/-- What the body leaves in the output block's staging buffer at a later tile, over the running contents `xo3`. -/
def out0_B_3 (c : Dev nD) (i : grid0.Coords) (arg2 : Memref sig .tc .vmem S32x16384 .f32) (harg2 : arg2.IsWhole) (arg3 : Memref sig .tc .vmem S1x16384 .f32) (harg3 : arg3.IsWhole) (arg4 : Memref sig .tc .vmem S16384x1 .i32) (harg4 : arg4.IsWhole) (arg5 : Memref sig .tc .vmem S32x128 .f32) (harg5 : arg5.IsWhole) (hc0 : ¬cond0_0 i)
    (x0 : Vec F S32x16384 .f32) (x1 : Vec F S1x16384 .f32) (x2 : Vec F S16384x1 .i32) (xo3 : Vec F S32x128 .f32) : Vec F S32x128 .f32 :=
  VO0_3.read (Elt F) (VO0_3.writes (Elt F) VO0_3.junk (kernelRun0_B c i arg2 harg2 arg3 harg3 arg4 harg4 arg5 harg5 hc0 x0 x1 x2 xo3).1)

/-! ## What the output block's buffer holds after each point -/

/-- The accumulation: after the body at position `n`, the first-tile run's result at a first tile, otherwise the
    later-tile run's result over what position `n - 1` left. -/
def outsAt0 (c : Dev nD) : (n : ℕ) → n < cfg0.N → Vec F S32x128 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 49 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- At a first tile. -/
theorem outsAt0_A (c : Dev nD) (t : Fin cfg0.N) (h0 : t.val % 49 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- At a later tile: over what the point before left. -/
theorem outsAt0_B (c : Dev nD) (t : Fin cfg0.N) (h0 : ¬t.val % 49 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at
    `outsAt0`; the invariant the generator register only; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later tile the output block's buffer holds what the body left at the point before: the buffer is written
    back only after the last tile along the feature axis. -/
theorem before0_3_B (c : Dev nD) (t : Fin cfg0.N) (h0 : ¬t.val % 49 = 0) (d) :
    (dats m 0 c).before 3 t d = (outsAt0 m c (t.val - 1) (Nat.lt_of_le_of_lt (Nat.sub_le _ _) t.isLt)) := by
  have hN : t.val < 98 := lt_of_lt_of_eq t.isLt (show cfg0.N = 98 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks; the closed form of the branch condition says which
    run applies; at a later tile the output's buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 98 := lt_of_lt_of_eq t.isLt (show cfg0.N = 98 from N_0)
  by_cases h0 : t.val % 49 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, each of the region's arrays ending at what the proof data
    computes and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5]) (hsub := sfx_sub) (hfresh := sfx_fresh) (hkeep := sfx_keeps)
    (hmain := hmain m Variants.none) (hA := A_eq m) (hΦ := fun _ _ => rfl)

/-- The frame claim at any float instance: @main runs to the end and leaves its sixteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

end Cert.KernelIdeal.Hand

end
-- ==== Proof.KI.Results.lean ====
/-
  The run of @main read at the two results and the sixteen argument arrays: each result buffer is one the region does
  not stage, so it ends as the host lines after the region leave it, computed from the region's arrays as the run left them.
-/
import proofs.«136356_j52656299049592_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Every weakly fair execution of @main terminates with the two results at what the later host lines compute from
    the region-exit contents, and the argument arrays unchanged. -/
theorem run_results : θ_run defs (onTc (τ := τ) (main (F := F))) ⟨m, fun _ => 0, ρ⟩ (fun r => ∀ c : Dev nD,
      r.2.mem ((c.tc : Thread nD τ).loc main_v115) = Pipeline.afterTail₀ cfgs (dats m) 0 (V0 m) [hostOps1, hostOps1_1, hostOps1_2, hostOps1_3, hostOps1_4, hostOps1_5] c main_v115
      ∧ r.2.mem ((c.tc : Thread nD τ).loc main_v40) = Pipeline.afterTail₀ cfgs (dats m) 0 (V0 m) [hostOps1, hostOps1_1, hostOps1_2, hostOps1_3, hostOps1_4, hostOps1_5] c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c).2 main_v115 (Pipeline.mem_restRefs_of main_v115 (by decide) (by decide)),
      (h c).2 main_v40 (Pipeline.mem_restRefs_of main_v40 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c))⟩) (run_main m ρ)

/-- The later host lines' results are the fold of those lines over the region-exit contents: the region's four arrays
    at what the run left, every other buffer as the region found it. -/
theorem afterTail_eq (c : Dev nD) (b : Ref sig .tc) :
    Pipeline.afterTail₀ cfgs (dats m) 0 (V0 m) [hostOps1, hostOps1_1, hostOps1_2, hostOps1_3, hostOps1_4, hostOps1_5] c b
      = StableHlo.after (List.flatten [hostOps1, hostOps1_1, hostOps1_2, hostOps1_3, hostOps1_4, hostOps1_5]) (Pipeline.withArrays spec0 c (V0 m c) fun w => (dats m 0 c).arrAt w cfg0.N) (Proc.devRef .tc b) := rfl

/-- The region-exit contents at the output array: what the run left there. -/
theorem exit_wx (c : Dev nD) :
    Pipeline.withArrays spec0 c (V0 m c) (fun w => (dats m 0 c).arrAt w cfg0.N) (Proc.devRef .tc main_v5) = (dats m 0 c).arrAt 3 cfg0.N :=
  Pipeline.withArrays_arr spec0 launch0.win.arr_inj c _ _ 3

/-- The region-exit contents at `main_arg2`: as launched. -/
theorem exit_main_arg2 (c : Dev nD) :
    Pipeline.withArrays spec0 c (V0 m c) (fun w => (dats m 0 c).arrAt w cfg0.N) (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
/-- The region-exit contents at `main_arg3`: as launched. -/
theorem exit_main_arg3 (c : Dev nD) :
    Pipeline.withArrays spec0 c (V0 m c) (fun w => (dats m 0 c).arrAt w cfg0.N) (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
/-- The region-exit contents at `main_arg4`: as launched. -/
theorem exit_main_arg4 (c : Dev nD) :
    Pipeline.withArrays spec0 c (V0 m c) (fun w => (dats m 0 c).arrAt w cfg0.N) (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)
/-- The region-exit contents at `main_arg5`: as launched. -/
theorem exit_main_arg5 (c : Dev nD) :
    Pipeline.withArrays spec0 c (V0 m c) (fun w => (dats m 0 c).arrAt w cfg0.N) (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)
/-- The region-exit contents at `main_arg6`: as launched. -/
theorem exit_main_arg6 (c : Dev nD) :
    Pipeline.withArrays spec0 c (V0 m c) (fun w => (dats m 0 c).arrAt w cfg0.N) (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)
/-- The region-exit contents at `main_arg7`: as launched. -/
theorem exit_main_arg7 (c : Dev nD) :
    Pipeline.withArrays spec0 c (V0 m c) (fun w => (dats m 0 c).arrAt w cfg0.N) (Proc.devRef .tc main_arg7) = m ((c : Thread nD τ).loc main_arg7) :=
  (Pipeline.withArrays_of_ne _ c (V0 m c) _ main_arg7 (by exact (by decide : ∀ w, Pipeline.arrRef spec0 w ≠ main_arg7))).trans (V_main_arg7 m c)
/-- The region-exit contents at `main_arg8`: as launched. -/
theorem exit_main_arg8 (c : Dev nD) :
    Pipeline.withArrays spec0 c (V0 m c) (fun w => (dats m 0 c).arrAt w cfg0.N) (Proc.devRef .tc main_arg8) = m ((c : Thread nD τ).loc main_arg8) :=
  (Pipeline.withArrays_of_ne _ c (V0 m c) _ main_arg8 (by exact (by decide : ∀ w, Pipeline.arrRef spec0 w ≠ main_arg8))).trans (V_main_arg8 m c)
/-- The region-exit contents at `main_arg9`: as launched. -/
theorem exit_main_arg9 (c : Dev nD) :
    Pipeline.withArrays spec0 c (V0 m c) (fun w => (dats m 0 c).arrAt w cfg0.N) (Proc.devRef .tc main_arg9) = m ((c : Thread nD τ).loc main_arg9) :=
  (Pipeline.withArrays_of_ne _ c (V0 m c) _ main_arg9 (by exact (by decide : ∀ w, Pipeline.arrRef spec0 w ≠ main_arg9))).trans (V_main_arg9 m c)
/-- The region-exit contents at `main_arg10`: as launched. -/
theorem exit_main_arg10 (c : Dev nD) :
    Pipeline.withArrays spec0 c (V0 m c) (fun w => (dats m 0 c).arrAt w cfg0.N) (Proc.devRef .tc main_arg10) = m ((c : Thread nD τ).loc main_arg10) :=
  (Pipeline.withArrays_of_ne _ c (V0 m c) _ main_arg10 (by exact (by decide : ∀ w, Pipeline.arrRef spec0 w ≠ main_arg10))).trans (V_main_arg10 m c)
/-- The region-exit contents at `main_arg11`: as launched. -/
theorem exit_main_arg11 (c : Dev nD) :
    Pipeline.withArrays spec0 c (V0 m c) (fun w => (dats m 0 c).arrAt w cfg0.N) (Proc.devRef .tc main_arg11) = m ((c : Thread nD τ).loc main_arg11) :=
  (Pipeline.withArrays_of_ne _ c (V0 m c) _ main_arg11 (by exact (by decide : ∀ w, Pipeline.arrRef spec0 w ≠ main_arg11))).trans (V_main_arg11 m c)
/-- The region-exit contents at `main_arg12`: as launched. -/
theorem exit_main_arg12 (c : Dev nD) :
    Pipeline.withArrays spec0 c (V0 m c) (fun w => (dats m 0 c).arrAt w cfg0.N) (Proc.devRef .tc main_arg12) = m ((c : Thread nD τ).loc main_arg12) :=
  (Pipeline.withArrays_of_ne _ c (V0 m c) _ main_arg12 (by exact (by decide : ∀ w, Pipeline.arrRef spec0 w ≠ main_arg12))).trans (V_main_arg12 m c)
/-- The region-exit contents at `main_arg13`: as launched. -/
theorem exit_main_arg13 (c : Dev nD) :
    Pipeline.withArrays spec0 c (V0 m c) (fun w => (dats m 0 c).arrAt w cfg0.N) (Proc.devRef .tc main_arg13) = m ((c : Thread nD τ).loc main_arg13) :=
  (Pipeline.withArrays_of_ne _ c (V0 m c) _ main_arg13 (by exact (by decide : ∀ w, Pipeline.arrRef spec0 w ≠ main_arg13))).trans (V_main_arg13 m c)
/-- The region-exit contents at `main_arg14`: as launched. -/
theorem exit_main_arg14 (c : Dev nD) :
    Pipeline.withArrays spec0 c (V0 m c) (fun w => (dats m 0 c).arrAt w cfg0.N) (Proc.devRef .tc main_arg14) = m ((c : Thread nD τ).loc main_arg14) :=
  (Pipeline.withArrays_of_ne _ c (V0 m c) _ main_arg14 (by exact (by decide : ∀ w, Pipeline.arrRef spec0 w ≠ main_arg14))).trans (V_main_arg14 m c)

end Cert.KernelIdeal.Hand

end
-- ==== Proof.KV.Defs.lean ====
/-
  The three arrays the region stages, as it finds them (the features, the weights and the pathway indices, each padded
  with zeros from 800000 to 802816 = 49 · 16384 along the feature axis), and one tile's contribution to one entry of the
  output block: over the 16384 features k of tile n, x[32 b + r, 16384 n + k] · w[16384 n + k] where the feature's
  index is the word p, else nothing.
-/
import proofs.«136356_j52656299049592_1_alg».proof.Proof.KI.Frame
import Idealize.ShloMosaic.PureOps.Ideal
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

/-- The padded features, weights (a row) and pathway indices (a column) as the region finds them. -/
abbrev Xp (c : Dev nD) : FVec Ideal S64x802816 .f32 := V m c main_v0
abbrev Wp (c : Dev nD) : FVec Ideal S1x802816 .f32 := V m c main_v3
abbrev Ip (c : Dev nD) : IVec S802816x1 32 := V m c main_v4

/-- The argument arrays: the features, the per-feature weights and the per-feature pathway indices. -/
abbrev Xa (c : Dev nD) : FVec Ideal S64x800000 .f32 := m ((c : Thread nD τ).loc main_arg0)
abbrev Wa (c : Dev nD) : FVec Ideal S800000 .f32 := m ((c : Thread nD τ).loc main_arg1)
abbrev Ia (c : Dev nD) : IVec S800000 32 := m ((c : Thread nD τ).loc main_arg15)

/-- Tile `n` of batch block `b`: its contribution to entry (r, p) of the output block. -/
def tileSum (c : Dev nD) (b : Fin 2) (n : Fin 49) (r : Fin 32) (p : Fin 128) : EReal :=
  ∑ k : Fin 16384,
    if Ip m c (ix2 (⟨16384 * n.val + k.val, by omega⟩ : Fin 802816) (0 : Fin 1)) = BitVec.ofNat 32 p.val then
      Xp m c (ix2 (⟨32 * b.val + r.val, by omega⟩ : Fin 64) (⟨16384 * n.val + k.val, by omega⟩ : Fin 802816))
        * Wp m c (ix2 (0 : Fin 1) (⟨16384 * n.val + k.val, by omega⟩ : Fin 802816))
    else 0

end Cert.KernelIdeal.Hand

end
-- ==== Proof.KV.Piece.lean ====
/-
  What the body leaves in the output block's staging buffer, as a value: at a first tile the block of zeros is
  stored, read back, and this tile's contribution added to it; at a later tile the contribution is added to the
  running contents. Both hold for any float values.
-/
import proofs.«136356_j52656299049592_1_alg».proof.Proof.KV.Defs
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

open Idealize.ShloMosaic.Tactic

variable {F : FTy → Type} [FloatOps F]

/-- The stores' offset: the block's origin. -/
theorem origin2 : (![0, 0] : Fin 2 → Nat) = fun _ => 0 := funext fun a => by fin_cases a <;> rfl

/-- At a later tile: the running contents plus this tile's contribution. -/
theorem out0_B_3_eq (c : Dev nD) (i : grid0.Coords) (a2 : Memref sig .tc .vmem S32x16384 .f32) (h2 : a2.IsWhole)
    (a3 : Memref sig .tc .vmem S1x16384 .f32) (h3 : a3.IsWhole) (a4 : Memref sig .tc .vmem S16384x1 .i32) (h4 : a4.IsWhole)
    (a5 : Memref sig .tc .vmem S32x128 .f32) (h5 : a5.IsWhole) (hc : ¬cond0_0 i)
    (x0 : Vec F S32x16384 .f32) (x1 : Vec F S1x16384 .f32) (x2 : Vec F S16384x1 .i32) (xo : Vec F S32x128 .f32) :
    out0_B_3 c i a2 h2 a3 h3 a4 h4 a5 h5 hc x0 x1 x2 xo = k0_pay2 x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero origin2]
  simp only [View.readAt_eq_ld, h2.read_unread, h3.read_unread, h4.read_unread, h5.read_unread,
    View.ld_unit_zero (S := S32x16384) origin2, View.ld_unit_zero (S := S1x16384) origin2,
    View.ld_unit_zero (S := S16384x1) origin2, View.ld_unit_zero (S := S32x128) origin2]

/-- At a first tile: the block of zeros plus this tile's contribution. -/
theorem out0_A_3_eq (c : Dev nD) (i : grid0.Coords) (a2 : Memref sig .tc .vmem S32x16384 .f32) (h2 : a2.IsWhole)
    (a3 : Memref sig .tc .vmem S1x16384 .f32) (h3 : a3.IsWhole) (a4 : Memref sig .tc .vmem S16384x1 .i32) (h4 : a4.IsWhole)
    (a5 : Memref sig .tc .vmem S32x128 .f32) (h5 : a5.IsWhole) (hc : cond0_0 i)
    (x0 : Vec F S32x16384 .f32) (x1 : Vec F S1x16384 .f32) (x2 : Vec F S16384x1 .i32) :
    out0_A_3 c i a2 h2 a3 h3 a4 h4 a5 h5 hc x0 x1 x2 = k0_pay2 x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S32x128) origin2, View.readCov_unit_zero (S := S32x128) _ origin2]
  simp only [View.readAt_eq_ld, h2.read_unread, h3.read_unread, h4.read_unread,
    View.ld_unit_zero (S := S32x16384) origin2, View.ld_unit_zero (S := S1x16384) origin2,
    View.ld_unit_zero (S := S16384x1) origin2]

end Cert.KernelIdeal.Hand

end
-- ==== Proof.KV.Pay.lean ====
/-
  One entry of the body's stored values, over the extended reals. The block of zeros is zero everywhere. The
  accumulating store: entry (r, p) of what it stores is the running entry plus, over the 16384 features k of the tile,
  x[r, k] · w[k] where the feature's index word is p, and nothing where it is not — the product with the 0/1 matrix
  "index of feature k is column p" summed over k; the narrowings to 16 bits are the identity on the extended reals.
-/
import proofs.«136356_j52656299049592_1_alg».proof.Proof.KV.Defs
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The product's operand indices -/

theorem mm_lhs_0 (i : S32x128.Idx) (q : dot_S32x16384_S16384x128_S32x128_1_0_0_1_n_n.contr.Idx) :
    (dot_S32x16384_S16384x128_S32x128_1_0_0_1_n_n.lhsIdx i q 0).val = (i 0).val := by
  unfold DotDims.lhsIdx
  rw [dif_neg (show ¬(0 : Fin S32x16384.rank) ∈ dot_S32x16384_S16384x128_S32x128_1_0_0_1_n_n.lhsBatch by decide), dif_pos (show (0 : Fin S32x16384.rank) ∈ dot_S32x16384_S16384x128_S32x128_1_0_0_1_n_n.lhsNonContracting by decide)]
  rfl
theorem mm_lhs_1 (i : S32x128.Idx) (q : dot_S32x16384_S16384x128_S32x128_1_0_0_1_n_n.contr.Idx) :
    (dot_S32x16384_S16384x128_S32x128_1_0_0_1_n_n.lhsIdx i q 1).val = (q ⟨0, by decide⟩).val :=
  dot_S32x16384_S16384x128_S32x128_1_0_0_1_n_n.lhsIdx_val_of_single rfl i q
theorem mm_rhs_0 (i : S32x128.Idx) (q : dot_S32x16384_S16384x128_S32x128_1_0_0_1_n_n.contr.Idx) :
    (dot_S32x16384_S16384x128_S32x128_1_0_0_1_n_n.rhsIdx i q 0).val = (q ⟨0, by decide⟩).val :=
  dot_S32x16384_S16384x128_S32x128_1_0_0_1_n_n.rhsIdx_val_of_single rfl i q
theorem mm_rhs_1 (i : S32x128.Idx) (q : dot_S32x16384_S16384x128_S32x128_1_0_0_1_n_n.contr.Idx) :
    (dot_S32x16384_S16384x128_S32x128_1_0_0_1_n_n.rhsIdx i q 1).val = (i 1).val := by
  unfold DotDims.rhsIdx
  rw [dif_neg (show ¬(1 : Fin S16384x128.rank) ∈ dot_S32x16384_S16384x128_S32x128_1_0_0_1_n_n.rhsBatch by decide), dif_pos (show (1 : Fin S16384x128.rank) ∈ dot_S32x16384_S16384x128_S32x128_1_0_0_1_n_n.rhsNonContracting by decide)]
  rfl

/-- The product into a zero block, at entry (r, p): the sum over the contracted axis. -/
theorem mm_apply (L : FVec Ideal S32x16384 .bf16) (R : FVec Ideal S16384x128 .bf16) (r : Fin 32) (p : Fin 128) :
    FloatOps.matmul dot_S32x16384_S16384x128_S32x128_1_0_0_1_n_n none L R (constant (F := Ideal) S32x128 .f32 0x00000000#32) (ix2 r p)
      = ∑ k : Fin 16384, L (ix2 r k) * R (ix2 k p) := by
  rw [Ideal.matmul_constant_zero_apply, ← Equiv.sum_comp (contrEquiv1 dot_S32x16384_S16384x128_S32x128_1_0_0_1_n_n 16384 rfl rfl).symm]
  refine Finset.sum_congr rfl fun k _ => ?_
  have hk := contrEquiv1_symm_val dot_S32x16384_S16384x128_S32x128_1_0_0_1_n_n 16384 rfl rfl k
  have el : dot_S32x16384_S16384x128_S32x128_1_0_0_1_n_n.lhsIdx (ix2 r p) ((contrEquiv1 dot_S32x16384_S16384x128_S32x128_1_0_0_1_n_n 16384 rfl rfl).symm k) = ix2 r k := funext fun a => Fin.ext (by
    match a with
    | ⟨0, _⟩ => exact mm_lhs_0 _ _
    | ⟨1, _⟩ => exact (mm_lhs_1 _ _).trans hk)
  have er : dot_S32x16384_S16384x128_S32x128_1_0_0_1_n_n.rhsIdx (ix2 r p) ((contrEquiv1 dot_S32x16384_S16384x128_S32x128_1_0_0_1_n_n 16384 rfl rfl).symm k) = ix2 k p := funext fun a => Fin.ext (by
    match a with
    | ⟨0, _⟩ => exact (mm_rhs_0 _ _).trans hk
    | ⟨1, _⟩ => exact mm_rhs_1 _ _)
  rw [el, er]

/-! ## The two operands at an entry -/

/-- An index column [a, 1] broadcast to [a, b] reads, at (k, p), the column at k. -/
theorem bcol_apply {α : Type} {a b : ℕ} (v : (⟨2, ![a, 1]⟩ : Shape).Idx → α) (h : (⟨2, ![a, 1]⟩ : Shape).Broadcasts ⟨2, ![a, b]⟩)
    (k : Fin a) (p : Fin b) : broadcastTo ⟨2, ![a, b]⟩ v h (ix2 k p) = v (ix2 k (0 : Fin 1)) := by
  refine broadcastTo_apply v h (ix2 k p) (ix2 k (0 : Fin 1)) fun ax => ?_
  match ax with
  | ⟨0, _⟩ =>
    show k.val = if a = 1 then 0 else k.val
    split
    · have := k.isLt; omega
    · rfl
  | ⟨1, _⟩ => rfl

/-- A one-bit word widened and read as a signed integer: 1 for the set bit, 0 for the clear one. -/
theorem bit_toReal (x y : BitVec 32) :
    ((((IntOp.cmpi .eq x y).setWidth 32).toInt : ℝ) : EReal) = if x = y then 1 else 0 := by
  by_cases h : x = y
  · have e : IntOp.cmpi .eq x y = 1#1 := by simp [IntOp.cmpi, h]
    rw [if_pos h, e, show ((1#1 : BitVec 1).setWidth 32).toInt = (1 : ℤ) from by decide]
    norm_num
  · have e : IntOp.cmpi .eq x y = 0#1 := by
      show BitVec.ofBool (x == y) = 0#1
      rw [beq_eq_false_iff_ne.mpr h]; rfl
    rw [if_neg h, e, show ((0#1 : BitVec 1).setWidth 32).toInt = (0 : ℤ) from by decide]
    norm_num

/-- The 0/1 matrix "feature k's index word is column p", at (k, p). -/
theorem onehot_apply (v9 : IVec S16384x1 32) (k : Fin 16384) (p : Fin 128) :
    (truncf .bf16 (sitofp .f32 (extui 32 (cmpi .eq (broadcastTo S16384x128 (shapeCast S16384x1 v9 shapeCasts_S16384x1_S16384x1) broadcasts_S16384x1_S16384x128)
        (iota .tc S16384x128 32 [1] iota_S16384x128_d1_w32)) natLt_1_32) : FVec Ideal S16384x128 .f32) bitsLt_bf16_f32 : FVec Ideal S16384x128 .bf16) (ix2 k p)
      = if v9 (ix2 k (0 : Fin 1)) = BitVec.ofNat 32 p.val then 1 else 0 := by
  rw [shapeCast_self]
  show ((((IntOp.cmpi .eq (broadcastTo S16384x128 v9 broadcasts_S16384x1_S16384x128 (ix2 k p)) (iota .tc S16384x128 32 [1] iota_S16384x128_d1_w32 (ix2 k p))).setWidth 32).toInt : ℝ) : EReal) = _
  rw [bit_toReal, bcol_apply v9 broadcasts_S16384x1_S16384x128 k p, iota_single_apply]

/-- The weighted features, at (r, k). -/
theorem weighted_apply (v3 : FVec Ideal S32x16384 .f32) (v5 : FVec Ideal S1x16384 .f32) (r : Fin 32) (k : Fin 16384) :
    (truncf .bf16 (mulf (shapeCast S32x16384 v3 shapeCasts_S32x16384_S32x16384)
        (broadcastTo S32x16384 (shapeCast S1x16384 v5 shapeCasts_S1x16384_S1x16384) broadcasts_S1x16384_S32x16384)) bitsLt_bf16_f32 : FVec Ideal S32x16384 .bf16) (ix2 r k)
      = v3 (ix2 r k) * v5 (ix2 (0 : Fin 1) k) := by
  rw [shapeCast_self, shapeCast_self]
  show v3 (ix2 r k) * broadcastTo S32x16384 v5 broadcasts_S1x16384_S32x16384 (ix2 r k) = _
  rw [broadcastTo_1b_ab_apply v5 broadcasts_S1x16384_S32x16384 r k]

/-! ## The stored values at an entry -/

/-- The block of zeros is zero at every entry. -/
theorem k0_pay1_apply (j : S32x128.Idx) : k0_pay1 (F := Ideal) j = 0 := by
  show Ideal.ofBits .f32 0x00000000#32 = 0
  exact Ideal.ofBits_zero_f32

/-- The accumulating store at entry (r, p). -/
theorem k0_pay2_apply (v3 : FVec Ideal S32x16384 .f32) (v5 : FVec Ideal S1x16384 .f32) (v9 : IVec S16384x1 32) (v18 : FVec Ideal S32x128 .f32)
    (r : Fin 32) (p : Fin 128) :
    k0_pay2 (F := Ideal) v3 v5 v9 v18 (ix2 r p)
      = v18 (ix2 r p) + ∑ k : Fin 16384, if v9 (ix2 k (0 : Fin 1)) = BitVec.ofNat 32 p.val then v3 (ix2 r k) * v5 (ix2 (0 : Fin 1) k) else 0 := by
  unfold k0_pay2
  refine (congrArg₂ (· + ·) (congrFun (shapeCast_self v18 shapeCasts_S32x128_S32x128) (ix2 r p)) (mm_apply _ _ r p)).trans ?_
  refine congrArg (v18 (ix2 r p) + ·) (Finset.sum_congr rfl fun k _ => ?_)
  refine (congrArg₂ (· * ·) (weighted_apply v3 v5 r k) (onehot_apply v9 k p)).trans ?_
  rw [mul_ite, mul_one, mul_zero]

end Cert.KernelIdeal.Hand

end
-- ==== Proof.KV.Block.lean ====
/-
  The three staged blocks at the grid point of batch block b and tile n (the point 49 b + n), entry by entry: the
  feature block is rows 32 b … 32 b + 31 and columns 16384 n … 16384 n + 16383 of the padded features, the weight
  block and the index block the same columns of the weight row and rows of the index column. A block's coordinate
  in its array is the block's index times the block's extent plus the coordinate inside the block.
-/
import proofs.«136356_j52656299049592_1_alg».proof.Proof.KV.Defs

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

/-- Where each window's block sits at a grid point: the feature block at (batch block, tile), the weight block at
    (0, tile), the index block at (tile, 0) — decided over the 98 points. -/
theorem blk_index : ∀ t : Fin cfg0.N,
    win0_0.index t 0 = t.val / 49 ∧ win0_0.index t 1 = t.val % 49
    ∧ win0_1.index t 0 = 0 ∧ win0_1.index t 1 = t.val % 49
    ∧ win0_2.index t 0 = t.val % 49 ∧ win0_2.index t 1 = 0 :=
  (by decide +kernel : ∀ t : Fin grid0.N,
    win0_0.index t 0 = t.val / 49 ∧ win0_0.index t 1 = t.val % 49
    ∧ win0_1.index t 0 = 0 ∧ win0_1.index t 1 = t.val % 49
    ∧ win0_2.index t 0 = t.val % 49 ∧ win0_2.index t 1 = 0)

/-- The feature block at the point of batch block b and tile n. -/
theorem xblk_apply (c : Dev nD) (t : Fin cfg0.N) (b : Fin 2) (n : Fin 49) (ht : t.val = 49 * b.val + n.val) (r : Fin 32) (k : Fin 16384) :
    (iblk m c 0 t : Vec Ideal S32x16384 .f32) (ix2 r k)
      = Xp m c (ix2 (⟨32 * b.val + r.val, by omega⟩ : Fin 64) (⟨16384 * n.val + k.val, by omega⟩ : Fin 802816)) := by
  have hi := blk_index t
  unfold iblk
  rw [View.read_apply]
  show V m c main_v0 _ = V m c main_v0 _
  congr 1
  funext a
  apply Fin.ext
  match a with
  | ⟨0, _⟩ => show win0_0.index t 0 * 32 + 1 * r.val = 32 * b.val + r.val; rw [hi.1]; omega
  | ⟨1, _⟩ => show win0_0.index t 1 * 16384 + 1 * k.val = 16384 * n.val + k.val; rw [hi.2.1]; omega

/-- The weight block at a point of tile n. -/
theorem wblk_apply (c : Dev nD) (t : Fin cfg0.N) (n : Fin 49) (ht : t.val % 49 = n.val) (k : Fin 16384) :
    (iblk m c 1 t : Vec Ideal S1x16384 .f32) (ix2 (0 : Fin 1) k)
      = Wp m c (ix2 (0 : Fin 1) (⟨16384 * n.val + k.val, by omega⟩ : Fin 802816)) := by
  have hi := blk_index t
  unfold iblk
  rw [View.read_apply]
  show V m c main_v3 _ = V m c main_v3 _
  congr 1
  funext a
  apply Fin.ext
  match a with
  | ⟨0, _⟩ => show win0_1.index t 0 * 1 + 1 * 0 = 0; rw [hi.2.2.1]
  | ⟨1, _⟩ => show win0_1.index t 1 * 16384 + 1 * k.val = 16384 * n.val + k.val; rw [hi.2.2.2.1]; omega

/-- The index block at a point of tile n. -/
theorem jblk_apply (c : Dev nD) (t : Fin cfg0.N) (n : Fin 49) (ht : t.val % 49 = n.val) (k : Fin 16384) :
    (iblk m c 2 t : Vec Ideal S16384x1 .i32) (ix2 k (0 : Fin 1))
      = Ip m c (ix2 (⟨16384 * n.val + k.val, by omega⟩ : Fin 802816) (0 : Fin 1)) := by
  have hi := blk_index t
  unfold iblk
  rw [View.read_apply]
  show V m c main_v4 _ = V m c main_v4 _
  congr 1
  funext a
  apply Fin.ext
  match a with
  | ⟨0, _⟩ => show win0_2.index t 0 * 16384 + 1 * k.val = 16384 * n.val + k.val; rw [hi.2.2.2.2.1]; omega
  | ⟨1, _⟩ => show win0_2.index t 1 * 1 + 1 * 0 = 0; rw [hi.2.2.2.2.2]

end Cert.KernelIdeal.Hand

end
-- ==== Proof.KV.Step.lean ====
/-
  What the output block's staging buffer holds after the body at a grid point, entry by entry: at the first tile of a
  batch block, that tile's contribution (the block having been zeroed); at a later tile, what the tile before left plus
  this tile's contribution. The grid point of batch block b and tile n is 49 b + n.
-/
import proofs.«136356_j52656299049592_1_alg».proof.Proof.KV.Defs
import proofs.«136356_j52656299049592_1_alg».proof.Proof.KV.Piece
import proofs.«136356_j52656299049592_1_alg».proof.Proof.KV.Pay
import proofs.«136356_j52656299049592_1_alg».proof.Proof.KV.Block

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

/-- The staged blocks at a grid point, by their literal types. -/
abbrev xblk (c : Dev nD) (t : Fin cfg0.N) : FVec Ideal S32x16384 .f32 := iblk m c 0 t
abbrev wblk (c : Dev nD) (t : Fin cfg0.N) : FVec Ideal S1x16384 .f32 := iblk m c 1 t
abbrev jblk (c : Dev nD) (t : Fin cfg0.N) : IVec S16384x1 32 := iblk m c 2 t

/-- The tile's contribution read off the staged blocks is the tile's contribution read off the arrays. -/
theorem blocks_sum (c : Dev nD) (t : Fin cfg0.N) (b : Fin 2) (n : Fin 49) (ht : t.val = 49 * b.val + n.val) (r : Fin 32) (p : Fin 128) :
    (∑ k : Fin 16384, if jblk m c t (ix2 k (0 : Fin 1)) = BitVec.ofNat 32 p.val then xblk m c t (ix2 r k) * wblk m c t (ix2 (0 : Fin 1) k) else 0)
      = tileSum m c b n r p := by
  have hn : t.val % 49 = n.val := by have := n.isLt; omega
  unfold tileSum
  refine Finset.sum_congr rfl fun k _ => ?_
  have e0 : xblk m c t (ix2 r k)
      = Xp m c (ix2 (⟨32 * b.val + r.val, by omega⟩ : Fin 64) (⟨16384 * n.val + k.val, by omega⟩ : Fin 802816)) := xblk_apply m c t b n ht r k
  have e1 : wblk m c t (ix2 (0 : Fin 1) k)
      = Wp m c (ix2 (0 : Fin 1) (⟨16384 * n.val + k.val, by omega⟩ : Fin 802816)) := wblk_apply m c t n hn k
  have e2 : jblk m c t (ix2 k (0 : Fin 1))
      = Ip m c (ix2 (⟨16384 * n.val + k.val, by omega⟩ : Fin 802816) (0 : Fin 1)) := jblk_apply m c t n hn k
  rw [e0, e1, e2]

/-- At a first tile: the tile's contribution alone. -/
theorem outs_A (c : Dev nD) (t : Fin cfg0.N) (h0 : t.val % 49 = 0) (b : Fin 2) (n : Fin 49) (ht : t.val = 49 * b.val + n.val) (r : Fin 32) (p : Fin 128) :
    (outsAt0 (F := Ideal) m c t.val t.isLt : FVec Ideal S32x128 .f32) (ix2 r p) = tileSum m c b n r p := by
  rw [outsAt0_A m c t h0]
  refine (congrFun (out0_A_3_eq (F := Ideal) c (grid0.coords t) (ms0_0 t) (hs0_0 t) (ms0_1 t) (hs0_1 t) (ms0_2 t) (hs0_2 t) (ms0_3 t) (hs0_3 t)
    ((hcond0_0 t).mpr h0) (iblk m c 0 t) (iblk m c 1 t) (iblk m c 2 t)) (ix2 r p)).trans ?_
  refine (k0_pay2_apply (xblk m c t) (wblk m c t) (jblk m c t) (k0_pay1 (F := Ideal)) r p).trans ?_
  rw [k0_pay1_apply, zero_add]
  exact blocks_sum m c t b n ht r p

/-- At a later tile: what the point before left, plus the tile's contribution. -/
theorem outs_B (c : Dev nD) (t : Fin cfg0.N) (h0 : ¬t.val % 49 = 0) (b : Fin 2) (n : Fin 49) (ht : t.val = 49 * b.val + n.val) (r : Fin 32) (p : Fin 128) :
    (outsAt0 (F := Ideal) m c t.val t.isLt : FVec Ideal S32x128 .f32) (ix2 r p)
      = (outsAt0 (F := Ideal) m c (t.val - 1) (Nat.lt_of_le_of_lt (Nat.sub_le _ _) t.isLt) : FVec Ideal S32x128 .f32) (ix2 r p) + tileSum m c b n r p := by
  rw [outsAt0_B m c t h0]
  refine (congrFun (out0_B_3_eq (F := Ideal) c (grid0.coords t) (ms0_0 t) (hs0_0 t) (ms0_1 t) (hs0_1 t) (ms0_2 t) (hs0_2 t) (ms0_3 t) (hs0_3 t)
    (fun h => h0 ((hcond0_0 t).mp h)) (iblk m c 0 t) (iblk m c 1 t) (iblk m c 2 t)
    (outsAt0 (F := Ideal) m c (t.val - 1) (Nat.lt_of_le_of_lt (Nat.sub_le _ _) t.isLt))) (ix2 r p)).trans ?_
  refine (k0_pay2_apply (xblk m c t) (wblk m c t) (jblk m c t)
    (outsAt0 (F := Ideal) m c (t.val - 1) (Nat.lt_of_le_of_lt (Nat.sub_le _ _) t.isLt)) r p).trans ?_
  exact congrArg (_ + ·) (blocks_sum m c t b n ht r p)

/-- After the first tile of batch block `b`: that tile's contribution alone. -/
theorem outsAt0_first (c : Dev nD) (b : Fin 2) (r : Fin 32) (p : Fin 128) (hn : 49 * b.val < cfg0.N) :
    (outsAt0 (F := Ideal) m c (49 * b.val) hn : FVec Ideal S32x128 .f32) (ix2 r p) = tileSum m c b 0 r p :=
  outs_A m c ⟨49 * b.val, hn⟩ (Nat.mul_mod_right 49 b.val) b 0 rfl r p

/-- After a later tile `n` of batch block `b`: what tile `n - 1` left, plus tile `n`'s contribution. -/
theorem outsAt0_next (c : Dev nD) (b : Fin 2) (n : Fin 49) (hn0 : n.val ≠ 0) (r : Fin 32) (p : Fin 128)
    (hn : 49 * b.val + n.val < cfg0.N) (hn' : 49 * b.val + n.val - 1 < cfg0.N) :
    (outsAt0 (F := Ideal) m c (49 * b.val + n.val) hn : FVec Ideal S32x128 .f32) (ix2 r p)
      = (outsAt0 (F := Ideal) m c (49 * b.val + n.val - 1) hn' : FVec Ideal S32x128 .f32) (ix2 r p) + tileSum m c b n r p :=
  outs_B m c ⟨49 * b.val + n.val, hn⟩ (by have := n.isLt; show ¬(49 * b.val + n.val) % 49 = 0; omega) b n rfl r p

end Cert.KernelIdeal.Hand

end
-- ==== Proof.KV.Prefix.lean ====
/-
  The host lines before the region pad the features, the weights and the pathway indices with zeros along the feature
  axis (800000 to 802816) and re-lay the weights as a row and the indices as a column: each staged array read at an index
  is the argument array's entry where the feature is a real one, and zero past it.
-/
import proofs.«136356_j52656299049592_1_alg».proof.Proof.KV.Defs
import Idealize.ShloMosaic.Lib.StableHlo.Run
import Idealize.ShloMosaic.Lib.Pipeline.Value
import Idealize.ShloMosaic.Lib.ValueLayout
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

section PadRead
variable {α : Type}

/-- A 64 × 800000 array padded to 64 × 802816 along its second axis, read at (b, q): the array's entry where q is
    below 800000, the padding value past it. -/
private theorem pad_cols_apply (x : S64x800000.Idx → α) (v : S_.Idx → α)
    (h : S64x800000.Pads (![0, 0] : Fin 2 → Nat) ![0, 2816] ![0, 0] S64x802816) (hu : 0 < S_.numel)
    (b : Fin 64) (q : Fin 802816) :
    pad S64x802816 ![0, 0] ![0, 2816] ![0, 0] x v h hu (ix2 b q)
      = if hq : q.val < 800000 then x (ix2 b (⟨q.val, hq⟩ : Fin 800000)) else v ix0 := by
  by_cases hq : q.val < 800000
  · rw [dif_pos hq]
    exact pad_apply_of_inside _ _ _ x v h hu (ix2 b q) (ix2 b (⟨q.val, hq⟩ : Fin 800000)) (fun a =>
      match a with
      | ⟨0, _⟩ => by show b.val = 0 + b.val * (0 + 1); omega
      | ⟨1, _⟩ => by show q.val = 0 + q.val * (0 + 1); omega)
  · rw [dif_neg hq]
    refine (pad_apply_of_not_inside _ _ _ x v h hu (ix2 b q) (1 : Fin 2) ?_).trans
      (congrArg v (funext fun d => d.elim0))
    show ¬(0 ≤ q.val ∧ (q.val - 0) % 1 = 0 ∧ (q.val - 0) / 1 < 800000)
    omega

/-- A vector of 800000 entries padded to 802816, read at q. -/
private theorem pad_vec_apply (x : S800000.Idx → α) (v : S_.Idx → α)
    (h : S800000.Pads (![0] : Fin 1 → Nat) ![2816] ![0] S802816) (hu : 0 < S_.numel) (q : Fin 802816) :
    pad S802816 ![0] ![2816] ![0] x v h hu (ix1 q)
      = if hq : q.val < 800000 then x (ix1 (⟨q.val, hq⟩ : Fin 800000)) else v ix0 := by
  by_cases hq : q.val < 800000
  · rw [dif_pos hq]
    exact pad_apply_of_inside _ _ _ x v h hu (ix1 q) (ix1 (⟨q.val, hq⟩ : Fin 800000)) (fun a =>
      match a with
      | ⟨0, _⟩ => by show q.val = 0 + q.val * (0 + 1); omega)
  · rw [dif_neg hq]
    refine (pad_apply_of_not_inside _ _ _ x v h hu (ix1 q) (0 : Fin 1) ?_).trans
      (congrArg v (funext fun d => d.elim0))
    show ¬(0 ≤ q.val ∧ (q.val - 0) % 1 = 0 ∧ (q.val - 0) / 1 < 800000)
    omega

/-- A vector of 802816 entries laid as a row: entry (0, q) is entry q. -/
private theorem row_apply (y : S802816.Idx → α) (h : S802816.ShapeCasts S1x802816) (q : Fin 802816) :
    shapeCast S1x802816 y h (ix2 (0 : Fin 1) q) = y (ix1 q) :=
  shapeCast_a_1a_apply y h 0 q

/-- A vector of 802816 entries laid as a column: entry (q, 0) is entry q. -/
private theorem col_apply (y : S802816.Idx → α) (h : S802816.ShapeCasts S802816x1) (q : Fin 802816) :
    shapeCast S802816x1 y h (ix2 q (0 : Fin 1)) = y (ix1 q) :=
  shapeCast_apply y h _ _ (by
    rw [Shape.rowMajor_val_two, Shape.rowMajor_val_one]
    show q.val = q.val * 1 + 0
    omega)

end PadRead

/-- The integer zero converted to a real number is zero. -/
private theorem padZero : (sitofp (F := Ideal) .f32 (constantI S_ 32 0#32) : S_.Idx → EReal) ix0 = 0 := by
  show (((0#32 : BitVec 32).toInt : ℝ) : EReal) = 0
  simp

/-- What the host lines leave in the three staged arrays, as terms over the argument arrays. -/
private theorem Xp_term (c : Dev nD) :
    (Xp m c : S64x802816.Idx → EReal)
      = pad S64x802816 ![0, 0] ![0, 2816] ![0, 0] (Xa m c) (sitofp (F := Ideal) .f32 (constantI S_ 32 0#32))
          pads_S64x800000_S64x802816_000_028160 h_S_ := by
  dsimp only [Xp, V, V0]
  simp only [hostOps0, hostOps0_1, hostOps0_2, hostOps0_3, hostOps0_4, hostOps0_5, hostOps0_6, List.flatten_cons,
    List.flatten_nil, List.append_nil, List.cons_append, List.nil_append]
  after_results
  rfl

/-- The weights: padded, then laid as a row. -/
private theorem Wp_term (c : Dev nD) :
    (Wp m c : S1x802816.Idx → EReal)
      = shapeCast S1x802816 (pad S802816 ![0] ![2816] ![0] (Wa m c) (sitofp (F := Ideal) .f32 (constantI S_ 32 0#32))
          pads_S800000_S802816_028160 h_S_) shapeCasts_S802816_S1x802816 := by
  dsimp only [Wp, V, V0]
  simp only [hostOps0, hostOps0_1, hostOps0_2, hostOps0_3, hostOps0_4, hostOps0_5, hostOps0_6, List.flatten_cons,
    List.flatten_nil, List.append_nil, List.cons_append, List.nil_append]
  after_results
  simp only [StableHlo.TRef.ofBuf, StableHlo.TRef.toBuf, cast_eq]
  rfl

/-- The pathway indices: padded with the zero word, then laid as a column. -/
private theorem Ip_term (c : Dev nD) :
    (Ip m c : S802816x1.Idx → BitVec 32)
      = shapeCast S802816x1 (pad S802816 ![0] ![2816] ![0] (Ia m c) (constantI S_ 32 0#32)
          pads_S800000_S802816_028160 h_S_) shapeCasts_S802816_S802816x1 := by
  dsimp only [Ip, V, V0]
  simp only [hostOps0, hostOps0_1, hostOps0_2, hostOps0_3, hostOps0_4, hostOps0_5, hostOps0_6, List.flatten_cons,
    List.flatten_nil, List.append_nil, List.cons_append, List.nil_append]
  after_results
  simp only [StableHlo.TRef.ofBuf, StableHlo.TRef.toBuf, cast_eq, id_eq]
  rfl

/-- The padded features: x where the feature is below 800000, zero past it. -/
theorem Xp_apply (c : Dev nD) (b : Fin 64) (q : Fin 802816) :
    Xp m c (ix2 b q) = if h : q.val < 800000 then Xa m c (ix2 b (⟨q.val, h⟩ : Fin 800000)) else 0 := by
  rw [show Xp m c (ix2 b q) = _ from congrFun (Xp_term m c) (ix2 b q), pad_cols_apply, padZero]

/-- The padded weights, as a row. -/
theorem Wp_apply (c : Dev nD) (q : Fin 802816) :
    Wp m c (ix2 (0 : Fin 1) q) = if h : q.val < 800000 then Wa m c (ix1 (⟨q.val, h⟩ : Fin 800000)) else 0 := by
  rw [show Wp m c (ix2 (0 : Fin 1) q) = _ from congrFun (Wp_term m c) (ix2 (0 : Fin 1) q), row_apply, pad_vec_apply,
    padZero]

/-- The padded pathway indices, as a column: the zero word past the real features. -/
theorem Ip_apply (c : Dev nD) (q : Fin 802816) :
    Ip m c (ix2 q (0 : Fin 1)) = if h : q.val < 800000 then Ia m c (ix1 (⟨q.val, h⟩ : Fin 800000)) else 0#32 := by
  rw [show Ip m c (ix2 q (0 : Fin 1)) = _ from congrFun (Ip_term m c) (ix2 q (0 : Fin 1)), col_apply, pad_vec_apply]
  rfl

end Cert.KernelIdeal.Hand

end
-- ==== Proof.KV.Acc.lean ====
/-
  What the output block's staging buffer holds after tile n of batch block b, entry by entry: the sum of the
  contributions of tiles 0 to n, by induction on n (the first tile starts from the zeroed block, each later tile adds its
  contribution to what the tile before left). After the last tile it is the sum over all 49 tiles.
-/
import proofs.«136356_j52656299049592_1_alg».proof.Proof.KV.Step
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

/-- The staging contents after a point do not depend on how the point's number is written. -/
theorem outsAt0_congr (c : Dev nD) {n n' : ℕ} (e : n = n') (h : n < cfg0.N) (h' : n' < cfg0.N) :
    (outsAt0 (F := Ideal) m c n h : FVec Ideal S32x128 .f32) = outsAt0 (F := Ideal) m c n' h' := by
  subst e; rfl

/-- After tile n of batch block b: the contributions of tiles 0 to n, summed. -/
theorem acc_prefix (c : Dev nD) (b : Fin 2) (r : Fin 32) (p : Fin 128) :
    ∀ (n : ℕ) (hn : n < 49) (ht : 49 * b.val + n < cfg0.N),
      (outsAt0 (F := Ideal) m c (49 * b.val + n) ht : FVec Ideal S32x128 .f32) (ix2 r p)
        = ∑ i : Fin (n + 1), tileSum m c b ⟨i.val, by omega⟩ r p
  | 0, hn, ht => by
    rw [Fin.sum_univ_one]
    exact outsAt0_first m c b r p ht
  | n + 1, hn, ht => by
    have ht' : 49 * b.val + (n + 1) - 1 < cfg0.N := lt_of_le_of_lt (Nat.sub_le _ _) ht
    have ht'' : 49 * b.val + n < cfg0.N := Nat.lt_of_succ_lt ht
    have e1 := outsAt0_next m c b ⟨n + 1, hn⟩ (Nat.succ_ne_zero n) r p ht ht'
    have e2 : (outsAt0 (F := Ideal) m c (49 * b.val + (n + 1) - 1) ht' : FVec Ideal S32x128 .f32) (ix2 r p)
        = (outsAt0 (F := Ideal) m c (49 * b.val + n) ht'' : FVec Ideal S32x128 .f32) (ix2 r p) :=
      congrFun (outsAt0_congr m c (by omega) ht' ht'') (ix2 r p)
    rw [Fin.sum_univ_castSucc]
    exact e1.trans (congrArg₂ (· + ·) (e2.trans (acc_prefix c b r p n (by omega) ht'')) rfl)

/-- After the last tile of batch block b: the contributions of all 49 tiles, summed. -/
theorem acc_last (c : Dev nD) (b : Fin 2) (r : Fin 32) (p : Fin 128) (ht : 49 * b.val + 48 < cfg0.N) :
    (outsAt0 (F := Ideal) m c (49 * b.val + 48) ht : FVec Ideal S32x128 .f32) (ix2 r p)
      = ∑ n : Fin 49, tileSum m c b n r p :=
  acc_prefix m c b r p 48 (by omega) ht

end Cert.KernelIdeal.Hand

end
-- ==== Proof.KV.Sum.lean ====
/-
  Two re-indexings of finite sums, for any commutative additive monoid. A sum over the 802816 = 49 · 16384 padded
  features is the sum, tile by tile, over the 49 tiles of 16384 features each; and a sum over the 802816 padded features
  whose terms vanish from 800000 on is the sum over the 800000 real ones.
-/
import Mathlib.Algebra.BigOperators.Fin
import Mathlib.Logic.Equiv.Fin.Basic

namespace Cert.KernelIdeal.Hand

open scoped BigOperators

/-- Tile by tile: feature q = 16384 n + k is feature k of tile n. -/
theorem sum_tiles {M : Type*} [AddCommMonoid M] (f : Fin 802816 → M) :
    ∑ n : Fin 49, ∑ k : Fin 16384, f ⟨16384 * n.val + k.val, by omega⟩ = ∑ q : Fin 802816, f q := by
  have e1 : ∑ n : Fin 49, ∑ k : Fin 16384, f ⟨16384 * n.val + k.val, by omega⟩
      = ∑ x : Fin 49 × Fin 16384, f ⟨16384 * x.1.val + x.2.val, by omega⟩ :=
    (Fintype.sum_prod_type' (fun (n : Fin 49) (k : Fin 16384) => f ⟨16384 * n.val + k.val, by omega⟩)).symm
  have e2 : ∑ x : Fin 49 × Fin 16384, f ⟨16384 * x.1.val + x.2.val, by omega⟩
      = ∑ x : Fin 49 × Fin 16384, f ((finProdFinEquiv : Fin 49 × Fin 16384 ≃ Fin 802816) x) :=
    Finset.sum_congr rfl fun x _ => congrArg f (Fin.ext (by
      show 16384 * x.1.val + x.2.val = x.2.val + 16384 * x.1.val
      omega))
  exact e1.trans (e2.trans (Equiv.sum_comp (finProdFinEquiv : Fin 49 × Fin 16384 ≃ Fin 802816) f))

/-- The padding adds nothing: terms that vanish from 800000 on leave the sum over the real features. -/
theorem sum_pad {M : Type*} [AddCommMonoid M] (g : Fin 802816 → M) (hz : ∀ q : Fin 802816, 800000 ≤ q.val → g q = 0) :
    ∑ q : Fin 802816, g q = ∑ n : Fin 800000, g ⟨n.val, by omega⟩ := by
  have h := Fin.sum_univ_add (M := M) (a := 800000) (b := 2816) g
  refine h.trans ?_
  have h2 : ∑ i : Fin 2816, g (Fin.natAdd 800000 i) = 0 :=
    Finset.sum_eq_zero fun i _ => hz _ (by show 800000 ≤ 800000 + i.val; omega)
  rw [h2, add_zero]
  rfl

end Cert.KernelIdeal.Hand
-- ==== Proof.Spec.lean ====
/-
  The weighted pathway sum both programs compute, as one function of the argument arrays, index by index, over the
  extended reals: entry (b, p) is the sum over the 800000 features n whose pathway index is the word p of
  x[b, n] · w[n]. (A feature whose index is no word p < 128 lands in no bin.)
-/
import Idealize.ShloMosaic.PureOps.Ideal
import Idealize.ShloMosaic.Lib.ValueIdx

noncomputable section

namespace Cert.Spec

open Idealize.ShloMosaic Idealize.ShloMosaic.ValueIdx
open scoped BigOperators

/-- The shapes of the features, of the per-feature weights and indices, and of the pathway sums. -/
abbrev SX : Shape := ⟨2, ![64, 800000]⟩
abbrev SN : Shape := ⟨1, ![800000]⟩
abbrev SO : Shape := ⟨2, ![64, 128]⟩

/-- The weighted pathway sum: entry (b, p) adds x[b, n] · w[n] over the features n with idx[n] = p. -/
def G (x : SX.Idx → EReal) (w : SN.Idx → EReal) (idx : SN.Idx → BitVec 32) : SO.Idx → EReal :=
  fun j => ∑ n : Fin 800000, if idx (ix1 n) = BitVec.ofNat 32 (j 1).val then x (ix2 (j 0) n) * w (ix1 n) else 0

end Cert.Spec

end
-- ==== Proof.KV.Final.lean ====
/-
  The pathway sums the region leaves in its output array are the specification's: the output block of batch block b is
  written back once, after the last of the 49 tiles, holding the sum of the tiles' contributions; the two blocks cover
  the array; and the sum over the 802816 padded features, tile by tile, is the sum over the 800000 real ones, the
  padding contributing zeros.
-/
import proofs.«136356_j52656299049592_1_alg».proof.Proof.KV.Step
import proofs.«136356_j52656299049592_1_alg».proof.Proof.KV.Prefix
import proofs.«136356_j52656299049592_1_alg».proof.Proof.KV.Acc
import proofs.«136356_j52656299049592_1_alg».proof.Proof.KV.Sum
import proofs.«136356_j52656299049592_1_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

/-! ## One padded feature's term, and the sum over the padded features -/

/-- Padded feature q's term of entry (b, p): x[b, q] · w[q] where the feature's pathway index is the word p. -/
def term (c : Dev nD) (b : Fin 64) (p : Fin 128) (q : Fin 802816) : EReal :=
  if Ip m c (ix2 q (0 : Fin 1)) = BitVec.ofNat 32 p.val then Xp m c (ix2 b q) * Wp m c (ix2 (0 : Fin 1) q) else 0

/-- At a real feature it is the argument arrays' term; past the real features it is zero (0 · 0 or nothing). -/
theorem term_eq (c : Dev nD) (b : Fin 64) (p : Fin 128) (q : Fin 802816) :
    term m c b p q = if h : q.val < 800000 then
        (if Ia m c (ix1 (⟨q.val, h⟩ : Fin 800000)) = BitVec.ofNat 32 p.val then
          Xa m c (ix2 b (⟨q.val, h⟩ : Fin 800000)) * Wa m c (ix1 (⟨q.val, h⟩ : Fin 800000)) else 0)
      else 0 := by
  unfold term
  rw [Xp_apply, Wp_apply, Ip_apply]
  by_cases h : q.val < 800000
  · simp only [dif_pos h]
  · simp only [dif_neg h, mul_zero, ite_self]

/-- A tile's contribution is the sum of its 16384 features' terms. -/
theorem tileSum_eq (c : Dev nD) (b : Fin 2) (n : Fin 49) (r : Fin 32) (p : Fin 128) (B : Fin 64)
    (hB : B.val = 32 * b.val + r.val) :
    tileSum m c b n r p = ∑ k : Fin 16384, term m c B p ⟨16384 * n.val + k.val, by omega⟩ := by
  have hlt : 32 * b.val + r.val < 64 := by have hb := b.isLt; have hr := r.isLt; omega
  obtain rfl : B = ⟨32 * b.val + r.val, hlt⟩ := Fin.ext hB
  rfl

/-- The padded features' terms sum to the real features' terms: the specification's entry. -/
theorem sum_term (c : Dev nD) (b : Fin 64) (p : Fin 128) :
    ∑ q : Fin 802816, term m c b p q
      = ∑ n : Fin 800000, if Ia m c (ix1 n) = BitVec.ofNat 32 p.val then Xa m c (ix2 b n) * Wa m c (ix1 n) else 0 := by
  rw [sum_pad _ (fun q hq => by rw [term_eq, dif_neg (by omega)])]
  refine Finset.sum_congr rfl fun n _ => ?_
  rw [term_eq]
  exact dif_pos n.isLt

/-! ## The whole output array -/

/-- The whole output array, entry by entry: row i is row i % 32 of batch block i / 32, all 49 tiles summed. -/
def WX (c : Dev nD) : FVec Ideal S64x128 .f32 := fun j =>
  ∑ n : Fin 49, tileSum m c ⟨(j 0).val / 32, by have := idx2_lt0 j; omega⟩ n
    ⟨(j 0).val % 32, Nat.mod_lt _ (by omega)⟩ ⟨(j 1).val, idx2_lt1 j⟩

/-- A tile's contribution depends on the block, row and word only through their values. -/
theorem tileSum_congr (c : Dev nD) (n : Fin 49) {b b' : Fin 2} {r r' : Fin 32} {p p' : Fin 128}
    (hb : b = b') (hr : r = r') (hp : p = p') : tileSum m c b n r p = tileSum m c b' n r' p' := by
  subst hb hr hp; rfl

/-- The whole-array sums at row 32 b + r and word p. -/
theorem WX_apply (c : Dev nD) (i : S64x128.Idx) (b : Fin 2) (r : Fin 32) (p : Fin 128)
    (h0 : (i 0).val = 32 * b.val + r.val) (h1 : (i 1).val = p.val) :
    WX m c i = ∑ n : Fin 49, tileSum m c b n r p := by
  have hr : r.val < 32 := r.isLt
  unfold WX
  exact Finset.sum_congr rfl fun n _ => tileSum_congr m c n
    (Fin.ext (by show (i 0).val / 32 = b.val; omega)) (Fin.ext (by show (i 0).val % 32 = r.val; omega)) (Fin.ext h1)

/-- They are the specification's weighted pathway sums. -/
theorem WX_eq_G (c : Dev nD) (j : S64x128.Idx) : WX m c j = Cert.Spec.G (Xa m c) (Wa m c) (Ia m c) j := by
  have hj0 : (j 0).val < 64 := idx2_lt0 j
  have hj1 : (j 1).val < 128 := idx2_lt1 j
  have e1 : WX m c j = ∑ n : Fin 49, ∑ k : Fin 16384,
      term m c ⟨(j 0).val, hj0⟩ ⟨(j 1).val, hj1⟩ ⟨16384 * n.val + k.val, by omega⟩ := by
    unfold WX
    exact Finset.sum_congr rfl fun n _ => tileSum_eq m c _ n _ _ ⟨(j 0).val, hj0⟩
      (by show (j 0).val = 32 * ((j 0).val / 32) + (j 0).val % 32; omega)
  rw [e1, sum_tiles (term m c ⟨(j 0).val, hj0⟩ ⟨(j 1).val, hj1⟩), sum_term]
  rfl

/-! ## The write-backs -/

/-- The output window's index map over the grid: the block of point t is block (t / 49, 0). -/
theorem idx_facts3 : ∀ t : Fin cfg0.N, win0_3.index t (0 : Fin 2) = t.val / 49 ∧ win0_3.index t (1 : Fin 2) = 0 :=
  (by decide +kernel : ∀ t : Fin grid0.N, win0_3.index t (0 : Fin 2) = t.val / 49 ∧ win0_3.index t (1 : Fin 2) = 0)

/-- What a write-back point writes back is its block of the whole-array sums. -/
theorem flushed3_eq (c : Dev nD) (t : Fin cfg0.N) (hf : (cfg0.win 3).flush t = true) :
    (dats (F := Ideal) m 0 c).flushed 3 t = ((cfg0.win 3).blk t).view.read (Elt Ideal) (WX m c) := by
  have hN : t.val < 98 := lt_of_lt_of_eq t.isLt (show cfg0.N = 98 from N_0)
  have h48 : t.val % 49 = 48 := (flush0_3 t).mp hf
  obtain ⟨e0, e1⟩ := idx_facts3 t
  have hb : t.val / 49 < 2 := by omega
  have ht : t.val = 49 * (t.val / 49) + 48 := by omega
  have ht' : 49 * (t.val / 49) + 48 < cfg0.N := lt_of_eq_of_lt ht.symm t.isLt
  show (cfg0.win 3).cut (grid0.coords t) ((dats (F := Ideal) m 0 c).after 3 t) = _
  rw [after0_3]
  funext j
  have hj0 : (j 0).val < 32 := (j 0).isLt
  have hj1 : (j 1).val < 128 := (j 1).isLt
  show (outsAt0 (F := Ideal) m c t.val t.isLt : FVec Ideal S32x128 .f32) ((cfg0.win 3).xinj (grid0.coords t) j)
    = WX m c (((cfg0.win 3).blk t).view.emb j)
  have hx : (cfg0.win 3).xinj (grid0.coords t) j = ix2 (⟨(j 0).val, hj0⟩ : Fin 32) (⟨(j 1).val, hj1⟩ : Fin 128) := by
    funext a
    match a with
    | ⟨0, _⟩ => rfl
    | ⟨1, _⟩ => rfl
  rw [hx, outsAt0_congr m c ht t.isLt ht', acc_last m c ⟨t.val / 49, hb⟩ _ _ ht']
  refine (WX_apply m c _ ⟨t.val / 49, hb⟩ ⟨(j 0).val, hj0⟩ ⟨(j 1).val, hj1⟩ ?_ ?_).symm
  · show win0_3.index t (0 : Fin 2) * 32 + 1 * (j 0).val = 32 * (t.val / 49) + (j 0).val
    rw [e0]; omega
  · show win0_3.index t (1 : Fin 2) * 128 + 1 * (j 1).val = (j 1).val
    rw [e1]; omega

/-- An index of the array is in point t's block iff each coordinate is in the block's range on its axis. -/
theorem mem_blk3 (t : Fin cfg0.N) (i : S64x128.Idx) :
    i ∈ ((cfg0.win 3).blk t).view.set ↔ ∀ a : Fin 2, win0_3.index t a * S32x128.size a ≤ (i a).val
      ∧ (i a).val < win0_3.index t a * S32x128.size a + S32x128.size a := by
  show i ∈ ((View.whole main_v5).slice (win0_3.rect t)).set ↔ _
  rw [View.set_slice_whole, Rect.mem_set_unit]
  exact Iff.rfl

/-- Every index of the array is in the block some write-back point writes: row i is written after the last tile of
    batch block i / 32. -/
theorem cover3 (i : S64x128.Idx) :
    ∃ t : Fin cfg0.N, (cfg0.win 3).flush t = true ∧ i ∈ ((cfg0.win 3).blk t).view.set := by
  have hi0 : (i 0).val < 64 := idx2_lt0 i
  have hi1 : (i 1).val < 128 := idx2_lt1 i
  have hN : cfg0.N = 98 := N_0
  let t : Fin cfg0.N := ⟨49 * ((i 0).val / 32) + 48, by rw [hN]; omega⟩
  obtain ⟨e0, e1⟩ := idx_facts3 t
  have e0' : win0_3.index t (0 : Fin 2) = (i 0).val / 32 :=
    e0.trans (by show (49 * ((i 0).val / 32) + 48) / 49 = (i 0).val / 32; omega)
  refine ⟨t, (flush0_3 t).mpr (by show (49 * ((i 0).val / 32) + 48) % 49 = 48; omega), ?_⟩
  rw [mem_blk3]
  intro a
  match a with
  | ⟨0, _⟩ =>
    show win0_3.index t (0 : Fin 2) * 32 ≤ (i 0).val ∧ (i 0).val < win0_3.index t (0 : Fin 2) * 32 + 32
    rw [e0']; omega
  | ⟨1, _⟩ =>
    show win0_3.index t (1 : Fin 2) * 128 ≤ (i 1).val ∧ (i 1).val < win0_3.index t (1 : Fin 2) * 128 + 128
    rw [e1]; omega

/-- The region's output array after the run is the weighted pathway sum of the argument arrays. -/
theorem wx_final (c : Dev nD) :
    ((dats (F := Ideal) m 0 c).arrAt 3 cfg0.N : FVec Ideal S64x128 .f32)
      = Cert.Spec.G (Xa m c) (Wa m c) (Ia m c) :=
  ((dats (F := Ideal) m 0 c).arrAt_eq_of_cover 3 (WX m c) (fun t hf => flushed3_eq m c t hf) cover3).trans
    (funext fun j => WX_eq_G m c j)

end Cert.KernelIdeal.Hand

end
-- ==== Proof.Ref.Ops.lean ====
/-
  The reference's @main as four stretches of its 150 host operations, in order: the weighted scatter-add of x · w into
  the 128 pathway bins (14 operations); ReLU, batch normalisation, the sigmoid gate and the first linear layer (48);
  ReLU, batch normalisation and the second linear layer (37); ReLU, batch normalisation, the output layer and the
  softmax (51). A called function's operations stand in its call's place.
-/
import proofs.«136356_j52656299049592_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1–14: x · w broadcast along the batch, the index wrapped where negative, the scatter-add into zeros. -/
abbrev R0ops : List (HloOp τ sig (Elt F)) :=
  [ nullary main_cst (constant S_ .f32 0x00000000#32),
    unary main_cst main_v0 (broadcastInDim S64x128 ![] bcast_S_S64x128 : (⟨S_, .f32⟩ : BufTy).Contents (Elt F) → (⟨S64x128, .f32⟩ : BufTy).Contents (Elt F)),
    unary main_arg1 main_v1 (broadcastInDim S1x800000 ![1] bcast_S800000_S1x800000_1 : (⟨S800000, .f32⟩ : BufTy).Contents (Elt F) → (⟨S1x800000, .f32⟩ : BufTy).Contents (Elt F)),
    unary main_v1 main_v2 (broadcastInDim S64x800000 ![0, 1] bcast_S1x800000_S64x800000_0_1 : (⟨S1x800000, .f32⟩ : BufTy).Contents (Elt F) → (⟨S64x800000, .f32⟩ : BufTy).Contents (Elt F)),
    binary main_arg0 main_v2 main_v3 (mulf : (⟨S64x800000, .f32⟩ : BufTy).Contents (Elt F) → (⟨S64x800000, .f32⟩ : BufTy).Contents (Elt F) → (⟨S64x800000, .f32⟩ : BufTy).Contents (Elt F)),
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_arg15 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 128#32),
    unary main_c_0 main_v6 (broadcastInDim S800000 ![] bcast_S_S800000 : (⟨S_, .i32⟩ : BufTy).Contents (Elt F) → (⟨S800000, .i32⟩ : BufTy).Contents (Elt F)),
    binary main_arg15 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_arg15 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    ternary main_v0 main_v9 main_v3 main_v10 ((fun x i u => Host.scatterAdd scatter_S64x128_S800000x1_S64x800000_0_1_1_1 x i u) : (⟨S64x128, .f32⟩ : BufTy).Contents (Elt F) → (⟨S800000x1, .i32⟩ : BufTy).Contents (Elt F) → (⟨S64x800000, .f32⟩ : BufTy).Contents (Elt F) → (⟨S64x128, .f32⟩ : BufTy).Contents (Elt F)) ]

/-- Operations 15–62: ReLU, batch normalisation, the sigmoid gate (the second result), the first linear layer. -/
abbrev R1ops : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S64x128, .f32⟩) main_call0_v0) (broadcastInDim S64x128 ![] bcast_S_S64x128),
    TRef.binary (TRef.of (T := ⟨S64x128, .f32⟩) main_v10) (TRef.of (T := ⟨S64x128, .f32⟩) main_call0_v0) (TRef.of (T := ⟨S64x128, .f32⟩) main_v11) maximumf,
    nullary main_cst_1 (constant S_ .f32 0x00000000#32),
    binary main_v11 main_cst_1 main_v12 ((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)),
    nullary main_cst_2 (constant S_ .f32 0x42800000#32),
    unary main_cst_2 main_v13 (broadcastInDim S128 ![] bcast_S_S128 : (⟨S_, .f32⟩ : BufTy).Contents (Elt F) → (⟨S128, .f32⟩ : BufTy).Contents (Elt F)),
    binary main_v12 main_v13 main_v14 (Host.divf : (⟨S128, .f32⟩ : BufTy).Contents (Elt F) → (⟨S128, .f32⟩ : BufTy).Contents (Elt F) → (⟨S128, .f32⟩ : BufTy).Contents (Elt F)),
    unary main_v14 main_v15 (broadcastInDim S1x128 ![1] bcast_S128_S1x128_1 : (⟨S128, .f32⟩ : BufTy).Contents (Elt F) → (⟨S1x128, .f32⟩ : BufTy).Contents (Elt F)),
    unary main_v15 main_v16 (broadcastInDim S64x128 ![0, 1] bcast_S1x128_S64x128_0_1 : (⟨S1x128, .f32⟩ : BufTy).Contents (Elt F) → (⟨S64x128, .f32⟩ : BufTy).Contents (Elt F)),
    binary main_v11 main_v16 main_v17 (subf : (⟨S64x128, .f32⟩ : BufTy).Contents (Elt F) → (⟨S64x128, .f32⟩ : BufTy).Contents (Elt F) → (⟨S64x128, .f32⟩ : BufTy).Contents (Elt F)),
    binary main_v17 main_v17 main_v18 (mulf : (⟨S64x128, .f32⟩ : BufTy).Contents (Elt F) → (⟨S64x128, .f32⟩ : BufTy).Contents (Elt F) → (⟨S64x128, .f32⟩ : BufTy).Contents (Elt F)),
    nullary main_cst_3 (constant S_ .f32 0x00000000#32),
    binary main_v18 main_cst_3 main_v19 ((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)),
    nullary main_cst_4 (constant S_ .f32 0x42800000#32),
    unary main_cst_4 main_v20 (broadcastInDim S128 ![] bcast_S_S128 : (⟨S_, .f32⟩ : BufTy).Contents (Elt F) → (⟨S128, .f32⟩ : BufTy).Contents (Elt F)),
    binary main_v19 main_v20 main_v21 (Host.divf : (⟨S128, .f32⟩ : BufTy).Contents (Elt F) → (⟨S128, .f32⟩ : BufTy).Contents (Elt F) → (⟨S128, .f32⟩ : BufTy).Contents (Elt F)),
    unary main_v14 main_v22 (broadcastInDim S1x128 ![1] bcast_S128_S1x128_1 : (⟨S128, .f32⟩ : BufTy).Contents (Elt F) → (⟨S1x128, .f32⟩ : BufTy).Contents (Elt F)),
    unary main_v22 main_v23 (broadcastInDim S64x128 ![0, 1] bcast_S1x128_S64x128_0_1 : (⟨S1x128, .f32⟩ : BufTy).Contents (Elt F) → (⟨S64x128, .f32⟩ : BufTy).Contents (Elt F)),
    binary main_v11 main_v23 main_v24 (subf : (⟨S64x128, .f32⟩ : BufTy).Contents (Elt F) → (⟨S64x128, .f32⟩ : BufTy).Contents (Elt F) → (⟨S64x128, .f32⟩ : BufTy).Contents (Elt F)),
    nullary main_cst_5 (constant S_ .f32 0x3727C5AC#32),
    unary main_cst_5 main_v25 (broadcastInDim S128 ![] bcast_S_S128 : (⟨S_, .f32⟩ : BufTy).Contents (Elt F) → (⟨S128, .f32⟩ : BufTy).Contents (Elt F)),
    binary main_v21 main_v25 main_v26 (addf : (⟨S128, .f32⟩ : BufTy).Contents (Elt F) → (⟨S128, .f32⟩ : BufTy).Contents (Elt F) → (⟨S128, .f32⟩ : BufTy).Contents (Elt F)),
    unary main_v26 main_v27 (Host.rsqrt : (⟨S128, .f32⟩ : BufTy).Contents (Elt F) → (⟨S128, .f32⟩ : BufTy).Contents (Elt F)),
    unary main_v27 main_v28 (broadcastInDim S1x128 ![1] bcast_S128_S1x128_1 : (⟨S128, .f32⟩ : BufTy).Contents (Elt F) → (⟨S1x128, .f32⟩ : BufTy).Contents (Elt F)),
    unary main_v28 main_v29 (broadcastInDim S64x128 ![0, 1] bcast_S1x128_S64x128_0_1 : (⟨S1x128, .f32⟩ : BufTy).Contents (Elt F) → (⟨S64x128, .f32⟩ : BufTy).Contents (Elt F)),
    binary main_v24 main_v29 main_v30 (mulf : (⟨S64x128, .f32⟩ : BufTy).Contents (Elt F) → (⟨S64x128, .f32⟩ : BufTy).Contents (Elt F) → (⟨S64x128, .f32⟩ : BufTy).Contents (Elt F)),
    unary main_arg3 main_v31 (broadcastInDim S1x128 ![1] bcast_S128_S1x128_1 : (⟨S128, .f32⟩ : BufTy).Contents (Elt F) → (⟨S1x128, .f32⟩ : BufTy).Contents (Elt F)),
    unary main_v31 main_v32 (broadcastInDim S64x128 ![0, 1] bcast_S1x128_S64x128_0_1 : (⟨S1x128, .f32⟩ : BufTy).Contents (Elt F) → (⟨S64x128, .f32⟩ : BufTy).Contents (Elt F)),
    binary main_v30 main_v32 main_v33 (mulf : (⟨S64x128, .f32⟩ : BufTy).Contents (Elt F) → (⟨S64x128, .f32⟩ : BufTy).Contents (Elt F) → (⟨S64x128, .f32⟩ : BufTy).Contents (Elt F)),
    unary main_arg4 main_v34 (broadcastInDim S1x128 ![1] bcast_S128_S1x128_1 : (⟨S128, .f32⟩ : BufTy).Contents (Elt F) → (⟨S1x128, .f32⟩ : BufTy).Contents (Elt F)),
    unary main_v34 main_v35 (broadcastInDim S64x128 ![0, 1] bcast_S1x128_S64x128_0_1 : (⟨S1x128, .f32⟩ : BufTy).Contents (Elt F) → (⟨S64x128, .f32⟩ : BufTy).Contents (Elt F)),
    binary main_v33 main_v35 main_v36 (addf : (⟨S64x128, .f32⟩ : BufTy).Contents (Elt F) → (⟨S64x128, .f32⟩ : BufTy).Contents (Elt F) → (⟨S64x128, .f32⟩ : BufTy).Contents (Elt F)),
    unary main_arg2 main_v37 (Host.negf : (⟨S128, .f32⟩ : BufTy).Contents (Elt F) → (⟨S128, .f32⟩ : BufTy).Contents (Elt F)),
    unary main_v37 main_v38 (Host.exp : (⟨S128, .f32⟩ : BufTy).Contents (Elt F) → (⟨S128, .f32⟩ : BufTy).Contents (Elt F)),
    nullary main_cst_6 (constant S_ .f32 0x3F800000#32),
    unary main_cst_6 main_v39 (broadcastInDim S128 ![] bcast_S_S128 : (⟨S_, .f32⟩ : BufTy).Contents (Elt F) → (⟨S128, .f32⟩ : BufTy).Contents (Elt F)),
    binary main_v39 main_v38 main_v40 (addf : (⟨S128, .f32⟩ : BufTy).Contents (Elt F) → (⟨S128, .f32⟩ : BufTy).Contents (Elt F) → (⟨S128, .f32⟩ : BufTy).Contents (Elt F)),
    nullary main_cst_7 (constant S_ .f32 0x3F800000#32),
    unary main_cst_7 main_v41 (broadcastInDim S128 ![] bcast_S_S128 : (⟨S_, .f32⟩ : BufTy).Contents (Elt F) → (⟨S128, .f32⟩ : BufTy).Contents (Elt F)),
    binary main_v41 main_v40 main_v42 (Host.divf : (⟨S128, .f32⟩ : BufTy).Contents (Elt F) → (⟨S128, .f32⟩ : BufTy).Contents (Elt F) → (⟨S128, .f32⟩ : BufTy).Contents (Elt F)),
    unary main_v42 main_v43 (broadcastInDim S1x128 ![1] bcast_S128_S1x128_1 : (⟨S128, .f32⟩ : BufTy).Contents (Elt F) → (⟨S1x128, .f32⟩ : BufTy).Contents (Elt F)),
    unary main_v43 main_v44 (broadcastInDim S64x128 ![0, 1] bcast_S1x128_S64x128_0_1 : (⟨S1x128, .f32⟩ : BufTy).Contents (Elt F) → (⟨S64x128, .f32⟩ : BufTy).Contents (Elt F)),
    binary main_v36 main_v44 main_v45 (mulf : (⟨S64x128, .f32⟩ : BufTy).Contents (Elt F) → (⟨S64x128, .f32⟩ : BufTy).Contents (Elt F) → (⟨S64x128, .f32⟩ : BufTy).Contents (Elt F)),
    binary main_v45 main_arg5 main_v46 ((fun l r => Host.dotGeneral dot_S64x128_S128x256_S64x256_1_0_0_1_n_n none l r) : (⟨S64x128, .f32⟩ : BufTy).Contents (Elt F) → (⟨S128x256, .f32⟩ : BufTy).Contents (Elt F) → (⟨S64x256, .f32⟩ : BufTy).Contents (Elt F)),
    unary main_arg6 main_v47 (broadcastInDim S1x256 ![1] bcast_S256_S1x256_1 : (⟨S256, .f32⟩ : BufTy).Contents (Elt F) → (⟨S1x256, .f32⟩ : BufTy).Contents (Elt F)),
    unary main_v47 main_v48 (broadcastInDim S64x256 ![0, 1] bcast_S1x256_S64x256_0_1 : (⟨S1x256, .f32⟩ : BufTy).Contents (Elt F) → (⟨S64x256, .f32⟩ : BufTy).Contents (Elt F)),
    binary main_v46 main_v48 main_v49 (addf : (⟨S64x256, .f32⟩ : BufTy).Contents (Elt F) → (⟨S64x256, .f32⟩ : BufTy).Contents (Elt F) → (⟨S64x256, .f32⟩ : BufTy).Contents (Elt F)) ]

/-- Operations 63–99: ReLU, batch normalisation, the second linear layer. -/
abbrev R2ops : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S64x256, .f32⟩) main_call1_v0) (broadcastInDim S64x256 ![] bcast_S_S64x256),
    TRef.binary (TRef.of (T := ⟨S64x256, .f32⟩) main_v49) (TRef.of (T := ⟨S64x256, .f32⟩) main_call1_v0) (TRef.of (T := ⟨S64x256, .f32⟩) main_v50) maximumf,
    nullary main_cst_8 (constant S_ .f32 0x00000000#32),
    binary main_v50 main_cst_8 main_v51 ((fun x v => Host.reduceAdd x v reducesTo_S64x256_S256_d0 h_S_) : (⟨S64x256, .f32⟩ : BufTy).Contents (Elt F) → (⟨S_, .f32⟩ : BufTy).Contents (Elt F) → (⟨S256, .f32⟩ : BufTy).Contents (Elt F)),
    nullary main_cst_9 (constant S_ .f32 0x42800000#32),
    unary main_cst_9 main_v52 (broadcastInDim S256 ![] bcast_S_S256 : (⟨S_, .f32⟩ : BufTy).Contents (Elt F) → (⟨S256, .f32⟩ : BufTy).Contents (Elt F)),
    binary main_v51 main_v52 main_v53 (Host.divf : (⟨S256, .f32⟩ : BufTy).Contents (Elt F) → (⟨S256, .f32⟩ : BufTy).Contents (Elt F) → (⟨S256, .f32⟩ : BufTy).Contents (Elt F)),
    unary main_v53 main_v54 (broadcastInDim S1x256 ![1] bcast_S256_S1x256_1 : (⟨S256, .f32⟩ : BufTy).Contents (Elt F) → (⟨S1x256, .f32⟩ : BufTy).Contents (Elt F)),
    unary main_v54 main_v55 (broadcastInDim S64x256 ![0, 1] bcast_S1x256_S64x256_0_1 : (⟨S1x256, .f32⟩ : BufTy).Contents (Elt F) → (⟨S64x256, .f32⟩ : BufTy).Contents (Elt F)),
    binary main_v50 main_v55 main_v56 (subf : (⟨S64x256, .f32⟩ : BufTy).Contents (Elt F) → (⟨S64x256, .f32⟩ : BufTy).Contents (Elt F) → (⟨S64x256, .f32⟩ : BufTy).Contents (Elt F)),
    binary main_v56 main_v56 main_v57 (mulf : (⟨S64x256, .f32⟩ : BufTy).Contents (Elt F) → (⟨S64x256, .f32⟩ : BufTy).Contents (Elt F) → (⟨S64x256, .f32⟩ : BufTy).Contents (Elt F)),
    nullary main_cst_10 (constant S_ .f32 0x00000000#32),
    binary main_v57 main_cst_10 main_v58 ((fun x v => Host.reduceAdd x v reducesTo_S64x256_S256_d0 h_S_) : (⟨S64x256, .f32⟩ : BufTy).Contents (Elt F) → (⟨S_, .f32⟩ : BufTy).Contents (Elt F) → (⟨S256, .f32⟩ : BufTy).Contents (Elt F)),
    nullary main_cst_11 (constant S_ .f32 0x42800000#32),
    unary main_cst_11 main_v59 (broadcastInDim S256 ![] bcast_S_S256 : (⟨S_, .f32⟩ : BufTy).Contents (Elt F) → (⟨S256, .f32⟩ : BufTy).Contents (Elt F)),
    binary main_v58 main_v59 main_v60 (Host.divf : (⟨S256, .f32⟩ : BufTy).Contents (Elt F) → (⟨S256, .f32⟩ : BufTy).Contents (Elt F) → (⟨S256, .f32⟩ : BufTy).Contents (Elt F)),
    unary main_v53 main_v61 (broadcastInDim S1x256 ![1] bcast_S256_S1x256_1 : (⟨S256, .f32⟩ : BufTy).Contents (Elt F) → (⟨S1x256, .f32⟩ : BufTy).Contents (Elt F)),
    unary main_v61 main_v62 (broadcastInDim S64x256 ![0, 1] bcast_S1x256_S64x256_0_1 : (⟨S1x256, .f32⟩ : BufTy).Contents (Elt F) → (⟨S64x256, .f32⟩ : BufTy).Contents (Elt F)),
    binary main_v50 main_v62 main_v63 (subf : (⟨S64x256, .f32⟩ : BufTy).Contents (Elt F) → (⟨S64x256, .f32⟩ : BufTy).Contents (Elt F) → (⟨S64x256, .f32⟩ : BufTy).Contents (Elt F)),
    nullary main_cst_12 (constant S_ .f32 0x3727C5AC#32),
    unary main_cst_12 main_v64 (broadcastInDim S256 ![] bcast_S_S256 : (⟨S_, .f32⟩ : BufTy).Contents (Elt F) → (⟨S256, .f32⟩ : BufTy).Contents (Elt F)),
    binary main_v60 main_v64 main_v65 (addf : (⟨S256, .f32⟩ : BufTy).Contents (Elt F) → (⟨S256, .f32⟩ : BufTy).Contents (Elt F) → (⟨S256, .f32⟩ : BufTy).Contents (Elt F)),
    unary main_v65 main_v66 (Host.rsqrt : (⟨S256, .f32⟩ : BufTy).Contents (Elt F) → (⟨S256, .f32⟩ : BufTy).Contents (Elt F)),
    unary main_v66 main_v67 (broadcastInDim S1x256 ![1] bcast_S256_S1x256_1 : (⟨S256, .f32⟩ : BufTy).Contents (Elt F) → (⟨S1x256, .f32⟩ : BufTy).Contents (Elt F)),
    unary main_v67 main_v68 (broadcastInDim S64x256 ![0, 1] bcast_S1x256_S64x256_0_1 : (⟨S1x256, .f32⟩ : BufTy).Contents (Elt F) → (⟨S64x256, .f32⟩ : BufTy).Contents (Elt F)),
    binary main_v63 main_v68 main_v69 (mulf : (⟨S64x256, .f32⟩ : BufTy).Contents (Elt F) → (⟨S64x256, .f32⟩ : BufTy).Contents (Elt F) → (⟨S64x256, .f32⟩ : BufTy).Contents (Elt F)),
    unary main_arg7 main_v70 (broadcastInDim S1x256 ![1] bcast_S256_S1x256_1 : (⟨S256, .f32⟩ : BufTy).Contents (Elt F) → (⟨S1x256, .f32⟩ : BufTy).Contents (Elt F)),
    unary main_v70 main_v71 (broadcastInDim S64x256 ![0, 1] bcast_S1x256_S64x256_0_1 : (⟨S1x256, .f32⟩ : BufTy).Contents (Elt F) → (⟨S64x256, .f32⟩ : BufTy).Contents (Elt F)),
    binary main_v69 main_v71 main_v72 (mulf : (⟨S64x256, .f32⟩ : BufTy).Contents (Elt F) → (⟨S64x256, .f32⟩ : BufTy).Contents (Elt F) → (⟨S64x256, .f32⟩ : BufTy).Contents (Elt F)),
    unary main_arg8 main_v73 (broadcastInDim S1x256 ![1] bcast_S256_S1x256_1 : (⟨S256, .f32⟩ : BufTy).Contents (Elt F) → (⟨S1x256, .f32⟩ : BufTy).Contents (Elt F)),
    unary main_v73 main_v74 (broadcastInDim S64x256 ![0, 1] bcast_S1x256_S64x256_0_1 : (⟨S1x256, .f32⟩ : BufTy).Contents (Elt F) → (⟨S64x256, .f32⟩ : BufTy).Contents (Elt F)),
    binary main_v72 main_v74 main_v75 (addf : (⟨S64x256, .f32⟩ : BufTy).Contents (Elt F) → (⟨S64x256, .f32⟩ : BufTy).Contents (Elt F) → (⟨S64x256, .f32⟩ : BufTy).Contents (Elt F)),
    binary main_v75 main_arg9 main_v76 ((fun l r => Host.dotGeneral dot_S64x256_S256x128_S64x128_1_0_0_1_n_n none l r) : (⟨S64x256, .f32⟩ : BufTy).Contents (Elt F) → (⟨S256x128, .f32⟩ : BufTy).Contents (Elt F) → (⟨S64x128, .f32⟩ : BufTy).Contents (Elt F)),
    unary main_arg10 main_v77 (broadcastInDim S1x128 ![1] bcast_S128_S1x128_1 : (⟨S128, .f32⟩ : BufTy).Contents (Elt F) → (⟨S1x128, .f32⟩ : BufTy).Contents (Elt F)),
    unary main_v77 main_v78 (broadcastInDim S64x128 ![0, 1] bcast_S1x128_S64x128_0_1 : (⟨S1x128, .f32⟩ : BufTy).Contents (Elt F) → (⟨S64x128, .f32⟩ : BufTy).Contents (Elt F)),
    binary main_v76 main_v78 main_v79 (addf : (⟨S64x128, .f32⟩ : BufTy).Contents (Elt F) → (⟨S64x128, .f32⟩ : BufTy).Contents (Elt F) → (⟨S64x128, .f32⟩ : BufTy).Contents (Elt F)) ]

/-- Operations 100–150: ReLU, batch normalisation, the output layer, the softmax (the first result). -/
abbrev R3ops : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S64x128, .f32⟩) main_call2_v0) (broadcastInDim S64x128 ![] bcast_S_S64x128),
    TRef.binary (TRef.of (T := ⟨S64x128, .f32⟩) main_v79) (TRef.of (T := ⟨S64x128, .f32⟩) main_call2_v0) (TRef.of (T := ⟨S64x128, .f32⟩) main_v80) maximumf,
    nullary main_cst_13 (constant S_ .f32 0x00000000#32),
    binary main_v80 main_cst_13 main_v81 ((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)),
    nullary main_cst_14 (constant S_ .f32 0x42800000#32),
    unary main_cst_14 main_v82 (broadcastInDim S128 ![] bcast_S_S128 : (⟨S_, .f32⟩ : BufTy).Contents (Elt F) → (⟨S128, .f32⟩ : BufTy).Contents (Elt F)),
    binary main_v81 main_v82 main_v83 (Host.divf : (⟨S128, .f32⟩ : BufTy).Contents (Elt F) → (⟨S128, .f32⟩ : BufTy).Contents (Elt F) → (⟨S128, .f32⟩ : BufTy).Contents (Elt F)),
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S64x128 ![0, 1] bcast_S1x128_S64x128_0_1 : (⟨S1x128, .f32⟩ : BufTy).Contents (Elt F) → (⟨S64x128, .f32⟩ : BufTy).Contents (Elt F)),
    binary main_v80 main_v85 main_v86 (subf : (⟨S64x128, .f32⟩ : BufTy).Contents (Elt F) → (⟨S64x128, .f32⟩ : BufTy).Contents (Elt F) → (⟨S64x128, .f32⟩ : BufTy).Contents (Elt F)),
    binary main_v86 main_v86 main_v87 (mulf : (⟨S64x128, .f32⟩ : BufTy).Contents (Elt F) → (⟨S64x128, .f32⟩ : BufTy).Contents (Elt F) → (⟨S64x128, .f32⟩ : BufTy).Contents (Elt F)),
    nullary main_cst_15 (constant S_ .f32 0x00000000#32),
    binary main_v87 main_cst_15 main_v88 ((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)),
    nullary main_cst_16 (constant S_ .f32 0x42800000#32),
    unary main_cst_16 main_v89 (broadcastInDim S128 ![] bcast_S_S128 : (⟨S_, .f32⟩ : BufTy).Contents (Elt F) → (⟨S128, .f32⟩ : BufTy).Contents (Elt F)),
    binary main_v88 main_v89 main_v90 (Host.divf : (⟨S128, .f32⟩ : BufTy).Contents (Elt F) → (⟨S128, .f32⟩ : BufTy).Contents (Elt F) → (⟨S128, .f32⟩ : BufTy).Contents (Elt F)),
    unary main_v83 main_v91 (broadcastInDim S1x128 ![1] bcast_S128_S1x128_1 : (⟨S128, .f32⟩ : BufTy).Contents (Elt F) → (⟨S1x128, .f32⟩ : BufTy).Contents (Elt F)),
    unary main_v91 main_v92 (broadcastInDim S64x128 ![0, 1] bcast_S1x128_S64x128_0_1 : (⟨S1x128, .f32⟩ : BufTy).Contents (Elt F) → (⟨S64x128, .f32⟩ : BufTy).Contents (Elt F)),
    binary main_v80 main_v92 main_v93 (subf : (⟨S64x128, .f32⟩ : BufTy).Contents (Elt F) → (⟨S64x128, .f32⟩ : BufTy).Contents (Elt F) → (⟨S64x128, .f32⟩ : BufTy).Contents (Elt F)),
    nullary main_cst_17 (constant S_ .f32 0x3727C5AC#32),
    unary main_cst_17 main_v94 (broadcastInDim S128 ![] bcast_S_S128 : (⟨S_, .f32⟩ : BufTy).Contents (Elt F) → (⟨S128, .f32⟩ : BufTy).Contents (Elt F)),
    binary main_v90 main_v94 main_v95 (addf : (⟨S128, .f32⟩ : BufTy).Contents (Elt F) → (⟨S128, .f32⟩ : BufTy).Contents (Elt F) → (⟨S128, .f32⟩ : BufTy).Contents (Elt F)),
    unary main_v95 main_v96 (Host.rsqrt : (⟨S128, .f32⟩ : BufTy).Contents (Elt F) → (⟨S128, .f32⟩ : BufTy).Contents (Elt F)),
    unary main_v96 main_v97 (broadcastInDim S1x128 ![1] bcast_S128_S1x128_1 : (⟨S128, .f32⟩ : BufTy).Contents (Elt F) → (⟨S1x128, .f32⟩ : BufTy).Contents (Elt F)),
    unary main_v97 main_v98 (broadcastInDim S64x128 ![0, 1] bcast_S1x128_S64x128_0_1 : (⟨S1x128, .f32⟩ : BufTy).Contents (Elt F) → (⟨S64x128, .f32⟩ : BufTy).Contents (Elt F)),
    binary main_v93 main_v98 main_v99 (mulf : (⟨S64x128, .f32⟩ : BufTy).Contents (Elt F) → (⟨S64x128, .f32⟩ : BufTy).Contents (Elt F) → (⟨S64x128, .f32⟩ : BufTy).Contents (Elt F)),
    unary main_arg11 main_v100 (broadcastInDim S1x128 ![1] bcast_S128_S1x128_1 : (⟨S128, .f32⟩ : BufTy).Contents (Elt F) → (⟨S1x128, .f32⟩ : BufTy).Contents (Elt F)),
    unary main_v100 main_v101 (broadcastInDim S64x128 ![0, 1] bcast_S1x128_S64x128_0_1 : (⟨S1x128, .f32⟩ : BufTy).Contents (Elt F) → (⟨S64x128, .f32⟩ : BufTy).Contents (Elt F)),
    binary main_v99 main_v101 main_v102 (mulf : (⟨S64x128, .f32⟩ : BufTy).Contents (Elt F) → (⟨S64x128, .f32⟩ : BufTy).Contents (Elt F) → (⟨S64x128, .f32⟩ : BufTy).Contents (Elt F)),
    unary main_arg12 main_v103 (broadcastInDim S1x128 ![1] bcast_S128_S1x128_1 : (⟨S128, .f32⟩ : BufTy).Contents (Elt F) → (⟨S1x128, .f32⟩ : BufTy).Contents (Elt F)),
    unary main_v103 main_v104 (broadcastInDim S64x128 ![0, 1] bcast_S1x128_S64x128_0_1 : (⟨S1x128, .f32⟩ : BufTy).Contents (Elt F) → (⟨S64x128, .f32⟩ : BufTy).Contents (Elt F)),
    binary main_v102 main_v104 main_v105 (addf : (⟨S64x128, .f32⟩ : BufTy).Contents (Elt F) → (⟨S64x128, .f32⟩ : BufTy).Contents (Elt F) → (⟨S64x128, .f32⟩ : BufTy).Contents (Elt F)),
    binary main_v105 main_arg13 main_v106 ((fun l r => Host.dotGeneral dot_S64x128_S128x32_S64x32_1_0_0_1_n_n none l r) : (⟨S64x128, .f32⟩ : BufTy).Contents (Elt F) → (⟨S128x32, .f32⟩ : BufTy).Contents (Elt F) → (⟨S64x32, .f32⟩ : BufTy).Contents (Elt F)),
    unary main_arg14 main_v107 (broadcastInDim S1x32 ![1] bcast_S32_S1x32_1 : (⟨S32, .f32⟩ : BufTy).Contents (Elt F) → (⟨S1x32, .f32⟩ : BufTy).Contents (Elt F)),
    unary main_v107 main_v108 (broadcastInDim S64x32 ![0, 1] bcast_S1x32_S64x32_0_1 : (⟨S1x32, .f32⟩ : BufTy).Contents (Elt F) → (⟨S64x32, .f32⟩ : BufTy).Contents (Elt F)),
    binary main_v106 main_v108 main_v109 (addf : (⟨S64x32, .f32⟩ : BufTy).Contents (Elt F) → (⟨S64x32, .f32⟩ : BufTy).Contents (Elt F) → (⟨S64x32, .f32⟩ : BufTy).Contents (Elt F)),
    nullary main_cst_18 (constant S_ .f32 0xFF800000#32),
    binary main_v109 main_cst_18 main_v110 ((fun x v => Host.reduce FloatOps.maximumf x v reducesTo_S64x32_S64_d1 h_S_) : (⟨S64x32, .f32⟩ : BufTy).Contents (Elt F) → (⟨S_, .f32⟩ : BufTy).Contents (Elt F) → (⟨S64, .f32⟩ : BufTy).Contents (Elt F)),
    nullary main_cst_19 (constant S_ .f32 0xFF800000#32),
    unary main_cst_19 main_v111 (broadcastInDim S64 ![] bcast_S_S64 : (⟨S_, .f32⟩ : BufTy).Contents (Elt F) → (⟨S64, .f32⟩ : BufTy).Contents (Elt F)),
    binary main_v111 main_v110 main_v112 (maximumf : (⟨S64, .f32⟩ : BufTy).Contents (Elt F) → (⟨S64, .f32⟩ : BufTy).Contents (Elt F) → (⟨S64, .f32⟩ : BufTy).Contents (Elt F)),
    unary main_v112 main_v113 (broadcastInDim S64x1 ![0] bcast_S64_S64x1_0 : (⟨S64, .f32⟩ : BufTy).Contents (Elt F) → (⟨S64x1, .f32⟩ : BufTy).Contents (Elt F)),
    unary main_v113 main_v114 (broadcastInDim S64x32 ![0, 1] bcast_S64x1_S64x32_0_1 : (⟨S64x1, .f32⟩ : BufTy).Contents (Elt F) → (⟨S64x32, .f32⟩ : BufTy).Contents (Elt F)),
    binary main_v109 main_v114 main_v115 (subf : (⟨S64x32, .f32⟩ : BufTy).Contents (Elt F) → (⟨S64x32, .f32⟩ : BufTy).Contents (Elt F) → (⟨S64x32, .f32⟩ : BufTy).Contents (Elt F)),
    unary main_v115 main_v116 (Host.exp : (⟨S64x32, .f32⟩ : BufTy).Contents (Elt F) → (⟨S64x32, .f32⟩ : BufTy).Contents (Elt F)),
    nullary main_cst_20 (constant S_ .f32 0x00000000#32),
    binary main_v116 main_cst_20 main_v117 ((fun x v => Host.reduceAdd x v reducesTo_S64x32_S64_d1 h_S_) : (⟨S64x32, .f32⟩ : BufTy).Contents (Elt F) → (⟨S_, .f32⟩ : BufTy).Contents (Elt F) → (⟨S64, .f32⟩ : BufTy).Contents (Elt F)),
    unary main_v117 main_v118 (broadcastInDim S64x1 ![0] bcast_S64_S64x1_0 : (⟨S64, .f32⟩ : BufTy).Contents (Elt F) → (⟨S64x1, .f32⟩ : BufTy).Contents (Elt F)),
    unary main_v118 main_v119 (broadcastInDim S64x32 ![0, 1] bcast_S64x1_S64x32_0_1 : (⟨S64x1, .f32⟩ : BufTy).Contents (Elt F) → (⟨S64x32, .f32⟩ : BufTy).Contents (Elt F)),
    binary main_v116 main_v119 main_v120 (Host.divf : (⟨S64x32, .f32⟩ : BufTy).Contents (Elt F) → (⟨S64x32, .f32⟩ : BufTy).Contents (Elt F) → (⟨S64x32, .f32⟩ : BufTy).Contents (Elt F)) ]

end Cert.ReferenceIdeal.Hand

end
-- ==== Proof.Ref.Split.lean ====
/-
  The reference's operation list is its four stretches one after the other.
-/
import proofs.«136356_j52656299049592_1_alg».proof.Proof.Ref.Run
import proofs.«136356_j52656299049592_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ops_split : (Cert.ReferenceIdeal.RunP.ops : List (HloOp τ sig (Elt F))) = R0ops ++ (R1ops ++ (R2ops ++ R3ops)) := rfl

end Cert.ReferenceIdeal.Hand

end
-- ==== Proof.Ref.Frame.lean ====
/-
  The reference's run and its argument arrays: none of the 150 host operations writes an argument array, so each
  argument array ends the run as it was launched; the two results end at the fold of the last three stretches over
  what the first stretch (the weighted scatter-add) leaves.
-/
import proofs.«136356_j52656299049592_1_alg».proof.Proof.Ref.Run
import proofs.«136356_j52656299049592_1_alg».proof.Proof.Ref.Ops
import proofs.«136356_j52656299049592_1_alg».proof.Proof.Ref.Split
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Folding over two stretches in a row -/

/-- The fold over two stretches in a row is the fold over the second of the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## No operation writes an argument array -/

/-- The sixteen argument arrays. -/
abbrev argRefs : List (Ref sig .tc) :=
  [main_arg0, main_arg1, main_arg2, main_arg3, main_arg4, main_arg5, main_arg6, main_arg7, main_arg8, main_arg9, main_arg10,
    main_arg11, main_arg12, main_arg13, main_arg14, main_arg15]

/-- An argument array and a reference that is none of them are different device buffers. -/
theorem devRef_ne_of_mem_argRefs {r y : Ref sig .tc} (hr : r ∈ argRefs) (hy : y ∉ argRefs) :
    Proc.devRef (τ := τ) .tc r ≠ Proc.devRef .tc y :=
  StableHlo.devRef_ne_of_ne (fun e => hy (e ▸ hr))

/-- The first stretch writes no argument array. -/
theorem R0_keeps (V : Valuation τ sig (Elt F)) (r : Ref sig .tc) (hr : r ∈ argRefs) :
    after (R0ops (F := F)) V (Proc.devRef .tc r) = V (Proc.devRef .tc r) :=
  StableHlo.after_of_forall_not_mem (b := Proc.devRef .tc r) _ _ (List.forall_iff_forall_mem.mp (by
    simp only [R0ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_mem_argRefs hr (by decide)))

/-- The second stretch writes no argument array. -/
theorem R1_keeps (V : Valuation τ sig (Elt F)) (r : Ref sig .tc) (hr : r ∈ argRefs) :
    after (R1ops (F := F)) V (Proc.devRef .tc r) = V (Proc.devRef .tc r) :=
  StableHlo.after_of_forall_not_mem (b := Proc.devRef .tc r) _ _ (List.forall_iff_forall_mem.mp (by
    simp only [R1ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_mem_argRefs hr (by decide)))

/-- The third stretch writes no argument array. -/
theorem R2_keeps (V : Valuation τ sig (Elt F)) (r : Ref sig .tc) (hr : r ∈ argRefs) :
    after (R2ops (F := F)) V (Proc.devRef .tc r) = V (Proc.devRef .tc r) :=
  StableHlo.after_of_forall_not_mem (b := Proc.devRef .tc r) _ _ (List.forall_iff_forall_mem.mp (by
    simp only [R2ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_mem_argRefs hr (by decide)))

/-- The fourth stretch writes no argument array. -/
theorem R3_keeps (V : Valuation τ sig (Elt F)) (r : Ref sig .tc) (hr : r ∈ argRefs) :
    after (R3ops (F := F)) V (Proc.devRef .tc r) = V (Proc.devRef .tc r) :=
  StableHlo.after_of_forall_not_mem (b := Proc.devRef .tc r) _ _ (List.forall_iff_forall_mem.mp (by
    simp only [R3ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_mem_argRefs hr (by decide)))

/-- The whole list of operations writes no argument array. -/
theorem ops_keeps (V : Valuation τ sig (Elt F)) (r : Ref sig .tc) (hr : r ∈ argRefs) :
    after (Cert.ReferenceIdeal.RunP.ops (F := F)) V (Proc.devRef .tc r) = V (Proc.devRef .tc r) := by
  rw [ops_split, after_app, after_app, after_app, R3_keeps _ r hr, R2_keeps _ r hr, R1_keeps _ r hr, R0_keeps _ r hr]

/-- No operation writes `main_arg0`: it ends as launched. -/
theorem arg_kept_0 (m : (ℓ : Loc nD τ sig) → Buf (Elt F) ℓ) (c : Dev nD) :
    after (Cert.ReferenceIdeal.RunP.ops (F := F)) (launchContents m c) (Proc.devRef .tc main_arg0) = m ((c.tc : Thread nD τ).loc main_arg0) :=
  ops_keeps (launchContents m c) main_arg0 (by decide)
/-- No operation writes `main_arg1`: it ends as launched. -/
theorem arg_kept_1 (m : (ℓ : Loc nD τ sig) → Buf (Elt F) ℓ) (c : Dev nD) :
    after (Cert.ReferenceIdeal.RunP.ops (F := F)) (launchContents m c) (Proc.devRef .tc main_arg1) = m ((c.tc : Thread nD τ).loc main_arg1) :=
  ops_keeps (launchContents m c) main_arg1 (by decide)
/-- No operation writes `main_arg2`: it ends as launched. -/
theorem arg_kept_2 (m : (ℓ : Loc nD τ sig) → Buf (Elt F) ℓ) (c : Dev nD) :
    after (Cert.ReferenceIdeal.RunP.ops (F := F)) (launchContents m c) (Proc.devRef .tc main_arg2) = m ((c.tc : Thread nD τ).loc main_arg2) :=
  ops_keeps (launchContents m c) main_arg2 (by decide)
/-- No operation writes `main_arg3`: it ends as launched. -/
theorem arg_kept_3 (m : (ℓ : Loc nD τ sig) → Buf (Elt F) ℓ) (c : Dev nD) :
    after (Cert.ReferenceIdeal.RunP.ops (F := F)) (launchContents m c) (Proc.devRef .tc main_arg3) = m ((c.tc : Thread nD τ).loc main_arg3) :=
  ops_keeps (launchContents m c) main_arg3 (by decide)
/-- No operation writes `main_arg4`: it ends as launched. -/
theorem arg_kept_4 (m : (ℓ : Loc nD τ sig) → Buf (Elt F) ℓ) (c : Dev nD) :
    after (Cert.ReferenceIdeal.RunP.ops (F := F)) (launchContents m c) (Proc.devRef .tc main_arg4) = m ((c.tc : Thread nD τ).loc main_arg4) :=
  ops_keeps (launchContents m c) main_arg4 (by decide)
/-- No operation writes `main_arg5`: it ends as launched. -/
theorem arg_kept_5 (m : (ℓ : Loc nD τ sig) → Buf (Elt F) ℓ) (c : Dev nD) :
    after (Cert.ReferenceIdeal.RunP.ops (F := F)) (launchContents m c) (Proc.devRef .tc main_arg5) = m ((c.tc : Thread nD τ).loc main_arg5) :=
  ops_keeps (launchContents m c) main_arg5 (by decide)
/-- No operation writes `main_arg6`: it ends as launched. -/
theorem arg_kept_6 (m : (ℓ : Loc nD τ sig) → Buf (Elt F) ℓ) (c : Dev nD) :
    after (Cert.ReferenceIdeal.RunP.ops (F := F)) (launchContents m c) (Proc.devRef .tc main_arg6) = m ((c.tc : Thread nD τ).loc main_arg6) :=
  ops_keeps (launchContents m c) main_arg6 (by decide)
/-- No operation writes `main_arg7`: it ends as launched. -/
theorem arg_kept_7 (m : (ℓ : Loc nD τ sig) → Buf (Elt F) ℓ) (c : Dev nD) :
    after (Cert.ReferenceIdeal.RunP.ops (F := F)) (launchContents m c) (Proc.devRef .tc main_arg7) = m ((c.tc : Thread nD τ).loc main_arg7) :=
  ops_keeps (launchContents m c) main_arg7 (by decide)
/-- No operation writes `main_arg8`: it ends as launched. -/
theorem arg_kept_8 (m : (ℓ : Loc nD τ sig) → Buf (Elt F) ℓ) (c : Dev nD) :
    after (Cert.ReferenceIdeal.RunP.ops (F := F)) (launchContents m c) (Proc.devRef .tc main_arg8) = m ((c.tc : Thread nD τ).loc main_arg8) :=
  ops_keeps (launchContents m c) main_arg8 (by decide)
/-- No operation writes `main_arg9`: it ends as launched. -/
theorem arg_kept_9 (m : (ℓ : Loc nD τ sig) → Buf (Elt F) ℓ) (c : Dev nD) :
    after (Cert.ReferenceIdeal.RunP.ops (F := F)) (launchContents m c) (Proc.devRef .tc main_arg9) = m ((c.tc : Thread nD τ).loc main_arg9) :=
  ops_keeps (launchContents m c) main_arg9 (by decide)
/-- No operation writes `main_arg10`: it ends as launched. -/
theorem arg_kept_10 (m : (ℓ : Loc nD τ sig) → Buf (Elt F) ℓ) (c : Dev nD) :
    after (Cert.ReferenceIdeal.RunP.ops (F := F)) (launchContents m c) (Proc.devRef .tc main_arg10) = m ((c.tc : Thread nD τ).loc main_arg10) :=
  ops_keeps (launchContents m c) main_arg10 (by decide)
/-- No operation writes `main_arg11`: it ends as launched. -/
theorem arg_kept_11 (m : (ℓ : Loc nD τ sig) → Buf (Elt F) ℓ) (c : Dev nD) :
    after (Cert.ReferenceIdeal.RunP.ops (F := F)) (launchContents m c) (Proc.devRef .tc main_arg11) = m ((c.tc : Thread nD τ).loc main_arg11) :=
  ops_keeps (launchContents m c) main_arg11 (by decide)
/-- No operation writes `main_arg12`: it ends as launched. -/
theorem arg_kept_12 (m : (ℓ : Loc nD τ sig) → Buf (Elt F) ℓ) (c : Dev nD) :
    after (Cert.ReferenceIdeal.RunP.ops (F := F)) (launchContents m c) (Proc.devRef .tc main_arg12) = m ((c.tc : Thread nD τ).loc main_arg12) :=
  ops_keeps (launchContents m c) main_arg12 (by decide)
/-- No operation writes `main_arg13`: it ends as launched. -/
theorem arg_kept_13 (m : (ℓ : Loc nD τ sig) → Buf (Elt F) ℓ) (c : Dev nD) :
    after (Cert.ReferenceIdeal.RunP.ops (F := F)) (launchContents m c) (Proc.devRef .tc main_arg13) = m ((c.tc : Thread nD τ).loc main_arg13) :=
  ops_keeps (launchContents m c) main_arg13 (by decide)
/-- No operation writes `main_arg14`: it ends as launched. -/
theorem arg_kept_14 (m : (ℓ : Loc nD τ sig) → Buf (Elt F) ℓ) (c : Dev nD) :
    after (Cert.ReferenceIdeal.RunP.ops (F := F)) (launchContents m c) (Proc.devRef .tc main_arg14) = m ((c.tc : Thread nD τ).loc main_arg14) :=
  ops_keeps (launchContents m c) main_arg14 (by decide)
/-- No operation writes `main_arg15`: it ends as launched. -/
theorem arg_kept_15 (m : (ℓ : Loc nD τ sig) → Buf (Elt F) ℓ) (c : Dev nD) :
    after (Cert.ReferenceIdeal.RunP.ops (F := F)) (launchContents m c) (Proc.devRef .tc main_arg15) = m ((c.tc : Thread nD τ).loc main_arg15) :=
  ops_keeps (launchContents m c) main_arg15 (by decide)

/-! ## The run -/

/-- Every execution of the reference ends with every argument array as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c main_arg0).trans (arg_kept_0 m c),
      (h c main_arg1).trans (arg_kept_1 m c),
      (h c main_arg2).trans (arg_kept_2 m c),
      (h c main_arg3).trans (arg_kept_3 m c),
      (h c main_arg4).trans (arg_kept_4 m c),
      (h c main_arg5).trans (arg_kept_5 m c),
      (h c main_arg6).trans (arg_kept_6 m c),
      (h c main_arg7).trans (arg_kept_7 m c),
      (h c main_arg8).trans (arg_kept_8 m c),
      (h c main_arg9).trans (arg_kept_9 m c),
      (h c main_arg10).trans (arg_kept_10 m c),
      (h c main_arg11).trans (arg_kept_11 m c),
      (h c main_arg12).trans (arg_kept_12 m c),
      (h c main_arg13).trans (arg_kept_13 m c),
      (h c main_arg14).trans (arg_kept_14 m c),
      (h c main_arg15).trans (arg_kept_15 m c)⟩) (Cert.ReferenceIdeal.RunP.run m ρ)

/-- Every execution of the reference ends with the two results at the fold of the last three stretches over what the
    first stretch leaves, and with every argument array as launched. -/
theorem run_results (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v120) = after (R1ops ++ (R2ops ++ R3ops)) (after R0ops (launchContents m c)) (Proc.devRef .tc main_v120)
      ∧ r.2.mem ((c.tc : Thread nD τ).loc main_v45) = after (R1ops ++ (R2ops ++ R3ops)) (after R0ops (launchContents m c)) (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c main_v120).trans (by rw [ops_split, after_app]),
      (h c main_v45).trans (by rw [ops_split, after_app]),
      (h c main_arg0).trans (arg_kept_0 m c),
      (h c main_arg1).trans (arg_kept_1 m c),
      (h c main_arg2).trans (arg_kept_2 m c),
      (h c main_arg3).trans (arg_kept_3 m c),
      (h c main_arg4).trans (arg_kept_4 m c),
      (h c main_arg5).trans (arg_kept_5 m c),
      (h c main_arg6).trans (arg_kept_6 m c),
      (h c main_arg7).trans (arg_kept_7 m c),
      (h c main_arg8).trans (arg_kept_8 m c),
      (h c main_arg9).trans (arg_kept_9 m c),
      (h c main_arg10).trans (arg_kept_10 m c),
      (h c main_arg11).trans (arg_kept_11 m c),
      (h c main_arg12).trans (arg_kept_12 m c),
      (h c main_arg13).trans (arg_kept_13 m c),
      (h c main_arg14).trans (arg_kept_14 m c),
      (h c main_arg15).trans (arg_kept_15 m c)⟩) (Cert.ReferenceIdeal.RunP.run m ρ)

end Cert.ReferenceIdeal.Hand

end
-- ==== Proof.LibGS.lean ====
/-
  General facts about the host's row gather and accumulating row scatter, and about extended reals:
  a finite sum times a non-negative finite factor distributes; the reciprocal square root of a number at least
  one is a non-negative finite number; a row gather reads the table's row at the clamped start index; an update
  that a row scatter lands on an operand element has that element's row as its start index and the same column;
  an in-range word is its own wrap and its own clamp.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate
import Mathlib.Data.EReal.Operations

noncomputable section

namespace Cert.LibGS

open Idealize.ShloMosaic Idealize.ShloMosaic.ValueIdx
open scoped BigOperators

/-! ## Extended reals -/

/-- A finite sum times a non-negative finite factor distributes. -/
theorem sum_mul_const {ι : Type} [DecidableEq ι] (S : Finset ι) (f : ι → EReal) (D : EReal) (h0 : 0 ≤ D) (ht : D ≠ ⊤) :
    (∑ j ∈ S, f j) * D = ∑ j ∈ S, f j * D := by
  induction S using Finset.induction_on with
  | empty => simp
  | insert a S ha ih =>
    rw [Finset.sum_insert ha, Finset.sum_insert ha, EReal.right_distrib_of_nonneg_of_ne_top h0 ht, ih]

/-- The reciprocal square root of something at least one is a non-negative finite number. -/
theorem rsqrt_bounds (x : EReal) (h : 1 ≤ x) : 0 ≤ Ideal.rsqrt x ∧ Ideal.rsqrt x ≠ ⊤ := by
  induction x using EReal.rec with
  | bot =>
    have hlt : (⊥ : EReal) < 1 := by exact_mod_cast EReal.bot_lt_coe (1 : ℝ)
    exact absurd h (not_le.mpr hlt)
  | top => simp
  | coe r =>
    have hr : (1 : ℝ) ≤ r := by exact_mod_cast h
    have h1 : ¬ r < 0 := by linarith
    have h2 : ¬ r = 0 := by linarith
    rw [Ideal.rsqrt_coe, if_neg h1, if_neg h2]
    refine ⟨?_, EReal.coe_ne_top _⟩
    exact_mod_cast inv_nonneg.mpr (Real.sqrt_nonneg r)

/-! ## The accumulating scatter, unfolded -/

/-- The accumulating scatter at the ideal values: each operand element plus the sum of the updates landing on it. -/
theorem scatterAdd_apply {s si u : Shape} {φ : FTy} {w : Nat} (d : ScatterDims s si u) (x : FVec Ideal s φ) (idx : IVec si w)
    (upd : FVec Ideal u φ) (i : s.Idx) :
    Host.scatterAdd (F := Ideal) d x idx upd i = x i + ∑ j ∈ Finset.univ.filter (fun j => d.resultIdx? j idx = some i), upd j := rfl

/-! ## Lists with one entry -/

/-- Every entry of a one-entry list is that entry. -/
theorem getElem_of_eq_singleton {α : Type} {l : List α} {a : α} (h : l = [a]) (k : Nat) (hk : k < l.length) : l[k] = a := by
  subst h
  have hk0 : k = 0 := by simpa using hk
  subst hk0; rfl

/-! ## The row gather -/

/-- The row gather read at (p, q): for an [N, C] table and an [n, 1] column of start indices (the result's axis 1 the
    offset axis, the table's axis 0 collapsed and named by the start index map, the index vector on axis 1), the table's
    entry at column q of the row that position p's start index names, read signed and clamped into [0, N - 1]. -/
theorem gather_rows {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = []) (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 (⟨min (idx (ix2 p (0 : Fin 1))).toInt.toNat (N - 1), by omega⟩ : Fin N) q) := by
  have hb : ∀ a : Fin 2, a ∉ d.operandBatchingDims := by intro a; rw [hob]; exact List.not_mem_nil
  have hbd : d.batchDims = [0] := by
    show Shape.kept _ d.offsetDims = [0]
    rw [hoff]; rfl
  -- the row: the start index of position p, read signed and clamped
  have h0 : (d.operandIdx (ix2 p q) idx (0 : Fin 2)).val = min (idx (ix2 p (0 : Fin 1))).toInt.toNat (N - 1) := by
    have hk : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes (0 : Fin 2)) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  -- the column: the result's own column
  have h1 : (d.operandIdx (ix2 p q) idx (1 : Fin 2)).val = q.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start, dif_neg hm,
      Nat.zero_add]
    unfold GatherDims.offCoord
    rw [dif_pos hk, getElem_of_eq_singleton hoff]
    rfl
  unfold Host.gather
  congr 1
  funext a
  apply Fin.ext
  match a with
  | ⟨0, _⟩ => exact h0
  | ⟨1, _⟩ => exact h1

/-! ## Where a row scatter lands -/

/-- Where a row scatter lands: for an [N, C] operand, an [n, 1] column of scatter indices and [n, C] updates (the
    updates' axis 1 the window axis, the operand's axis 0 inserted and named by the scatter map, the index vector on
    axis 1), if update j lands on operand index i then the start index of j's row, read signed, is i's row, and the
    two columns agree. -/
theorem scatter_rows_lands {N n C w : Nat} (d : ScatterDims ⟨2, ![N, C]⟩ ⟨2, ![n, 1]⟩ ⟨2, ![n, C]⟩)
    (huw : d.updateWindowDims = [1]) (hins : d.insertedWindowDims = [0]) (hsd : d.scatterDimsToOperandDims = [0]) (hivd : d.indexVectorDim = 1)
    (idx : IVec ⟨2, ![n, 1]⟩ w) (j : (⟨2, ![n, C]⟩ : Shape).Idx) (i : (⟨2, ![N, C]⟩ : Shape).Idx) (h : d.resultIdx? j idx = some i) :
    (idx (ix2 (⟨(j 0).val, (j 0).isLt⟩ : Fin n) (0 : Fin 1))).toInt = ((i 0).val : Int) ∧ (j 1).val = (i 1).val := by
  have hsk : d.sKept = [1] := by
    show Shape.kept _ d.insertedWindowDims = [1]
    rw [hins]; rfl
  have hus : d.uScatter = [0] := by
    show Shape.kept _ d.updateWindowDims = [0]
    rw [huw]; rfl
  -- axis 0: the start is the start index of j's row, the window coordinate is zero
  have hw0 : d.window j (0 : Fin 2) = 0 := by
    unfold ScatterDims.window
    rw [dif_neg (by rw [hsk]; simp)]
  have hs0 : d.start j idx (0 : Fin 2) = (idx (ix2 (⟨(j 0).val, (j 0).isLt⟩ : Fin n) (0 : Fin 1))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      rw [getElem_of_eq_singleton hus]
    | ⟨1, _⟩ =>
      unfold ScatterDims.siIdx
      rw [dif_pos (by rw [hivd])]
      apply Fin.ext
      show List.idxOf (0 : Fin 2) d.scatterDimsToOperandDims = 0
      rw [hsd]; simp
  -- axis 1: the start is zero, the window coordinate is j's column
  have hw1 : d.window j (1 : Fin 2) = (j 1).val := by
    have hk : (1 : Fin 2) ∈ d.sKept := by rw [hsk]; exact List.mem_singleton.mpr rfl
    unfold ScatterDims.window
    rw [dif_pos hk, getElem_of_eq_singleton huw]
  have hs1 : d.start j idx (1 : Fin 2) = 0 := by
    unfold ScatterDims.start
    rw [dif_neg (by rw [hsd]; simp)]
  unfold ScatterDims.resultIdx? at h
  split at h
  · rename_i hall
    have hi := Option.some.inj h
    subst hi
    have h0 := hall (0 : Fin 2)
    rw [hs0, hw0] at h0
    constructor
    · show _ = (((d.start j idx (0 : Fin 2) + d.window j (0 : Fin 2)).toNat : Nat) : Int)
      rw [hs0, hw0]
      omega
    · show _ = (d.start j idx (1 : Fin 2) + d.window j (1 : Fin 2)).toNat
      rw [hs1, hw1]
      omega
  · exact absurd h (by simp)

/-! ## In-range words -/

/-- A word that reads non-negative as a signed number is left alone by the wrap "if a < 0 then a + N else a". -/
theorem wrap_of_nonneg (a : BitVec 32) (Nw : BitVec 32) (h : 0 ≤ a.toInt) :
    Scalar.select (IntOp.cmpi .slt a 0#32) (IntOp.addi a Nw) a = a := by
  have hs : a.slt 0#32 = false := by
    simp only [BitVec.slt, BitVec.toInt_zero]
    exact decide_eq_false (by omega)
  have hc : IntOp.cmpi .slt a 0#32 = 0#1 := by
    unfold IntOp.cmpi
    show BitVec.ofBool (a.slt 0#32) = 0#1
    rw [hs]; rfl
  unfold Scalar.select
  rw [hc, if_neg (by decide)]

/-- A word whose signed value is k < N is its own clamp into [0, N - 1]. -/
theorem clamp_of_inrange (a : BitVec 32) (N k : Nat) (hk : a.toInt = (k : Int)) (hkN : k < N) : min a.toInt.toNat (N - 1) = k := by
  rw [hk, Int.toNat_natCast]; omega

/-! ## The two constants -/

/-- The single-precision patterns of zero and of one are the extended reals zero and one. -/
theorem zero_f32 : Ideal.ofBits .f32 0x00000000#32 = 0 := Ideal.ofBits_zero_f32
theorem one_f32 : Ideal.ofBits .f32 0x3F800000#32 = 1 := Ideal.ofBits_one_f32

end Cert.LibGS

end
-- ==== Proof.Ref.ScatterMath.lean ====
/-
  The accumulating column scatter of the products x[b, n] · w[n], over the extended reals, is the weighted pathway
  sum: an update (b, n) lands on operand element (b', p) exactly when b = b' and the scatter index of n, read as a
  signed number, is p; a 32-bit word reads as p < 128 exactly when it is the word of p; so at (b', p) the scatter
  adds to zero the terms x[b', n] · w[n] over the features n whose index is the word p.
-/
import proofs.«136356_j52656299049592_1_alg».proof.Proof.Spec
import proofs.«136356_j52656299049592_1_alg».proof.Proof.LibGS
import Idealize.ShloMosaic.PureOps.Ideal
import Idealize.ShloMosaic.PureOps.Ideal.Laws
import Idealize.ShloMosaic.Lib.ValueIdx

noncomputable section

namespace Cert.ScatterMath

open Idealize.ShloMosaic Idealize.ShloMosaic.ValueIdx Cert.Spec
open scoped BigOperators

/-! ## Words that read as a small natural number -/

/-- The 32-bit word of a natural number below 128 reads, as a signed number, as that number. -/
theorem toInt_ofNat_small (p : Nat) (hp : p < 128) : (BitVec.ofNat 32 p).toInt = (p : Int) := by
  rw [BitVec.toInt_eq_toNat_cond, BitVec.toNat_ofNat]
  have hmod : p % 2 ^ 32 = p := Nat.mod_eq_of_lt (by omega)
  rw [hmod, if_pos (by omega)]

/-- A 32-bit word reads, as a signed number, as a natural number below 128 exactly when it is that number's word. -/
theorem toInt_eq_small_iff (a : BitVec 32) (p : Nat) (hp : p < 128) : a.toInt = (p : Int) ↔ a = BitVec.ofNat 32 p := by
  constructor
  · intro h
    apply BitVec.eq_of_toInt_eq
    rw [h, toInt_ofNat_small p hp]
  · intro h
    rw [h, toInt_ofNat_small p hp]

/-! ## Where a column scatter lands -/

/-- Where an update lands: for a [64, 128] operand, an [800000, 1] column of scatter indices and [64, 800000] updates
    (the updates' axis 0 the window axis, the operand's axis 1 inserted and named by the scatter map, the index vector
    on axis 1), update (b, n) lands on operand element (b', p) exactly when the rows agree and the scatter index of
    column n, read signed, is p. -/
theorem lands_iff (d : ScatterDims SO ⟨2, ![800000, 1]⟩ SX)
    (huw : d.updateWindowDims = [0]) (hins : d.insertedWindowDims = [1]) (hsd : d.scatterDimsToOperandDims = [1]) (hivd : d.indexVectorDim = 1)
    (idx' : IVec ⟨2, ![800000, 1]⟩ 32) (b : Fin 64) (n : Fin 800000) (b' : Fin 64) (p : Fin 128) :
    d.resultIdx? (ix2 b n) idx' = some (ix2 b' p) ↔ (b = b' ∧ (idx' (ix2 n (0 : Fin 1))).toInt = (p.val : Int)) := by
  have hsk : d.sKept = [0] := by
    show Shape.kept _ d.insertedWindowDims = [0]
    rw [hins]; rfl
  have hus : d.uScatter = [1] := by
    show Shape.kept _ d.updateWindowDims = [1]
    rw [huw]; rfl
  -- axis 0: the start is zero, the window coordinate is the update's row
  have hw0 : d.window (ix2 b n) (0 : Fin 2) = b.val := by
    have hk : (0 : Fin 2) ∈ d.sKept := by rw [hsk]; exact List.mem_singleton.mpr rfl
    unfold ScatterDims.window
    rw [dif_pos hk, LibGS.getElem_of_eq_singleton huw]
  have hs0 : d.start (ix2 b n) idx' (0 : Fin 2) = 0 := by
    unfold ScatterDims.start
    rw [dif_neg (by rw [hsd]; simp)]
  -- axis 1: the start is the scatter index of the update's column, the window coordinate is zero
  have hw1 : d.window (ix2 b n) (1 : Fin 2) = 0 := by
    unfold ScatterDims.window
    rw [dif_neg (by rw [hsk]; simp)]
  have hs1 : d.start (ix2 b n) idx' (1 : Fin 2) = (idx' (ix2 n (0 : Fin 1))).toInt := by
    have hm : (1 : Fin 2) ∈ d.scatterDimsToOperandDims := by rw [hsd]; exact List.mem_singleton.mpr rfl
    unfold ScatterDims.start
    rw [dif_pos hm]
    congr 2
    funext c
    match c with
    | ⟨0, _⟩ =>
      unfold ScatterDims.siIdx
      rw [dif_neg (by rw [hivd]; simp)]
      unfold ScatterDims.siCoord
      apply Fin.ext
      simp only [Fin.val_cast]
      rw [LibGS.getElem_of_eq_singleton hus]
    | ⟨1, _⟩ =>
      unfold ScatterDims.siIdx
      rw [dif_pos (by rw [hivd])]
      apply Fin.ext
      show List.idxOf (1 : Fin 2) d.scatterDimsToOperandDims = 0
      rw [hsd]; simp
  have hz0 : SO.size (0 : Fin 2) = 64 := rfl
  have hz1 : SO.size (1 : Fin 2) = 128 := rfl
  unfold ScatterDims.resultIdx?
  constructor
  · intro h
    split at h
    · rename_i hall
      have hi := Option.some.inj h
      have h1 := hall (1 : Fin 2)
      rw [hs1, hw1] at h1
      have e0 : (d.start (ix2 b n) idx' (0 : Fin 2) + d.window (ix2 b n) (0 : Fin 2)).toNat = b'.val :=
        congrArg Fin.val (congrFun hi (0 : Fin 2))
      have e1 : (d.start (ix2 b n) idx' (1 : Fin 2) + d.window (ix2 b n) (1 : Fin 2)).toNat = p.val :=
        congrArg Fin.val (congrFun hi (1 : Fin 2))
      rw [hs0, hw0] at e0
      rw [hs1, hw1] at e1
      constructor
      · apply Fin.ext; omega
      · omega
    · exact absurd h (by simp)
  · rintro ⟨rfl, hp⟩
    have hall : ∀ a, 0 ≤ d.start (ix2 b n) idx' a + d.window (ix2 b n) a ∧
        d.start (ix2 b n) idx' a + d.window (ix2 b n) a < SO.size a := by
      intro a
      match a with
      | ⟨0, _⟩ =>
        show 0 ≤ d.start (ix2 b n) idx' (0 : Fin 2) + d.window (ix2 b n) (0 : Fin 2) ∧
          d.start (ix2 b n) idx' (0 : Fin 2) + d.window (ix2 b n) (0 : Fin 2) < SO.size (0 : Fin 2)
        rw [hs0, hw0, hz0]
        have := b.isLt
        omega
      | ⟨1, _⟩ =>
        show 0 ≤ d.start (ix2 b n) idx' (1 : Fin 2) + d.window (ix2 b n) (1 : Fin 2) ∧
          d.start (ix2 b n) idx' (1 : Fin 2) + d.window (ix2 b n) (1 : Fin 2) < SO.size (1 : Fin 2)
        rw [hs1, hw1, hz1, hp]
        have := p.isLt
        omega
    rw [dif_pos hall]
    congr 1
    funext a
    apply Fin.ext
    match a with
    | ⟨0, _⟩ =>
      show (d.start (ix2 b n) idx' (0 : Fin 2) + d.window (ix2 b n) (0 : Fin 2)).toNat = b.val
      rw [hs0, hw0]; omega
    | ⟨1, _⟩ =>
      show (d.start (ix2 b n) idx' (1 : Fin 2) + d.window (ix2 b n) (1 : Fin 2)).toNat = p.val
      rw [hs1, hw1, hp]; omega

/-! ## The column scatter of the products is the weighted pathway sum -/

/-- The accumulating column scatter of the products x[b, n] · w[n] into a zero [64, 128] array, at the wrapped indices of
    non-negative words, is the weighted pathway sum: at (b', p) it adds exactly the updates (b', n) with idx[n] the
    word p. -/
theorem scatter_eq_G (d : ScatterDims SO ⟨2, ![800000, 1]⟩ SX)
    (huw : d.updateWindowDims = [0]) (hins : d.insertedWindowDims = [1]) (hsd : d.scatterDimsToOperandDims = [1]) (hivd : d.indexVectorDim = 1)
    (x : SX.Idx → EReal) (w : SN.Idx → EReal) (idx : SN.Idx → BitVec 32) (hnn : ∀ i, 0 ≤ (idx i).toInt)
    (zero : SO.Idx → EReal) (hz : ∀ j, zero j = 0)
    (idx' : IVec ⟨2, ![800000, 1]⟩ 32)
    (hidx' : ∀ n : Fin 800000, idx' (ix2 n (0 : Fin 1)) = Scalar.select (IntOp.cmpi .slt (idx (ix1 n)) 0#32) (IntOp.addi (idx (ix1 n)) 128#32) (idx (ix1 n)))
    (upd : SX.Idx → EReal) (hupd : ∀ (b : Fin 64) (n : Fin 800000), upd (ix2 b n) = x (ix2 b n) * w (ix1 n)) :
    Host.scatterAdd (F := Ideal) (φ := .f32) d zero idx' upd = G x w idx := by
  funext j
  obtain ⟨b', p, rfl⟩ : ∃ (b' : Fin 64) (p : Fin 128), j = ix2 b' p := ⟨j 0, j 1, eq_ix2 j⟩
  -- the wrapped index of a non-negative word is the word itself
  have hid : ∀ n : Fin 800000, idx' (ix2 n (0 : Fin 1)) = idx (ix1 n) := by
    intro n
    rw [hidx' n, LibGS.wrap_of_nonneg _ _ (hnn (ix1 n))]
  -- each update's contribution to (b', p)
  have key : ∀ (a : Fin 64) (n : Fin 800000),
      (if d.resultIdx? (ix2 a n) idx' = some (ix2 b' p) then upd (ix2 a n) else 0) =
        if a = b' then (if idx (ix1 n) = BitVec.ofNat 32 p.val then x (ix2 b' n) * w (ix1 n) else 0) else 0 := by
    intro a n
    by_cases hab : a = b'
    · subst hab
      rw [if_pos rfl]
      by_cases hw : idx (ix1 n) = BitVec.ofNat 32 p.val
      · have hl : d.resultIdx? (ix2 a n) idx' = some (ix2 a p) :=
          (lands_iff d huw hins hsd hivd idx' a n a p).2 ⟨rfl, by rw [hid n]; exact (toInt_eq_small_iff _ _ p.isLt).2 hw⟩
        rw [if_pos hl, if_pos hw, hupd]
      · have hl : ¬ d.resultIdx? (ix2 a n) idx' = some (ix2 a p) := by
          intro h
          have h2 := ((lands_iff d huw hins hsd hivd idx' a n a p).1 h).2
          rw [hid n] at h2
          exact hw ((toInt_eq_small_iff _ _ p.isLt).1 h2)
        rw [if_neg hl, if_neg hw]
    · have hl : ¬ d.resultIdx? (ix2 a n) idx' = some (ix2 b' p) := by
        intro h
        exact hab ((lands_iff d huw hins hsd hivd idx' a n b' p).1 h).1
      rw [if_neg hl, if_neg hab]
  rw [LibGS.scatterAdd_apply, hz, zero_add, Finset.sum_filter, sum_idx2]
  have hrow : ∀ a : Fin 64,
      (∑ n : Fin 800000, if d.resultIdx? (ix2 a n) idx' = some (ix2 b' p) then upd (ix2 a n) else 0) =
        if a = b' then (∑ n : Fin 800000, if idx (ix1 n) = BitVec.ofNat 32 p.val then x (ix2 b' n) * w (ix1 n) else 0) else 0 := by
    intro a
    by_cases hab : a = b'
    · rw [if_pos hab]
      apply Finset.sum_congr rfl
      intro n _
      rw [key a n, if_pos hab]
    · rw [if_neg hab]
      apply Finset.sum_eq_zero
      intro n _
      rw [key a n, if_neg hab]
  rw [Finset.sum_congr rfl (fun a _ => hrow a), Finset.sum_ite_eq', if_pos (Finset.mem_univ _)]
  rfl

end Cert.ScatterMath

end
-- ==== Proof.Ref.Prefix.lean ====
/-
  The reference's first stretch (operations 1–14): it writes no argument array, and over the extended reals, when every
  pathway index is non-negative as a signed number, what it leaves in its result is the weighted pathway sum of the
  launched features, weights and indices: the scatter's operand is the zero array, its index column holds the wrapped
  indices, and its updates are the products x[b, n] · w[n].
-/
import proofs.«136356_j52656299049592_1_alg».proof.Proof.Ref.Frame
import proofs.«136356_j52656299049592_1_alg».proof.Proof.Ref.ScatterMath
import proofs.«136356_j52656299049592_1_alg».proof.Proof.Spec
import proofs.«136356_j52656299049592_1_alg».proof.Proof.LibGS
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-! ## The first stretch writes no argument array -/

/-- The first stretch leaves `main_arg2` as launched. -/
theorem R0_arg_2 (m : (ℓ : Loc nD τ sig) → Buf (Elt F) ℓ) (c : Dev nD) :
    after (R0ops (F := F)) (launchContents m c) (Proc.devRef .tc main_arg2) = m ((c.tc : Thread nD τ).loc main_arg2) :=
  R0_keeps (launchContents m c) main_arg2 (by decide)
/-- The first stretch leaves `main_arg3` as launched. -/
theorem R0_arg_3 (m : (ℓ : Loc nD τ sig) → Buf (Elt F) ℓ) (c : Dev nD) :
    after (R0ops (F := F)) (launchContents m c) (Proc.devRef .tc main_arg3) = m ((c.tc : Thread nD τ).loc main_arg3) :=
  R0_keeps (launchContents m c) main_arg3 (by decide)
/-- The first stretch leaves `main_arg4` as launched. -/
theorem R0_arg_4 (m : (ℓ : Loc nD τ sig) → Buf (Elt F) ℓ) (c : Dev nD) :
    after (R0ops (F := F)) (launchContents m c) (Proc.devRef .tc main_arg4) = m ((c.tc : Thread nD τ).loc main_arg4) :=
  R0_keeps (launchContents m c) main_arg4 (by decide)
/-- The first stretch leaves `main_arg5` as launched. -/
theorem R0_arg_5 (m : (ℓ : Loc nD τ sig) → Buf (Elt F) ℓ) (c : Dev nD) :
    after (R0ops (F := F)) (launchContents m c) (Proc.devRef .tc main_arg5) = m ((c.tc : Thread nD τ).loc main_arg5) :=
  R0_keeps (launchContents m c) main_arg5 (by decide)
/-- The first stretch leaves `main_arg6` as launched. -/
theorem R0_arg_6 (m : (ℓ : Loc nD τ sig) → Buf (Elt F) ℓ) (c : Dev nD) :
    after (R0ops (F := F)) (launchContents m c) (Proc.devRef .tc main_arg6) = m ((c.tc : Thread nD τ).loc main_arg6) :=
  R0_keeps (launchContents m c) main_arg6 (by decide)
/-- The first stretch leaves `main_arg7` as launched. -/
theorem R0_arg_7 (m : (ℓ : Loc nD τ sig) → Buf (Elt F) ℓ) (c : Dev nD) :
    after (R0ops (F := F)) (launchContents m c) (Proc.devRef .tc main_arg7) = m ((c.tc : Thread nD τ).loc main_arg7) :=
  R0_keeps (launchContents m c) main_arg7 (by decide)
/-- The first stretch leaves `main_arg8` as launched. -/
theorem R0_arg_8 (m : (ℓ : Loc nD τ sig) → Buf (Elt F) ℓ) (c : Dev nD) :
    after (R0ops (F := F)) (launchContents m c) (Proc.devRef .tc main_arg8) = m ((c.tc : Thread nD τ).loc main_arg8) :=
  R0_keeps (launchContents m c) main_arg8 (by decide)
/-- The first stretch leaves `main_arg9` as launched. -/
theorem R0_arg_9 (m : (ℓ : Loc nD τ sig) → Buf (Elt F) ℓ) (c : Dev nD) :
    after (R0ops (F := F)) (launchContents m c) (Proc.devRef .tc main_arg9) = m ((c.tc : Thread nD τ).loc main_arg9) :=
  R0_keeps (launchContents m c) main_arg9 (by decide)
/-- The first stretch leaves `main_arg10` as launched. -/
theorem R0_arg_10 (m : (ℓ : Loc nD τ sig) → Buf (Elt F) ℓ) (c : Dev nD) :
    after (R0ops (F := F)) (launchContents m c) (Proc.devRef .tc main_arg10) = m ((c.tc : Thread nD τ).loc main_arg10) :=
  R0_keeps (launchContents m c) main_arg10 (by decide)
/-- The first stretch leaves `main_arg11` as launched. -/
theorem R0_arg_11 (m : (ℓ : Loc nD τ sig) → Buf (Elt F) ℓ) (c : Dev nD) :
    after (R0ops (F := F)) (launchContents m c) (Proc.devRef .tc main_arg11) = m ((c.tc : Thread nD τ).loc main_arg11) :=
  R0_keeps (launchContents m c) main_arg11 (by decide)
/-- The first stretch leaves `main_arg12` as launched. -/
theorem R0_arg_12 (m : (ℓ : Loc nD τ sig) → Buf (Elt F) ℓ) (c : Dev nD) :
    after (R0ops (F := F)) (launchContents m c) (Proc.devRef .tc main_arg12) = m ((c.tc : Thread nD τ).loc main_arg12) :=
  R0_keeps (launchContents m c) main_arg12 (by decide)
/-- The first stretch leaves `main_arg13` as launched. -/
theorem R0_arg_13 (m : (ℓ : Loc nD τ sig) → Buf (Elt F) ℓ) (c : Dev nD) :
    after (R0ops (F := F)) (launchContents m c) (Proc.devRef .tc main_arg13) = m ((c.tc : Thread nD τ).loc main_arg13) :=
  R0_keeps (launchContents m c) main_arg13 (by decide)
/-- The first stretch leaves `main_arg14` as launched. -/
theorem R0_arg_14 (m : (ℓ : Loc nD τ sig) → Buf (Elt F) ℓ) (c : Dev nD) :
    after (R0ops (F := F)) (launchContents m c) (Proc.devRef .tc main_arg14) = m ((c.tc : Thread nD τ).loc main_arg14) :=
  R0_keeps (launchContents m c) main_arg14 (by decide)

/-! ## What the first stretch computes -/

/-- A scalar word broadcast along the features reads that word everywhere. -/
theorem bcast_word (v : BitVec 32) (i : S800000.Idx) :
    broadcastInDim S800000 ![] bcast_S_S800000 (constantI S_ 32 v) i = v :=
  broadcastInDim_apply _ bcast_S_S800000 _ i (fun a => a.elim0) (fun a => a.elim0)

/-- Over the extended reals, with every pathway index non-negative as a signed number, the first stretch leaves the
    weighted pathway sum of the launched features, weights and indices. -/
theorem R0_wx (m : (ℓ : Loc nD τ sig) → Buf (Elt Ideal) ℓ) (c : Dev nD)
    (hnn : ∀ i, 0 ≤ ((m ((c.tc : Thread nD τ).loc main_arg15) : IVec S800000 32) i).toInt) :
    (after (R0ops (F := Ideal)) (launchContents m c) (Proc.devRef .tc main_v10) : FVec Ideal S64x128 .f32)
      = Cert.Spec.G (m ((c.tc : Thread nD τ).loc main_arg0)) (m ((c.tc : Thread nD τ).loc main_arg1)) (m ((c.tc : Thread nD τ).loc main_arg15)) := by
  after_results
  refine Cert.ScatterMath.scatter_eq_G scatter_S64x128_S800000x1_S64x800000_0_1_1_1 rfl rfl rfl rfl _ _ _ hnn _ ?hz _ ?hidx _ ?hupd
  case hz =>
    -- the operand: the constant zero broadcast to every bin
    intro j
    exact (broadcastInDim_apply _ bcast_S_S64x128 _ j (fun a => a.elim0) (fun a => a.elim0)).trans Cert.LibGS.zero_f32
  case hidx =>
    -- the index column: row n holds the wrapped index of feature n
    intro n
    rw [broadcastInDim_apply _ bcast_S800000_S800000x1_0 _ (ix2 n (0 : Fin 1)) (ix1 n) (fun a => match a with
      | ⟨0, _⟩ => by show n.val = if (800000 : Nat) = 1 then 0 else n.val; rw [if_neg (by decide)])]
    rw [select_apply]
    show Scalar.select (IntOp.cmpi .slt _ (broadcastInDim S800000 ![] bcast_S_S800000 (constantI S_ 32 0#32) (ix1 n)))
      (IntOp.addi _ (broadcastInDim S800000 ![] bcast_S_S800000 (constantI S_ 32 128#32) (ix1 n))) _ = _
    rw [bcast_word, bcast_word]
  case hupd =>
    -- the updates: x[b, n] times the weight of feature n, broadcast along the batch
    intro b n
    rw [mulf_apply,
      broadcastInDim_apply _ bcast_S1x800000_S64x800000_0_1 _ (ix2 b n) (ix2 (0 : Fin 1) n) (fun a => match a with
        | ⟨0, _⟩ => by show 0 = if (1 : Nat) = 1 then 0 else b.val; rw [if_pos rfl]
        | ⟨1, _⟩ => by show n.val = if (800000 : Nat) = 1 then 0 else n.val; rw [if_neg (by decide)]),
      broadcastInDim_apply _ bcast_S800000_S1x800000_1 _ (ix2 (0 : Fin 1) n) (ix1 n) (fun a => match a with
        | ⟨0, _⟩ => by show n.val = if (800000 : Nat) = 1 then 0 else n.val; rw [if_neg (by decide)])]

end Cert.ReferenceIdeal.Hand

end
-- ==== Proof.Tail.Seg1.lean ====
/-
  The first stretch after the pathway sum: ReLU, batch normalisation over the batch axis, the sigmoid gate (whose
  product is the second result) and the first linear layer. Both programs run the same 48 operations on buffers that
  differ only in name, and on the idealized reals a dot product does not depend on the precision it is asked at; so
  from buffer contents that agree on the pathway sum and on the five parameter arrays read here, the gate's product
  and the linear layer's output agree.
-/
import proofs.«136356_j52656299049592_1_alg».proof.Proof.Gen.KernelIdeal.Launch
import proofs.«136356_j52656299049592_1_alg».proof.Proof.Ref.Ops
import Idealize.ShloMosaic.Lib.StableHlo.Run
import Idealize.ShloMosaic.Lib.Pipeline.Frame
import Idealize.ShloMosaic.PureOps.Ideal

set_option maxRecDepth 16384
set_option maxHeartbeats 4000000

noncomputable section

namespace Cert.Tail
open Idealize.ShloMosaic Idealize.ShloMosaic.TcCoe Idealize.ShloMosaic.StableHlo Idealize.SL.Sem

/-- The kernel's ReLU call and its 45 lines up to the first linear layer. -/
abbrev K1 : List (HloOp Cert.KernelIdeal.τ Cert.KernelIdeal.sig (Elt Ideal)) :=
  Cert.KernelIdeal.Gen.hostOps1 ++ Cert.KernelIdeal.Gen.hostOps1_1

/-- The gated, normalised activations (the second result) agree. -/
theorem seg1_gate
    (W : Valuation Cert.KernelIdeal.τ Cert.KernelIdeal.sig (Elt Ideal)) (W' : Valuation Cert.ReferenceIdeal.τ Cert.ReferenceIdeal.sig (Elt Ideal))
    (hwx : (W (Proc.devRef .tc Cert.KernelIdeal.main_v5) : FVec Ideal ⟨2, ![64, 128]⟩ .f32) = W' (Proc.devRef .tc Cert.ReferenceIdeal.main_v10))
    (h2 : (W (Proc.devRef .tc Cert.KernelIdeal.main_arg2) : FVec Ideal ⟨1, ![128]⟩ .f32) = W' (Proc.devRef .tc Cert.ReferenceIdeal.main_arg2))
    (h3 : (W (Proc.devRef .tc Cert.KernelIdeal.main_arg3) : FVec Ideal ⟨1, ![128]⟩ .f32) = W' (Proc.devRef .tc Cert.ReferenceIdeal.main_arg3))
    (h4 : (W (Proc.devRef .tc Cert.KernelIdeal.main_arg4) : FVec Ideal ⟨1, ![128]⟩ .f32) = W' (Proc.devRef .tc Cert.ReferenceIdeal.main_arg4)) :
    (StableHlo.after K1 W (Proc.devRef .tc Cert.KernelIdeal.main_v40) : FVec Ideal ⟨2, ![64, 128]⟩ .f32)
      = StableHlo.after Cert.ReferenceIdeal.Hand.R1ops W' (Proc.devRef .tc Cert.ReferenceIdeal.main_v45) := by
  rw [StableHlo.after_append]
  after_results_simp
  rw [hwx, h2, h3, h4]

/-- The first linear layer's output agrees. -/
theorem seg1_lin
    (W : Valuation Cert.KernelIdeal.τ Cert.KernelIdeal.sig (Elt Ideal)) (W' : Valuation Cert.ReferenceIdeal.τ Cert.ReferenceIdeal.sig (Elt Ideal))
    (hwx : (W (Proc.devRef .tc Cert.KernelIdeal.main_v5) : FVec Ideal ⟨2, ![64, 128]⟩ .f32) = W' (Proc.devRef .tc Cert.ReferenceIdeal.main_v10))
    (h2 : (W (Proc.devRef .tc Cert.KernelIdeal.main_arg2) : FVec Ideal ⟨1, ![128]⟩ .f32) = W' (Proc.devRef .tc Cert.ReferenceIdeal.main_arg2))
    (h3 : (W (Proc.devRef .tc Cert.KernelIdeal.main_arg3) : FVec Ideal ⟨1, ![128]⟩ .f32) = W' (Proc.devRef .tc Cert.ReferenceIdeal.main_arg3))
    (h4 : (W (Proc.devRef .tc Cert.KernelIdeal.main_arg4) : FVec Ideal ⟨1, ![128]⟩ .f32) = W' (Proc.devRef .tc Cert.ReferenceIdeal.main_arg4))
    (h5 : (W (Proc.devRef .tc Cert.KernelIdeal.main_arg5) : FVec Ideal ⟨2, ![128, 256]⟩ .f32) = W' (Proc.devRef .tc Cert.ReferenceIdeal.main_arg5))
    (h6 : (W (Proc.devRef .tc Cert.KernelIdeal.main_arg6) : FVec Ideal ⟨1, ![256]⟩ .f32) = W' (Proc.devRef .tc Cert.ReferenceIdeal.main_arg6)) :
    (StableHlo.after K1 W (Proc.devRef .tc Cert.KernelIdeal.main_v44) : FVec Ideal ⟨2, ![64, 256]⟩ .f32)
      = StableHlo.after Cert.ReferenceIdeal.Hand.R1ops W' (Proc.devRef .tc Cert.ReferenceIdeal.main_v49) := by
  rw [StableHlo.after_append]
  after_results_simp
  rw [hwx, h2, h3, h4, h5, h6]
  rfl

end Cert.Tail

end
-- ==== Proof.Tail.Seg2.lean ====
/-
  The second stretch: ReLU, batch normalisation over the batch axis and the second linear layer, 37 operations that
  the two programs run on buffers differing only in name. From contents that agree on the first linear layer's output
  and on the four parameter arrays read here, the second linear layer's output agrees; the idealized dot product does
  not depend on the precision it is asked at.
-/
import proofs.«136356_j52656299049592_1_alg».proof.Proof.Gen.KernelIdeal.Launch
import proofs.«136356_j52656299049592_1_alg».proof.Proof.Ref.Ops
import Idealize.ShloMosaic.Lib.StableHlo.Run
import Idealize.ShloMosaic.Lib.Pipeline.Frame
import Idealize.ShloMosaic.PureOps.Ideal

set_option maxRecDepth 16384
set_option maxHeartbeats 4000000

noncomputable section

namespace Cert.Tail
open Idealize.ShloMosaic Idealize.ShloMosaic.TcCoe Idealize.ShloMosaic.StableHlo Idealize.SL.Sem

/-- The kernel's second ReLU call and its 34 lines up to the second linear layer. -/
abbrev K2 : List (HloOp Cert.KernelIdeal.τ Cert.KernelIdeal.sig (Elt Ideal)) :=
  Cert.KernelIdeal.Gen.hostOps1_2 ++ Cert.KernelIdeal.Gen.hostOps1_3

/-- The second linear layer's output agrees. -/
theorem seg2_lin
    (W : Valuation Cert.KernelIdeal.τ Cert.KernelIdeal.sig (Elt Ideal)) (W' : Valuation Cert.ReferenceIdeal.τ Cert.ReferenceIdeal.sig (Elt Ideal))
    (hx : (W (Proc.devRef .tc Cert.KernelIdeal.main_v44) : FVec Ideal ⟨2, ![64, 256]⟩ .f32) = W' (Proc.devRef .tc Cert.ReferenceIdeal.main_v49))
    (h7 : (W (Proc.devRef .tc Cert.KernelIdeal.main_arg7) : FVec Ideal ⟨1, ![256]⟩ .f32) = W' (Proc.devRef .tc Cert.ReferenceIdeal.main_arg7))
    (h8 : (W (Proc.devRef .tc Cert.KernelIdeal.main_arg8) : FVec Ideal ⟨1, ![256]⟩ .f32) = W' (Proc.devRef .tc Cert.ReferenceIdeal.main_arg8))
    (h9 : (W (Proc.devRef .tc Cert.KernelIdeal.main_arg9) : FVec Ideal ⟨2, ![256, 128]⟩ .f32) = W' (Proc.devRef .tc Cert.ReferenceIdeal.main_arg9))
    (h10 : (W (Proc.devRef .tc Cert.KernelIdeal.main_arg10) : FVec Ideal ⟨1, ![128]⟩ .f32) = W' (Proc.devRef .tc Cert.ReferenceIdeal.main_arg10)) :
    (StableHlo.after K2 W (Proc.devRef .tc Cert.KernelIdeal.main_v74) : FVec Ideal ⟨2, ![64, 128]⟩ .f32)
      = StableHlo.after Cert.ReferenceIdeal.Hand.R2ops W' (Proc.devRef .tc Cert.ReferenceIdeal.main_v79) := by
  rw [StableHlo.after_append]
  after_results_simp
  rw [hx, h7, h8, h9, h10]
  rfl

end Cert.Tail

end
-- ==== Proof.Tail.Seg3.lean ====
/-
  The last stretch: ReLU, batch normalisation over the batch axis, the output layer and the softmax along the class
  axis (the first result), 51 operations that the two programs run on buffers differing only in name. From contents
  that agree on the second linear layer's output and on the four parameter arrays read here, the softmax agrees; the
  idealized dot product does not depend on the precision it is asked at.
-/
import proofs.«136356_j52656299049592_1_alg».proof.Proof.Gen.KernelIdeal.Launch
import proofs.«136356_j52656299049592_1_alg».proof.Proof.Ref.Ops
import Idealize.ShloMosaic.Lib.StableHlo.Run
import Idealize.ShloMosaic.Lib.Pipeline.Frame
import Idealize.ShloMosaic.PureOps.Ideal

set_option maxRecDepth 16384
set_option maxHeartbeats 4000000

noncomputable section

namespace Cert.Tail
open Idealize.ShloMosaic Idealize.ShloMosaic.TcCoe Idealize.ShloMosaic.StableHlo Idealize.SL.Sem

/-- The kernel's third ReLU call and its 48 lines up to the softmax. -/
abbrev K3 : List (HloOp Cert.KernelIdeal.τ Cert.KernelIdeal.sig (Elt Ideal)) :=
  Cert.KernelIdeal.Gen.hostOps1_4 ++ Cert.KernelIdeal.Gen.hostOps1_5

/-- The softmax of the output layer agrees. -/
theorem seg3_softmax
    (W : Valuation Cert.KernelIdeal.τ Cert.KernelIdeal.sig (Elt Ideal)) (W' : Valuation Cert.ReferenceIdeal.τ Cert.ReferenceIdeal.sig (Elt Ideal))
    (hx : (W (Proc.devRef .tc Cert.KernelIdeal.main_v74) : FVec Ideal ⟨2, ![64, 128]⟩ .f32) = W' (Proc.devRef .tc Cert.ReferenceIdeal.main_v79))
    (h11 : (W (Proc.devRef .tc Cert.KernelIdeal.main_arg11) : FVec Ideal ⟨1, ![128]⟩ .f32) = W' (Proc.devRef .tc Cert.ReferenceIdeal.main_arg11))
    (h12 : (W (Proc.devRef .tc Cert.KernelIdeal.main_arg12) : FVec Ideal ⟨1, ![128]⟩ .f32) = W' (Proc.devRef .tc Cert.ReferenceIdeal.main_arg12))
    (h13 : (W (Proc.devRef .tc Cert.KernelIdeal.main_arg13) : FVec Ideal ⟨2, ![128, 32]⟩ .f32) = W' (Proc.devRef .tc Cert.ReferenceIdeal.main_arg13))
    (h14 : (W (Proc.devRef .tc Cert.KernelIdeal.main_arg14) : FVec Ideal ⟨1, ![32]⟩ .f32) = W' (Proc.devRef .tc Cert.ReferenceIdeal.main_arg14)) :
    (StableHlo.after K3 W (Proc.devRef .tc Cert.KernelIdeal.main_v115) : FVec Ideal ⟨2, ![64, 32]⟩ .f32)
      = StableHlo.after Cert.ReferenceIdeal.Hand.R3ops W' (Proc.devRef .tc Cert.ReferenceIdeal.main_v120) := by
  rw [StableHlo.after_append]
  after_results_simp
  rw [hx, h11, h12, h13, h14]
  rfl

end Cert.Tail

end
-- ==== Proof.Tail.Keep.lean ====
/-
  Which buffers the stretches after the pathway sum leave alone. Every operation of these stretches writes exactly one
  buffer, its result. No result buffer of the first stretch is one of the eight parameter arrays that later stretches
  read (the two later batch normalisations' scale and shift, and the weights and biases of the second linear layer and
  of the output layer); no result buffer of the second or third stretch is one of the output layer's four arrays or
  the buffer of the second result, which the first stretch wrote. So each of these holds, after a stretch of either
  program, what it held before the stretch.
-/
import proofs.«136356_j52656299049592_1_alg».proof.Proof.Gen.KernelIdeal.Launch
import proofs.«136356_j52656299049592_1_alg».proof.Proof.Ref.Ops
import Idealize.ShloMosaic.Lib.StableHlo.Run
import Idealize.ShloMosaic.Lib.Pipeline.Frame
import Idealize.ShloMosaic.PureOps.Ideal

set_option maxRecDepth 16384
set_option maxHeartbeats 4000000

noncomputable section

namespace Cert.Tail
open Idealize.ShloMosaic Idealize.ShloMosaic.TcCoe Idealize.ShloMosaic.StableHlo Idealize.SL.Sem

/-- A line each of whose operations writes one buffer, never one at a reference that `P` picks out, leaves the
    contents at every reference `P` picks out as they were. -/
theorem after_keep {τ : Topo} {sig : RefSig} {Val : EltTy → Type} (P : Ref sig .tc → Prop)
    (ops : List (HloOp τ sig Val)) (V : Valuation τ sig Val)
    (h : ops.Forall fun op => ∃ y : Ref sig .tc, op.writes = {Proc.devRef .tc y} ∧ ¬ P y)
    {r : Ref sig .tc} (hr : P r) : StableHlo.after ops V (Proc.devRef .tc r) = V (Proc.devRef .tc r) :=
  StableHlo.after_of_forall_not_mem ops V fun op hop hb => by
    obtain ⟨y, hy, hP⟩ := List.forall_iff_forall_mem.mp h op hop
    rw [hy, Finset.mem_singleton] at hb
    exact hP (Proc.devRef_injective _ hb ▸ hr)

/-- The kernel's parameter arrays read after its first linear layer. -/
abbrev Later1K (r : Ref Cert.KernelIdeal.sig .tc) : Prop :=
  r ∈ [Cert.KernelIdeal.main_arg7, Cert.KernelIdeal.main_arg8, Cert.KernelIdeal.main_arg9, Cert.KernelIdeal.main_arg10,
    Cert.KernelIdeal.main_arg11, Cert.KernelIdeal.main_arg12, Cert.KernelIdeal.main_arg13, Cert.KernelIdeal.main_arg14]

/-- The kernel's parameter arrays read after its second linear layer, and the buffer of its second result. -/
abbrev Later2K (r : Ref Cert.KernelIdeal.sig .tc) : Prop :=
  r ∈ [Cert.KernelIdeal.main_arg11, Cert.KernelIdeal.main_arg12, Cert.KernelIdeal.main_arg13, Cert.KernelIdeal.main_arg14,
    Cert.KernelIdeal.main_v40]

/-- The reference's parameter arrays read after its first linear layer. -/
abbrev Later1R (r : Ref Cert.ReferenceIdeal.sig .tc) : Prop :=
  r ∈ [Cert.ReferenceIdeal.main_arg7, Cert.ReferenceIdeal.main_arg8, Cert.ReferenceIdeal.main_arg9, Cert.ReferenceIdeal.main_arg10,
    Cert.ReferenceIdeal.main_arg11, Cert.ReferenceIdeal.main_arg12, Cert.ReferenceIdeal.main_arg13, Cert.ReferenceIdeal.main_arg14]

/-- The reference's parameter arrays read after its second linear layer, and the buffer of its second result. -/
abbrev Later2R (r : Ref Cert.ReferenceIdeal.sig .tc) : Prop :=
  r ∈ [Cert.ReferenceIdeal.main_arg11, Cert.ReferenceIdeal.main_arg12, Cert.ReferenceIdeal.main_arg13, Cert.ReferenceIdeal.main_arg14,
    Cert.ReferenceIdeal.main_v45]

/-- The kernel's first ReLU writes none of the later parameter arrays. -/
theorem hostOps1_keep : (Cert.KernelIdeal.Gen.hostOps1 : List (HloOp Cert.KernelIdeal.τ Cert.KernelIdeal.sig (Elt Ideal))).Forall
    fun op => ∃ y : Ref Cert.KernelIdeal.sig .tc, op.writes = {Proc.devRef .tc y} ∧ ¬ Later1K y := by
  repeat' apply And.intro
  all_goals exact ⟨_, rfl, by decide⟩

/-- Nor do the lines up to the first linear layer. -/
theorem hostOps1_1_keep : (Cert.KernelIdeal.Gen.hostOps1_1 : List (HloOp Cert.KernelIdeal.τ Cert.KernelIdeal.sig (Elt Ideal))).Forall
    fun op => ∃ y : Ref Cert.KernelIdeal.sig .tc, op.writes = {Proc.devRef .tc y} ∧ ¬ Later1K y := by
  repeat' apply And.intro
  all_goals exact ⟨_, rfl, by decide⟩

/-- The kernel's second ReLU writes neither the output layer's arrays nor the second result. -/
theorem hostOps1_2_keep : (Cert.KernelIdeal.Gen.hostOps1_2 : List (HloOp Cert.KernelIdeal.τ Cert.KernelIdeal.sig (Elt Ideal))).Forall
    fun op => ∃ y : Ref Cert.KernelIdeal.sig .tc, op.writes = {Proc.devRef .tc y} ∧ ¬ Later2K y := by
  repeat' apply And.intro
  all_goals exact ⟨_, rfl, by decide⟩

/-- Nor do the lines up to the second linear layer. -/
theorem hostOps1_3_keep : (Cert.KernelIdeal.Gen.hostOps1_3 : List (HloOp Cert.KernelIdeal.τ Cert.KernelIdeal.sig (Elt Ideal))).Forall
    fun op => ∃ y : Ref Cert.KernelIdeal.sig .tc, op.writes = {Proc.devRef .tc y} ∧ ¬ Later2K y := by
  repeat' apply And.intro
  all_goals exact ⟨_, rfl, by decide⟩

/-- Nor does the third ReLU. -/
theorem hostOps1_4_keep : (Cert.KernelIdeal.Gen.hostOps1_4 : List (HloOp Cert.KernelIdeal.τ Cert.KernelIdeal.sig (Elt Ideal))).Forall
    fun op => ∃ y : Ref Cert.KernelIdeal.sig .tc, op.writes = {Proc.devRef .tc y} ∧ ¬ Later2K y := by
  repeat' apply And.intro
  all_goals exact ⟨_, rfl, by decide⟩

/-- Nor do the lines up to the softmax. -/
theorem hostOps1_5_keep : (Cert.KernelIdeal.Gen.hostOps1_5 : List (HloOp Cert.KernelIdeal.τ Cert.KernelIdeal.sig (Elt Ideal))).Forall
    fun op => ∃ y : Ref Cert.KernelIdeal.sig .tc, op.writes = {Proc.devRef .tc y} ∧ ¬ Later2K y := by
  repeat' apply And.intro
  all_goals exact ⟨_, rfl, by decide⟩

/-- The reference's first stretch after the pathway sum writes none of the later parameter arrays. -/
theorem R1ops_keep : (Cert.ReferenceIdeal.Hand.R1ops : List (HloOp Cert.ReferenceIdeal.τ Cert.ReferenceIdeal.sig (Elt Ideal))).Forall
    fun op => ∃ y : Ref Cert.ReferenceIdeal.sig .tc, op.writes = {Proc.devRef .tc y} ∧ ¬ Later1R y := by
  repeat' apply And.intro
  all_goals exact ⟨_, rfl, by decide⟩

/-- Its second stretch writes neither the output layer's arrays nor the second result. -/
theorem R2ops_keep : (Cert.ReferenceIdeal.Hand.R2ops : List (HloOp Cert.ReferenceIdeal.τ Cert.ReferenceIdeal.sig (Elt Ideal))).Forall
    fun op => ∃ y : Ref Cert.ReferenceIdeal.sig .tc, op.writes = {Proc.devRef .tc y} ∧ ¬ Later2R y := by
  repeat' apply And.intro
  all_goals exact ⟨_, rfl, by decide⟩

/-- Nor does its third stretch. -/
theorem R3ops_keep : (Cert.ReferenceIdeal.Hand.R3ops : List (HloOp Cert.ReferenceIdeal.τ Cert.ReferenceIdeal.sig (Elt Ideal))).Forall
    fun op => ∃ y : Ref Cert.ReferenceIdeal.sig .tc, op.writes = {Proc.devRef .tc y} ∧ ¬ Later2R y := by
  repeat' apply And.intro
  all_goals exact ⟨_, rfl, by decide⟩

/-- The kernel's first stretch leaves the later parameter arrays alone. -/
theorem K1_keep (W : Valuation Cert.KernelIdeal.τ Cert.KernelIdeal.sig (Elt Ideal)) {r : Ref Cert.KernelIdeal.sig .tc} (hr : Later1K r) :
    StableHlo.after (Cert.KernelIdeal.Gen.hostOps1 ++ Cert.KernelIdeal.Gen.hostOps1_1) W (Proc.devRef .tc r) = W (Proc.devRef .tc r) := by
  rw [StableHlo.after_append, after_keep Later1K _ _ hostOps1_1_keep hr, after_keep Later1K _ _ hostOps1_keep hr]

/-- The kernel's second stretch leaves the output layer's arrays and the second result alone. -/
theorem K2_keep (W : Valuation Cert.KernelIdeal.τ Cert.KernelIdeal.sig (Elt Ideal)) {r : Ref Cert.KernelIdeal.sig .tc} (hr : Later2K r) :
    StableHlo.after (Cert.KernelIdeal.Gen.hostOps1_2 ++ Cert.KernelIdeal.Gen.hostOps1_3) W (Proc.devRef .tc r) = W (Proc.devRef .tc r) := by
  rw [StableHlo.after_append, after_keep Later2K _ _ hostOps1_3_keep hr, after_keep Later2K _ _ hostOps1_2_keep hr]

/-- So does its third stretch. -/
theorem K3_keep (W : Valuation Cert.KernelIdeal.τ Cert.KernelIdeal.sig (Elt Ideal)) {r : Ref Cert.KernelIdeal.sig .tc} (hr : Later2K r) :
    StableHlo.after (Cert.KernelIdeal.Gen.hostOps1_4 ++ Cert.KernelIdeal.Gen.hostOps1_5) W (Proc.devRef .tc r) = W (Proc.devRef .tc r) := by
  rw [StableHlo.after_append, after_keep Later2K _ _ hostOps1_5_keep hr, after_keep Later2K _ _ hostOps1_4_keep hr]

/-- The reference's first stretch after the pathway sum leaves the later parameter arrays alone. -/
theorem R1_keep (W' : Valuation Cert.ReferenceIdeal.τ Cert.ReferenceIdeal.sig (Elt Ideal)) {r : Ref Cert.ReferenceIdeal.sig .tc} (hr : Later1R r) :
    StableHlo.after Cert.ReferenceIdeal.Hand.R1ops W' (Proc.devRef .tc r) = W' (Proc.devRef .tc r) :=
  after_keep Later1R _ _ R1ops_keep hr

/-- The reference's second stretch leaves the output layer's arrays and the second result alone. -/
theorem R2_keep (W' : Valuation Cert.ReferenceIdeal.τ Cert.ReferenceIdeal.sig (Elt Ideal)) {r : Ref Cert.ReferenceIdeal.sig .tc} (hr : Later2R r) :
    StableHlo.after Cert.ReferenceIdeal.Hand.R2ops W' (Proc.devRef .tc r) = W' (Proc.devRef .tc r) :=
  after_keep Later2R _ _ R2ops_keep hr

/-- So does its third stretch. -/
theorem R3_keep (W' : Valuation Cert.ReferenceIdeal.τ Cert.ReferenceIdeal.sig (Elt Ideal)) {r : Ref Cert.ReferenceIdeal.sig .tc} (hr : Later2R r) :
    StableHlo.after Cert.ReferenceIdeal.Hand.R3ops W' (Proc.devRef .tc r) = W' (Proc.devRef .tc r) :=
  after_keep Later2R _ _ R3ops_keep hr

end Cert.Tail

end
-- ==== Proof.Tail.Agree.lean ====
/-
  The two programs' host lines after the pathway sum, compared stretch by stretch. Each program's lines are three
  stretches run one after the other; the buffers at which a stretch starts are the buffers the stretch before left.
  The first stretches agree on the gated activations and on the first linear layer's output; the parameter arrays the
  later stretches read are written by no line, so they still agree when those stretches start; hence the second
  stretches agree on the second linear layer's output and the third on the softmax. The gated activations, written
  by the first stretch, are written by no later line, so they are still the second result at the end.
-/
import proofs.«136356_j52656299049592_1_alg».proof.Proof.Tail.Seg1
import proofs.«136356_j52656299049592_1_alg».proof.Proof.Tail.Seg2
import proofs.«136356_j52656299049592_1_alg».proof.Proof.Tail.Seg3
import proofs.«136356_j52656299049592_1_alg».proof.Proof.Tail.Keep

set_option maxRecDepth 16384

noncomputable section

namespace Cert.Tail
open Idealize.ShloMosaic Idealize.ShloMosaic.TcCoe Idealize.ShloMosaic.StableHlo Idealize.SL.Sem

/-- The kernel's lines after the pathway sum, run from `W`: its three stretches in turn. -/
theorem afterK (W : Valuation Cert.KernelIdeal.τ Cert.KernelIdeal.sig (Elt Ideal)) :
    StableHlo.after (List.flatten [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5]) W
      = StableHlo.after K3 (StableHlo.after K2 (StableHlo.after K1 W)) := by
  rw [← StableHlo.after_append, ← StableHlo.after_append]
  simp only [List.flatten_cons, List.flatten_nil, List.append_nil, List.append_assoc]

/-- The reference's lines after the pathway sum, run from `W'`: its three stretches in turn. -/
theorem afterR (W' : Valuation Cert.ReferenceIdeal.τ Cert.ReferenceIdeal.sig (Elt Ideal)) :
    StableHlo.after (Cert.ReferenceIdeal.Hand.R1ops ++ (Cert.ReferenceIdeal.Hand.R2ops ++ Cert.ReferenceIdeal.Hand.R3ops)) W'
      = StableHlo.after Cert.ReferenceIdeal.Hand.R3ops (StableHlo.after Cert.ReferenceIdeal.Hand.R2ops (StableHlo.after Cert.ReferenceIdeal.Hand.R1ops W')) := by
  rw [StableHlo.after_append, StableHlo.after_append]

/-- The two programs' host lines after the pathway sum are the same computation: from buffer contents that agree on the
    pathway sum and on the thirteen parameter arrays they use, both results agree. -/
theorem tail_agree
    (W : Valuation Cert.KernelIdeal.τ Cert.KernelIdeal.sig (Elt Ideal)) (W' : Valuation Cert.ReferenceIdeal.τ Cert.ReferenceIdeal.sig (Elt Ideal))
    (hwx : (W (Proc.devRef .tc Cert.KernelIdeal.main_v5) : FVec Ideal ⟨2, ![64, 128]⟩ .f32) = W' (Proc.devRef .tc Cert.ReferenceIdeal.main_v10))
    (h2 : (W (Proc.devRef .tc Cert.KernelIdeal.main_arg2) : FVec Ideal ⟨1, ![128]⟩ .f32) = W' (Proc.devRef .tc Cert.ReferenceIdeal.main_arg2))
    (h3 : (W (Proc.devRef .tc Cert.KernelIdeal.main_arg3) : FVec Ideal ⟨1, ![128]⟩ .f32) = W' (Proc.devRef .tc Cert.ReferenceIdeal.main_arg3))
    (h4 : (W (Proc.devRef .tc Cert.KernelIdeal.main_arg4) : FVec Ideal ⟨1, ![128]⟩ .f32) = W' (Proc.devRef .tc Cert.ReferenceIdeal.main_arg4))
    (h5 : (W (Proc.devRef .tc Cert.KernelIdeal.main_arg5) : FVec Ideal ⟨2, ![128, 256]⟩ .f32) = W' (Proc.devRef .tc Cert.ReferenceIdeal.main_arg5))
    (h6 : (W (Proc.devRef .tc Cert.KernelIdeal.main_arg6) : FVec Ideal ⟨1, ![256]⟩ .f32) = W' (Proc.devRef .tc Cert.ReferenceIdeal.main_arg6))
    (h7 : (W (Proc.devRef .tc Cert.KernelIdeal.main_arg7) : FVec Ideal ⟨1, ![256]⟩ .f32) = W' (Proc.devRef .tc Cert.ReferenceIdeal.main_arg7))
    (h8 : (W (Proc.devRef .tc Cert.KernelIdeal.main_arg8) : FVec Ideal ⟨1, ![256]⟩ .f32) = W' (Proc.devRef .tc Cert.ReferenceIdeal.main_arg8))
    (h9 : (W (Proc.devRef .tc Cert.KernelIdeal.main_arg9) : FVec Ideal ⟨2, ![256, 128]⟩ .f32) = W' (Proc.devRef .tc Cert.ReferenceIdeal.main_arg9))
    (h10 : (W (Proc.devRef .tc Cert.KernelIdeal.main_arg10) : FVec Ideal ⟨1, ![128]⟩ .f32) = W' (Proc.devRef .tc Cert.ReferenceIdeal.main_arg10))
    (h11 : (W (Proc.devRef .tc Cert.KernelIdeal.main_arg11) : FVec Ideal ⟨1, ![128]⟩ .f32) = W' (Proc.devRef .tc Cert.ReferenceIdeal.main_arg11))
    (h12 : (W (Proc.devRef .tc Cert.KernelIdeal.main_arg12) : FVec Ideal ⟨1, ![128]⟩ .f32) = W' (Proc.devRef .tc Cert.ReferenceIdeal.main_arg12))
    (h13 : (W (Proc.devRef .tc Cert.KernelIdeal.main_arg13) : FVec Ideal ⟨2, ![128, 32]⟩ .f32) = W' (Proc.devRef .tc Cert.ReferenceIdeal.main_arg13))
    (h14 : (W (Proc.devRef .tc Cert.KernelIdeal.main_arg14) : FVec Ideal ⟨1, ![32]⟩ .f32) = W' (Proc.devRef .tc Cert.ReferenceIdeal.main_arg14)) :
    (StableHlo.after (List.flatten [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5]) W (Proc.devRef .tc Cert.KernelIdeal.main_v115) : FVec Ideal ⟨2, ![64, 32]⟩ .f32)
        = StableHlo.after (Cert.ReferenceIdeal.Hand.R1ops ++ (Cert.ReferenceIdeal.Hand.R2ops ++ Cert.ReferenceIdeal.Hand.R3ops)) W' (Proc.devRef .tc Cert.ReferenceIdeal.main_v120)
    ∧ (StableHlo.after (List.flatten [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5]) W (Proc.devRef .tc Cert.KernelIdeal.main_v40) : FVec Ideal ⟨2, ![64, 128]⟩ .f32)
        = StableHlo.after (Cert.ReferenceIdeal.Hand.R1ops ++ (Cert.ReferenceIdeal.Hand.R2ops ++ Cert.ReferenceIdeal.Hand.R3ops)) W' (Proc.devRef .tc Cert.ReferenceIdeal.main_v45) := by
  -- after the first stretch: the gate's product, the first linear layer's output, the later parameter arrays
  have g1 := seg1_gate W W' hwx h2 h3 h4
  have e1 := seg1_lin W W' hwx h2 h3 h4 h5 h6
  have a7 : (StableHlo.after K1 W (Proc.devRef .tc Cert.KernelIdeal.main_arg7) : FVec Ideal ⟨1, ![256]⟩ .f32)
      = StableHlo.after Cert.ReferenceIdeal.Hand.R1ops W' (Proc.devRef .tc Cert.ReferenceIdeal.main_arg7) :=
    (K1_keep W (by decide)).trans (h7.trans (R1_keep W' (by decide)).symm)
  have a8 : (StableHlo.after K1 W (Proc.devRef .tc Cert.KernelIdeal.main_arg8) : FVec Ideal ⟨1, ![256]⟩ .f32)
      = StableHlo.after Cert.ReferenceIdeal.Hand.R1ops W' (Proc.devRef .tc Cert.ReferenceIdeal.main_arg8) :=
    (K1_keep W (by decide)).trans (h8.trans (R1_keep W' (by decide)).symm)
  have a9 : (StableHlo.after K1 W (Proc.devRef .tc Cert.KernelIdeal.main_arg9) : FVec Ideal ⟨2, ![256, 128]⟩ .f32)
      = StableHlo.after Cert.ReferenceIdeal.Hand.R1ops W' (Proc.devRef .tc Cert.ReferenceIdeal.main_arg9) :=
    (K1_keep W (by decide)).trans (h9.trans (R1_keep W' (by decide)).symm)
  have a10 : (StableHlo.after K1 W (Proc.devRef .tc Cert.KernelIdeal.main_arg10) : FVec Ideal ⟨1, ![128]⟩ .f32)
      = StableHlo.after Cert.ReferenceIdeal.Hand.R1ops W' (Proc.devRef .tc Cert.ReferenceIdeal.main_arg10) :=
    (K1_keep W (by decide)).trans (h10.trans (R1_keep W' (by decide)).symm)
  have a11 : (StableHlo.after K1 W (Proc.devRef .tc Cert.KernelIdeal.main_arg11) : FVec Ideal ⟨1, ![128]⟩ .f32)
      = StableHlo.after Cert.ReferenceIdeal.Hand.R1ops W' (Proc.devRef .tc Cert.ReferenceIdeal.main_arg11) :=
    (K1_keep W (by decide)).trans (h11.trans (R1_keep W' (by decide)).symm)
  have a12 : (StableHlo.after K1 W (Proc.devRef .tc Cert.KernelIdeal.main_arg12) : FVec Ideal ⟨1, ![128]⟩ .f32)
      = StableHlo.after Cert.ReferenceIdeal.Hand.R1ops W' (Proc.devRef .tc Cert.ReferenceIdeal.main_arg12) :=
    (K1_keep W (by decide)).trans (h12.trans (R1_keep W' (by decide)).symm)
  have a13 : (StableHlo.after K1 W (Proc.devRef .tc Cert.KernelIdeal.main_arg13) : FVec Ideal ⟨2, ![128, 32]⟩ .f32)
      = StableHlo.after Cert.ReferenceIdeal.Hand.R1ops W' (Proc.devRef .tc Cert.ReferenceIdeal.main_arg13) :=
    (K1_keep W (by decide)).trans (h13.trans (R1_keep W' (by decide)).symm)
  have a14 : (StableHlo.after K1 W (Proc.devRef .tc Cert.KernelIdeal.main_arg14) : FVec Ideal ⟨1, ![32]⟩ .f32)
      = StableHlo.after Cert.ReferenceIdeal.Hand.R1ops W' (Proc.devRef .tc Cert.ReferenceIdeal.main_arg14) :=
    (K1_keep W (by decide)).trans (h14.trans (R1_keep W' (by decide)).symm)
  -- after the second stretch: the second linear layer's output, the output layer's arrays
  have e2 := seg2_lin (StableHlo.after K1 W) (StableHlo.after Cert.ReferenceIdeal.Hand.R1ops W') e1 a7 a8 a9 a10
  have b11 : (StableHlo.after K2 (StableHlo.after K1 W) (Proc.devRef .tc Cert.KernelIdeal.main_arg11) : FVec Ideal ⟨1, ![128]⟩ .f32)
      = StableHlo.after Cert.ReferenceIdeal.Hand.R2ops (StableHlo.after Cert.ReferenceIdeal.Hand.R1ops W') (Proc.devRef .tc Cert.ReferenceIdeal.main_arg11) :=
    (K2_keep _ (by decide)).trans (a11.trans (R2_keep _ (by decide)).symm)
  have b12 : (StableHlo.after K2 (StableHlo.after K1 W) (Proc.devRef .tc Cert.KernelIdeal.main_arg12) : FVec Ideal ⟨1, ![128]⟩ .f32)
      = StableHlo.after Cert.ReferenceIdeal.Hand.R2ops (StableHlo.after Cert.ReferenceIdeal.Hand.R1ops W') (Proc.devRef .tc Cert.ReferenceIdeal.main_arg12) :=
    (K2_keep _ (by decide)).trans (a12.trans (R2_keep _ (by decide)).symm)
  have b13 : (StableHlo.after K2 (StableHlo.after K1 W) (Proc.devRef .tc Cert.KernelIdeal.main_arg13) : FVec Ideal ⟨2, ![128, 32]⟩ .f32)
      = StableHlo.after Cert.ReferenceIdeal.Hand.R2ops (StableHlo.after Cert.ReferenceIdeal.Hand.R1ops W') (Proc.devRef .tc Cert.ReferenceIdeal.main_arg13) :=
    (K2_keep _ (by decide)).trans (a13.trans (R2_keep _ (by decide)).symm)
  have b14 : (StableHlo.after K2 (StableHlo.after K1 W) (Proc.devRef .tc Cert.KernelIdeal.main_arg14) : FVec Ideal ⟨1, ![32]⟩ .f32)
      = StableHlo.after Cert.ReferenceIdeal.Hand.R2ops (StableHlo.after Cert.ReferenceIdeal.Hand.R1ops W') (Proc.devRef .tc Cert.ReferenceIdeal.main_arg14) :=
    (K2_keep _ (by decide)).trans (a14.trans (R2_keep _ (by decide)).symm)
  -- after the third stretch: the softmax; and the gate's product, untouched since the first stretch
  have e3 := seg3_softmax (StableHlo.after K2 (StableHlo.after K1 W))
    (StableHlo.after Cert.ReferenceIdeal.Hand.R2ops (StableHlo.after Cert.ReferenceIdeal.Hand.R1ops W')) e2 b11 b12 b13 b14
  have g3 : (StableHlo.after K3 (StableHlo.after K2 (StableHlo.after K1 W)) (Proc.devRef .tc Cert.KernelIdeal.main_v40) : FVec Ideal ⟨2, ![64, 128]⟩ .f32)
      = StableHlo.after Cert.ReferenceIdeal.Hand.R3ops (StableHlo.after Cert.ReferenceIdeal.Hand.R2ops (StableHlo.after Cert.ReferenceIdeal.Hand.R1ops W'))
          (Proc.devRef .tc Cert.ReferenceIdeal.main_v45) :=
    (K3_keep _ (by decide)).trans ((K2_keep _ (by decide)).trans (g1.trans ((R3_keep _ (by decide)).trans (R2_keep _ (by decide))).symm))
  rw [afterK, afterR]
  exact ⟨e3, g3⟩

end Cert.Tail

end
-- ==== Proof.PreIdx.lean ====
/-
  The precondition, read back at the pathway indices. The printed precondition is a conjunction, a chain of
  one-bit "and"s, whose last conjunct is the "all" of the elementwise signed comparison idx ≥ 0: a reduction
  by "and" of the comparison bits over the one axis of idx into a scalar. If the whole conjunction is 1 then
  its last conjunct is 1; a reduction by "and" that is 1 met a 1 at every element; and a signed "≥" bit that
  is 1 says the right operand, here the word 0, is at most the left one as signed integers.
-/
import proofs.«136356_j52656299049592_1_alg».proof.Proof.Gen.Pre_finite_inputs
import Idealize.ShloMosaic.Lib.ReduceAll
import Idealize.ShloMosaic.Lib.ValueIdx

namespace Cert.PreIdx

open Idealize.ShloMosaic Cert.Pre_finite_inputs

/-- The scalar shape has one index. -/
instance : Subsingleton S_.Idx := ⟨fun a b => funext fun d => d.elim0⟩

/-- The precondition is the "and" of its first fifteen conjuncts with the last: the "all" of idx ≥ 0. -/
theorem fn_eq_and {F : FTy → Type} [FloatOps F] [Cert.Pre_finite_inputs.Facts]
    (a0 : FVec F S64x800000 .f32) (a1 : FVec F S800000 .f32) (a2 : FVec F S128 .f32) (a3 : FVec F S128 .f32)
    (a4 : FVec F S128 .f32) (a5 : FVec F S128x256 .f32) (a6 : FVec F S256 .f32) (a7 : FVec F S256 .f32)
    (a8 : FVec F S256 .f32) (a9 : FVec F S256x128 .f32) (a10 : FVec F S128 .f32) (a11 : FVec F S128 .f32)
    (a12 : FVec F S128 .f32) (a13 : FVec F S128x32 .f32) (a14 : FVec F S32 .f32) (a15 : IVec S800000 32) :
    ∃ X : IVec S_ 1, Cert.Pre_finite_inputs.fn (F := F) a0 a1 a2 a3 a4 a5 a6 a7 a8 a9 a10 a11 a12 a13 a14 a15
      = andi X (Host.reduce IntOp.andi
          (cmpi .sge a15 (broadcastInDim S800000 ![] Facts.bcast_S_S800000 (constantI S_ 32 0#32)))
          (constantI S_ 1 1#1) Facts.reducesTo_S800000_S_d0 Facts.h_S_) :=
  ⟨_, rfl⟩

/-- Under the precondition every pathway index is non-negative as a signed 32-bit number. -/
theorem idx_nonneg {F : FTy → Type} [FloatOps F] [Cert.Pre_finite_inputs.Facts]
    (a0 : FVec F S64x800000 .f32) (a1 : FVec F S800000 .f32) (a2 : FVec F S128 .f32) (a3 : FVec F S128 .f32)
    (a4 : FVec F S128 .f32) (a5 : FVec F S128x256 .f32) (a6 : FVec F S256 .f32) (a7 : FVec F S256 .f32)
    (a8 : FVec F S256 .f32) (a9 : FVec F S256x128 .f32) (a10 : FVec F S128 .f32) (a11 : FVec F S128 .f32)
    (a12 : FVec F S128 .f32) (a13 : FVec F S128x32 .f32) (a14 : FVec F S32 .f32) (a15 : IVec S800000 32)
    (h : Cert.Pre_finite_inputs.fn (F := F) a0 a1 a2 a3 a4 a5 a6 a7 a8 a9 a10 a11 a12 a13 a14 a15 = (fun _ => 1#1)) :
    ∀ i, 0 ≤ (a15 i).toInt := by
  intro i
  obtain ⟨X, hX⟩ := fn_eq_and a0 a1 a2 a3 a4 a5 a6 a7 a8 a9 a10 a11 a12 a13 a14 a15
  -- the conjunction at the scalar's one index
  have e : IntOp.andi (X ValueIdx.ix0) (Host.reduce IntOp.andi
      (cmpi .sge a15 (broadcastInDim S800000 ![] Facts.bcast_S_S800000 (constantI S_ 32 0#32)))
      (constantI S_ 1 1#1) Facts.reducesTo_S800000_S_d0 Facts.h_S_ ValueIdx.ix0) = 1#1 :=
    (congrFun hX ValueIdx.ix0).symm.trans (congrFun h ValueIdx.ix0)
  -- its last conjunct, the "all", is 1; so the comparison bit at i is 1
  have ei := Host.reduce_andi_all _ _ _ _ _ (IntOp.andi_eq_one.1 e).2 i
  -- the bit compares idx i against the broadcast word 0
  have hc : (0#32 : BitVec 32).toInt ≤ (a15 i).toInt := IntOp.cmpi_sge.1 ei
  have h0 : (0#32 : BitVec 32).toInt = 0 := by decide
  rw [h0] at hc
  exact hc

end Cert.PreIdx
-- ==== Proof.lean ====
/-
  The certificate of a weighted pathway sum followed by a small network head. The kernel computes, for a batch of 64 rows
  and 800000 features, the [64, 128] array WX[b, p] = Σ over the features n with pathway index idx[n] = p of x[b, n] · w[n]:
  a pallas_call over a grid of 2 batch blocks × 49 feature tiles multiplies each tile of x by the weights, builds the
  one-hot matrix of the tile's indices against the 128 pathways, and accumulates the product x·w times one-hot into the
  batch block's output (zeroed at the first tile, written back after the last); the feature axis is padded with zeros
  to 49 · 16384. The reference computes WX by a scatter-add of x · w along the indices, wrapping a negative index by
  +128 first. On the extended reals both are the same sum once every index is non-negative (the precondition's added
  conjunct; an index of 128 or more lands in no bin in either program): a sum may be taken in any order, a padded
  feature contributes 0 · 0, and a one-hot factor is 1 or 0. After WX both programs run the same 136 host operations
  (ReLU, batch normalisation, a sigmoid gate — the second result —, three linear layers with ReLU and batch
  normalisation between them, a softmax — the first result) on the same parameter arrays; the linear layers' declared
  precision does not change an exact product.
  The three frames: each kernel program's frame is its pallas_call's frame between the host lines (the body run once
  per case of its one branch, the accumulator carried in the output block's buffer across the 49 tiles); the reference
  is a straight-line host program. The idealization's ledger is empty.
-/
import proofs.«136356_j52656299049592_1_alg».proof.Defs
import proofs.«136356_j52656299049592_1_alg».proof.Proof.Gen.Kernel
import proofs.«136356_j52656299049592_1_alg».proof.Proof.Gen.KernelIdeal
import proofs.«136356_j52656299049592_1_alg».proof.Proof.Gen.ReferenceIdeal
import proofs.«136356_j52656299049592_1_alg».proof.Proof.Gen.Pre_finite_inputs
import proofs.«136356_j52656299049592_1_alg».proof.Proof.K.Frame
import proofs.«136356_j52656299049592_1_alg».proof.Proof.KI.Results
import proofs.«136356_j52656299049592_1_alg».proof.Proof.KV.Final
import proofs.«136356_j52656299049592_1_alg».proof.Proof.Ref.Frame
import proofs.«136356_j52656299049592_1_alg».proof.Proof.Ref.Prefix
import proofs.«136356_j52656299049592_1_alg».proof.Proof.Tail.Agree
import proofs.«136356_j52656299049592_1_alg».proof.Proof.PreIdx
import proofs.«136356_j52656299049592_1_alg».proof.Proof.Spec

set_option maxRecDepth 16384

noncomputable section

namespace Cert.Proof

open Idealize.ShloMosaic Idealize.ShloMosaic.TcCoe Idealize.ShloMosaic.StableHlo Idealize.SL.Sem

/-! ## The three frames -/

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ

/-! ## The two programs compute the same results -/

set_option maxHeartbeats 2000000 in
/-- At the exact instance the kernel's pallas_call leaves the weighted pathway sum in its output array, the reference's
    scatter-add (the pathway indices being non-negative, by the precondition) computes the same sum, and the host lines
    that follow are the same computation in both programs, from the same parameter arrays. -/
theorem algebraic : Cert.algebraic_KernelIdeal_ReferenceIdeal := by
  intro m ρ m' ρ' hpre hagree
  refine ⟨fun c => Pipeline.afterTail₀ Cert.KernelIdeal.cfgs (Cert.KernelIdeal.Hand.dats m) 0 (Cert.KernelIdeal.Hand.V0 m) [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5] c Cert.KernelIdeal.main_v115,
    fun c => Pipeline.afterTail₀ Cert.KernelIdeal.cfgs (Cert.KernelIdeal.Hand.dats m) 0 (Cert.KernelIdeal.Hand.V0 m) [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5] c Cert.KernelIdeal.main_v40,
    Cert.KernelIdeal.Hand.run_results (F := Ideal) m ρ, ?_⟩
  refine (θ_run Cert.ReferenceIdeal.defs _ _).mono (fun _ h c => ⟨(h c).1.trans ?_, (h c).2.1.trans ?_, (h c).2.2⟩)
    (Cert.ReferenceIdeal.Hand.run_results (F := Ideal) m' ρ')
  all_goals
    have hg := hagree c
    obtain ⟨e0, e1, e2, e3, e4, e5, e6, e7, e8, e9, e10, e11, e12, e13, e14, e15⟩ := hg
    -- the pathway indices are non-negative: the precondition, read at the reference's memory through the agreement
    have hnn : ∀ i, 0 ≤ ((m' ((c.tc : Thread Cert.ReferenceIdeal.nD Cert.ReferenceIdeal.τ).loc Cert.ReferenceIdeal.main_arg15) : IVec Cert.ReferenceIdeal.S800000 32) i).toInt := by
      rw [e15]
      exact Cert.PreIdx.idx_nonneg _ _ _ _ _ _ _ _ _ _ _ _ _ _ _ _ (hpre c)
    -- both pathway sums are the specification's
    have hwx : (Pipeline.withArrays Cert.KernelIdeal.spec0 c (Cert.KernelIdeal.Hand.V0 m c) (fun w => (Cert.KernelIdeal.Hand.dats m 0 c).arrAt w Cert.KernelIdeal.cfg0.N) (Proc.devRef .tc Cert.KernelIdeal.main_v5) : FVec Ideal ⟨2, ![64, 128]⟩ .f32)
        = StableHlo.after (Cert.ReferenceIdeal.Hand.R0ops (F := Ideal)) (launchContents m' c) (Proc.devRef .tc Cert.ReferenceIdeal.main_v10) := by
      rw [Cert.KernelIdeal.Hand.exit_wx m c]
      refine (Cert.KernelIdeal.Hand.wx_final m c).trans ?_
      rw [Cert.ReferenceIdeal.Hand.R0_wx m' c hnn, e0, e1, e15]
    have T := Cert.Tail.tail_agree
      (Pipeline.withArrays Cert.KernelIdeal.spec0 c (Cert.KernelIdeal.Hand.V0 m c) (fun w => (Cert.KernelIdeal.Hand.dats m 0 c).arrAt w Cert.KernelIdeal.cfg0.N))
      (StableHlo.after (Cert.ReferenceIdeal.Hand.R0ops (F := Ideal)) (launchContents m' c)) hwx
      ((Cert.KernelIdeal.Hand.exit_main_arg2 m c).trans (e2.symm.trans (Cert.ReferenceIdeal.Hand.R0_arg_2 m' c).symm))
      ((Cert.KernelIdeal.Hand.exit_main_arg3 m c).trans (e3.symm.trans (Cert.ReferenceIdeal.Hand.R0_arg_3 m' c).symm))
      ((Cert.KernelIdeal.Hand.exit_main_arg4 m c).trans (e4.symm.trans (Cert.ReferenceIdeal.Hand.R0_arg_4 m' c).symm))
      ((Cert.KernelIdeal.Hand.exit_main_arg5 m c).trans (e5.symm.trans (Cert.ReferenceIdeal.Hand.R0_arg_5 m' c).symm))
      ((Cert.KernelIdeal.Hand.exit_main_arg6 m c).trans (e6.symm.trans (Cert.ReferenceIdeal.Hand.R0_arg_6 m' c).symm))
      ((Cert.KernelIdeal.Hand.exit_main_arg7 m c).trans (e7.symm.trans (Cert.ReferenceIdeal.Hand.R0_arg_7 m' c).symm))
      ((Cert.KernelIdeal.Hand.exit_main_arg8 m c).trans (e8.symm.trans (Cert.ReferenceIdeal.Hand.R0_arg_8 m' c).symm))
      ((Cert.KernelIdeal.Hand.exit_main_arg9 m c).trans (e9.symm.trans (Cert.ReferenceIdeal.Hand.R0_arg_9 m' c).symm))
      ((Cert.KernelIdeal.Hand.exit_main_arg10 m c).trans (e10.symm.trans (Cert.ReferenceIdeal.Hand.R0_arg_10 m' c).symm))
      ((Cert.KernelIdeal.Hand.exit_main_arg11 m c).trans (e11.symm.trans (Cert.ReferenceIdeal.Hand.R0_arg_11 m' c).symm))
      ((Cert.KernelIdeal.Hand.exit_main_arg12 m c).trans (e12.symm.trans (Cert.ReferenceIdeal.Hand.R0_arg_12 m' c).symm))
      ((Cert.KernelIdeal.Hand.exit_main_arg13 m c).trans (e13.symm.trans (Cert.ReferenceIdeal.Hand.R0_arg_13 m' c).symm))
      ((Cert.KernelIdeal.Hand.exit_main_arg14 m c).trans (e14.symm.trans (Cert.ReferenceIdeal.Hand.R0_arg_14 m' c).symm))
  · exact T.1.symm
  · exact T.2.symm

/-- The certificate: the three programs run and leave their arguments unchanged; the idealization changed nothing (its
    ledger is empty); the idealized kernel and the idealized reference compute the same two results. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
